-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S64x8 .f32) (main_arg10 : FVec F S8 .f32) (main_v33 : IVec S_ 1) : IVec S_ 1 :=
  let main_v34 : FVec F S64x8 .f32 := Host.absf main_arg9
  let main_cst_12 : FVec F S_ .f32 := constant S_ .f32 0x7F800000#32
  let main_v35 : FVec F S64x8 .f32 := broadcastInDim S64x8 ![] bcast_S_S64x8 main_cst_12
  let main_v36 : IVec S64x8 1 := cmpf .olt main_v34 main_v35
  let main_c_13 : IVec S_ 1 := constantI S_ 1 1#1
  let main_v37 : IVec S_ 1 := (fun x v => Host.reduce IntOp.andi x v reducesTo_S64x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x8 .f32) (main_arg10 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1250000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x8 .f32) (main_arg10 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S100000x1 : Shape := ⟨2, ![100000, 1]⟩
abbrev S1x64 : Shape := ⟨2, ![1, 64]⟩
abbrev S1x8 : Shape := ⟨2, ![1, 8]⟩
abbrev S5000x64 : Shape := ⟨2, ![5000, 64]⟩
abbrev S1250000x64 : Shape := ⟨2, ![1250000, 64]⟩
abbrev S5000x1 : Shape := ⟨2, ![5000, 1]⟩
abbrev S512x8 : Shape := ⟨2, ![512, 8]⟩
abbrev S512x64 : Shape := ⟨2, ![512, 64]⟩
abbrev S512x1 : Shape := ⟨2, ![512, 1]⟩
abbrev S1x5000 : Shape := ⟨2, ![1, 5000]⟩
abbrev S512x5000 : Shape := ⟨2, ![512, 5000]⟩

abbrev nBuf : Space → Nat
  | .hbm => 104
  | .vmem => 47
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x8, .f32⟩
  | .hbm, ⟨10, _⟩ => ⟨S8, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S100000, .f32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000, .f32⟩
  | .hbm, ⟨34, _⟩ => ⟨S_, .i32⟩
  | .hbm, ⟨35, _⟩ => ⟨S1250000, .i32⟩
  | .hbm, ⟨36, _⟩ => ⟨S1250000, .i1⟩
  | .hbm, ⟨37, _⟩ => ⟨S_, .i32⟩
  | .hbm, ⟨38, _⟩ => ⟨S1250000, .i32⟩
  | .hbm, ⟨39, _⟩ => ⟨S1250000, .i32⟩
  | .hbm, ⟨40, _⟩ => ⟨S1250000, .i32⟩
  | .hbm, ⟨41, _⟩ => ⟨S1250000x1, .i32⟩
  | .hbm, ⟨42, _⟩ => ⟨S1250000, .f32⟩
  | .hbm, ⟨43, _⟩ => ⟨S1250000, .f32⟩
  | .hbm, ⟨44, _⟩ => ⟨S1250000x1, .f32⟩
  | .hbm, ⟨45, _⟩ => ⟨S100000, .f32⟩
  | .hbm, ⟨46, _⟩ => ⟨S100000x1, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x8, .f32⟩
  | .hbm, ⟨51, _⟩ => ⟨S100000x1, .i32⟩
  | .hbm, ⟨52, _⟩ => ⟨S100000x64, .f32⟩
  | .hbm, ⟨53, _⟩ => ⟨S_, .i32⟩
  | .hbm, ⟨54, _⟩ => ⟨S1250000, .i32⟩
  | .hbm, ⟨55, _⟩ => ⟨S1250000, .i1⟩
  | .hbm, ⟨56, _⟩ => ⟨S_, .i32⟩
  | .hbm, ⟨57, _⟩ => ⟨S1250000, .i32⟩
  | .hbm, ⟨58, _⟩ => ⟨S1250000, .i32⟩
  | .hbm, ⟨59, _⟩ => ⟨S1250000, .i32⟩
  | .hbm, ⟨60, _⟩ => ⟨S1250000x1, .i32⟩
  | .hbm, ⟨61, _⟩ => ⟨S1250000x64, .f32⟩
  | .hbm, ⟨62, _⟩ => ⟨S1250000x64, .f32⟩
  | .hbm, ⟨63, _⟩ => ⟨S1250000x64, .f32⟩
  | .hbm, ⟨64, _⟩ => ⟨S_, .f32⟩
  | .hbm, ⟨65, _⟩ => ⟨S100000x64, .f32⟩
  | .hbm, ⟨66, _⟩ => ⟨S1250000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1250000, .i32⟩
  | .hbm, ⟨72, _⟩ => ⟨S1250000, .i1⟩
  | .hbm, ⟨73, _⟩ => ⟨S_, .i32⟩
  | .hbm, ⟨74, _⟩ => ⟨S1250000, .i32⟩
  | .hbm, ⟨75, _⟩ => ⟨S1250000, .i32⟩
  | .hbm, ⟨76, _⟩ => ⟨S1250000, .i32⟩
  | .hbm, ⟨77, _⟩ => ⟨S1250000x1, .i32⟩
  | .hbm, ⟨78, _⟩ => ⟨S1250000x64, .f32⟩
  | .hbm, ⟨79, _⟩ => ⟨S1250000x64, .f32⟩
  | .hbm, ⟨80, _⟩ => ⟨S1250000x64, .f32⟩
  | .hbm, ⟨81, _⟩ => ⟨S_, .f32⟩
  | .hbm, ⟨82, _⟩ => ⟨S100000x64, .f32⟩
  | .hbm, ⟨83, _⟩ => ⟨S1250000x1, .i32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1250000, .i32⟩
  | .hbm, ⟨89, _⟩ => ⟨S1250000, .i1⟩
  | .hbm, ⟨90, _⟩ => ⟨S_, .i32⟩
  | .hbm, ⟨91, _⟩ => ⟨S1250000, .i32⟩
  | .hbm, ⟨92, _⟩ => ⟨S1250000, .i32⟩
  | .hbm, ⟨93, _⟩ => ⟨S1250000, .i32⟩
  | .hbm, ⟨94, _⟩ => ⟨S1250000x1, .i32⟩
  | .hbm, ⟨95, _⟩ => ⟨S1250000x64, .f32⟩
  | .hbm, ⟨96, _⟩ => ⟨S1250000x64, .f32⟩
  | .hbm, ⟨97, _⟩ => ⟨S1250000x64, .f32⟩
  | .hbm, ⟨98, _⟩ => ⟨S_, .f32⟩
  | .hbm, ⟨99, _⟩ => ⟨S100000x64, .f32⟩
  | .hbm, ⟨100, _⟩ => ⟨S1250000x1, .i32⟩
  | .hbm, ⟨101, _⟩ => ⟨S100000x64, .f32⟩
  | .hbm, ⟨102, _⟩ => ⟨S100000x64, .f32⟩
  | .hbm, ⟨103, _⟩ => ⟨S512x8, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x1, .i32⟩
  | .local _ .vmem, ⟨41, _⟩ => ⟨S5000x1, .i32⟩
  | .local _ .vmem, ⟨42, _⟩ => ⟨S64x8, .f32⟩
  | .local _ .vmem, ⟨43, _⟩ => ⟨S1x8, .f32⟩
  | .local _ .vmem, ⟨44, _⟩ => ⟨S512x8, .f32⟩
  | .local _ .vmem, ⟨45, _⟩ => ⟨S512x64, .f32⟩
  | .local _ .vmem, ⟨46, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60_0 : Ref sig .tc := ⟨.hbm, 85, rfl⟩
abbrev main_v60_1 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_scratch0 : Ref sig .tc := ⟨.vmem, 45, rfl⟩
abbrev cc4_scratch1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v30 : BitVec 1 := Scalar.cmpi .eq arg0 c19_i32
  let v31 : BitVec 32 := Scalar.extui v30
  let c0_i32_16 : BitVec 32 := 0#32
  let v32 : BitVec 1 := Scalar.cmpi .ne v31 c0_i32_16
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  shapeCasts_S64_S1x64 : S64.ShapeCasts S1x64
  shapeCasts_S8_S1x8 : S8.ShapeCasts S1x8
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1_d0_w32 : S512x1.Iotas .tc 32 [0]
  transposes_S5000x1_p1_0_S1x5000 : S5000x1.Transposes [1, 0] S1x5000
  broadcasts_S512x1_S512x5000 : S512x1.Broadcasts S512x5000
  broadcasts_S1x5000_S512x5000 : S1x5000.Broadcasts S512x5000
  broadcasts_S512x1_S512x64 : S512x1.Broadcasts S512x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S512x8_S512x8_0_0 : ∀ a, (![0, 0] : Fin 2 → Nat) a + S512x8.size a ≤ S512x8.size a
  h_S512x8 : 0 < S512x8.numel
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S512x5000_S5000x64_S512x64_1_0_0_1_n_n_wf : DotDims.WF S512x5000 S5000x64 S512x64 [1] [0] [0] [1] [] []
  dot_S512x5000_S5000x1_S512x1_1_0_0_1_n_n_wf : DotDims.WF S512x5000 S5000x1 S512x1 [1] [0] [0] [1] [] []
  dot_S512x64_S64x8_S512x8_1_0_0_1_n_n_wf : DotDims.WF S512x64 S64x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x8.size a ≤ S64x8.size a
  hwx4_2 : ∀ i : grid4.Coords, EltTy.bits .f32 = 32 ∨ (Rect.block (s := S64x8) S64x8.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x8.size a ≤ S1x8.size a
  hwx4_3 : ∀ i : grid4.Coords, EltTy.bits .f32 = 32 ∨ (Rect.block (s := S1x8) S1x8.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x8.size a ≤ S512x8.size a
  hwx4_4 : ∀ i : grid4.Coords, EltTy.bits .f32 = 32 ∨ (Rect.block (s := S512x8) S512x8.size (cc4_transform_4 i) (hinb4_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S512x5000_S5000x64_S512x64_1_0_0_1_n_n : DotDims S512x5000 S5000x64 S512x64 where
  lhsContracting := [1]
  rhsContracting := [0]
  lhsNonContracting := [0]
  rhsNonContracting := [1]
  lhsBatch := []
  rhsBatch := []
  wf := dot_S512x5000_S5000x64_S512x64_1_0_0_1_n_n_wf
def dot_S512x5000_S5000x1_S512x1_1_0_0_1_n_n : DotDims S512x5000 S5000x1 S512x1 where
  lhsContracting := [1]
  rhsContracting := [0]
  lhsNonContracting := [0]
  rhsNonContracting := [1]
  lhsBatch := []
  rhsBatch := []
  wf := dot_S512x5000_S5000x1_S512x1_1_0_0_1_n_n_wf
def dot_S512x64_S64x8_S512x8_1_0_0_1_n_n : DotDims S512x64 S64x8 S512x8 where
  lhsContracting := [1]
  rhsContracting := [0]
  lhsNonContracting := [0]
  rhsNonContracting := [1]
  lhsBatch := []
  rhsBatch := []
  wf := dot_S512x64_S64x8_S512x8_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v47_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47_1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S1x8.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S512x8.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x8 : Shape := ⟨2, ![512, 8]⟩
abbrev S1x8 : Shape := ⟨2, ![1, 8]⟩

abbrev nBuf : Space → Nat
  | .hbm => 214
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x8, .f32⟩
  | 10 => ⟨S8, .f32⟩
  | 11 => ⟨S1x1250000, .i32⟩
  | 12 => ⟨S1250000, .i32⟩
  | 13 => ⟨S1x1250000, .i32⟩
  | 14 => ⟨S1250000, .i32⟩
  | 15 => ⟨S100000x64, .f32⟩
  | 16 => ⟨S_, .f32⟩
  | 17 => ⟨S1250000, .f32⟩
  | 18 => ⟨S_, .f32⟩
  | 19 => ⟨S100000, .f32⟩
  | 20 => ⟨S1250000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1250000, .i32⟩
  | 28 => ⟨S1250000, .i1⟩
  | 29 => ⟨S_, .i32⟩
  | 30 => ⟨S1250000, .i32⟩
  | 31 => ⟨S1250000, .i32⟩
  | 32 => ⟨S1250000, .i32⟩
  | 33 => ⟨S1250000x1, .i32⟩
  | 34 => ⟨S1250000, .f32⟩
  | 35 => ⟨S_, .i32⟩
  | 36 => ⟨S1250000, .i32⟩
  | 37 => ⟨S1250000, .i1⟩
  | 38 => ⟨S_, .i32⟩
  | 39 => ⟨S1250000, .i32⟩
  | 40 => ⟨S1250000, .i32⟩
  | 41 => ⟨S1250000, .i32⟩
  | 42 => ⟨S1250000x1, .i32⟩
  | 43 => ⟨S1250000, .f32⟩
  | 44 => ⟨S1250000, .f32⟩
  | 45 => ⟨S1250000x1, .f32⟩
  | 46 => ⟨S_, .i32⟩
  | 47 => ⟨S1250000, .i32⟩
  | 48 => ⟨S1250000, .i1⟩
  | 49 => ⟨S_, .i32⟩
  | 50 => ⟨S1250000, .i32⟩
  | 51 => ⟨S1250000, .i32⟩
  | 52 => ⟨S1250000, .i32⟩
  | 53 => ⟨S1250000x1, .i32⟩
  | 54 => ⟨S1250000x64, .f32⟩
  | 55 => ⟨S1250000x64, .f32⟩
  | 56 => ⟨S1250000x64, .f32⟩
  | 57 => ⟨S_, .f32⟩
  | 58 => ⟨S100000x64, .f32⟩
  | 59 => ⟨S1250000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1250000, .f32⟩
  | 75 => ⟨S_, .f32⟩
  | 76 => ⟨S100000, .f32⟩
  | 77 => ⟨S1250000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1250000, .i32⟩
  | 85 => ⟨S1250000, .i1⟩
  | 86 => ⟨S_, .i32⟩
  | 87 => ⟨S1250000, .i32⟩
  | 88 => ⟨S1250000, .i32⟩
  | 89 => ⟨S1250000, .i32⟩
  | 90 => ⟨S1250000x1, .i32⟩
  | 91 => ⟨S1250000, .f32⟩
  | 92 => ⟨S_, .i32⟩
  | 93 => ⟨S1250000, .i32⟩
  | 94 => ⟨S1250000, .i1⟩
  | 95 => ⟨S_, .i32⟩
  | 96 => ⟨S1250000, .i32⟩
  | 97 => ⟨S1250000, .i32⟩
  | 98 => ⟨S1250000, .i32⟩
  | 99 => ⟨S1250000x1, .i32⟩
  | 100 => ⟨S1250000, .f32⟩
  | 101 => ⟨S1250000, .f32⟩
  | 102 => ⟨S1250000x1, .f32⟩
  | 103 => ⟨S_, .i32⟩
  | 104 => ⟨S1250000, .i32⟩
  | 105 => ⟨S1250000, .i1⟩
  | 106 => ⟨S_, .i32⟩
  | 107 => ⟨S1250000, .i32⟩
  | 108 => ⟨S1250000, .i32⟩
  | 109 => ⟨S1250000, .i32⟩
  | 110 => ⟨S1250000x1, .i32⟩
  | 111 => ⟨S1250000x64, .f32⟩
  | 112 => ⟨S1250000x64, .f32⟩
  | 113 => ⟨S1250000x64, .f32⟩
  | 114 => ⟨S_, .f32⟩
  | 115 => ⟨S100000x64, .f32⟩
  | 116 => ⟨S1250000x1, .i32⟩
  | 117 => ⟨S100000x64, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S1250000, .f32⟩
  | 4 => ⟨S_, .f32⟩
  | 5 => ⟨S100000, .f32⟩
  | 6 => ⟨S1250000x1, .i32⟩
  | 7 => ⟨S100000, .f32⟩
  | 8 => ⟨S_, .f32⟩
  | 9 => ⟨S100000, .f32⟩
  | 10 => ⟨S100000, .f32⟩
  | 11 => ⟨S100000, .f32⟩
  | 12 => ⟨S_, .i32⟩
  | 13 => ⟨S1250000, .i32⟩
  | 14 => ⟨S1250000, .i1⟩
  | 15 => ⟨S_, .i32⟩
  | 16 => ⟨S1250000, .i32⟩
  | 17 => ⟨S1250000, .i32⟩
  | 18 => ⟨S1250000, .i32⟩
  | 19 => ⟨S1250000x1, .i32⟩
  | 20 => ⟨S1250000, .f32⟩
  | 21 => ⟨S_, .i32⟩
  | 22 => ⟨S1250000, .i32⟩
  | 23 => ⟨S1250000, .i1⟩
  | 24 => ⟨S_, .i32⟩
  | 25 => ⟨S1250000, .i32⟩
  | 26 => ⟨S1250000, .i32⟩
  | 27 => ⟨S1250000, .i32⟩
  | 28 => ⟨S1250000x1, .i32⟩
  | 29 => ⟨S1250000, .f32⟩
  | 30 => ⟨S1250000, .f32⟩
  | 31 => ⟨S1250000x1, .f32⟩
  | 32 => ⟨S_, .i32⟩
  | 33 => ⟨S1250000, .i32⟩
  | 34 => ⟨S1250000, .i1⟩
  | 35 => ⟨S_, .i32⟩
  | 36 => ⟨S1250000, .i32⟩
  | 37 => ⟨S1250000, .i32⟩
  | 38 => ⟨S1250000, .i32⟩
  | 39 => ⟨S1250000x1, .i32⟩
  | 40 => ⟨S1250000x64, .f32⟩
  | 41 => ⟨S1250000x64, .f32⟩
  | 42 => ⟨S1250000x64, .f32⟩
  | 43 => ⟨S_, .f32⟩
  | 44 => ⟨S100000x64, .f32⟩
  | 45 => ⟨S1250000x1, .i32⟩
  | 46 => ⟨S100000x64, .f32⟩
  | 47 => ⟨S100000, .f32⟩
  | 48 => ⟨S100000x1, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S512x64, .f32⟩
  | 60 => ⟨S100000x1, .i32⟩
  | 61 => ⟨S512x64, .f32⟩
  | 62 => ⟨S_, .f32⟩
  | 63 => ⟨S100000, .f32⟩
  | 64 => ⟨S_, .f32⟩
  | 65 => ⟨S512, .f32⟩
  | 66 => ⟨S100000x1, .i32⟩
  | 67 => ⟨S512, .f32⟩
  | 68 => ⟨S_, .f32⟩
  | 69 => ⟨S512, .f32⟩
  | 70 => ⟨S512, .f32⟩
  | 71 => ⟨S512x1, .f32⟩
  | 72 => ⟨S512x64, .f32⟩
  | 73 => ⟨S512x64, .f32⟩
  | 74 => ⟨S512x8, .f32⟩
  | 75 => ⟨S1x8, .f32⟩
  | 76 => ⟨S512x8, .f32⟩
  | 77 => ⟨S512x8, .f32⟩
  | 78 => ⟨S512x8, .f32⟩
  | 79 => ⟨S512x8, .f32⟩
  | 80 => ⟨S_, .f32⟩
  | 81 => ⟨S512x8, .f32⟩
  | 82 => ⟨S512x8, .f32⟩
  | 83 => ⟨S_, .f32⟩
  | 84 => ⟨S512x8, .f32⟩
  | 85 => ⟨S512x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_25 : Ref sig .tc := ⟨.hbm, 160, rfl⟩
abbrev main_v118 : Ref sig .tc := ⟨.hbm, 161, rfl⟩
abbrev main_v119 : Ref sig .tc := ⟨.hbm, 162, rfl⟩
abbrev main_c_26 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_call2_cst : Ref sig .tc := ⟨.hbm, 183, rfl⟩
abbrev main_call2_v0 : Ref sig .tc := ⟨.hbm, 184, rfl⟩
abbrev main_v138 : Ref sig .tc := ⟨.hbm, 185, rfl⟩
abbrev main_cst_28 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_29 : Ref sig .tc := ⟨.hbm, 190, rfl⟩
abbrev main_v142 : Ref sig .tc := ⟨.hbm, 191, rfl⟩
abbrev main_cst_30 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_31 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_32 : Ref sig .tc := ⟨.hbm, 208, rfl⟩
abbrev main_v157 : Ref sig .tc := ⟨.hbm, 209, rfl⟩
abbrev main_v158 : Ref sig .tc := ⟨.hbm, 210, rfl⟩
abbrev main_cst_33 : Ref sig .tc := ⟨.hbm, 211, rfl⟩
abbrev main_v159 : Ref sig .tc := ⟨.hbm, 212, rfl⟩
abbrev main_v160 : Ref sig .tc := ⟨.hbm, 213, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  bcast_S_S512x8 : S_.BroadcastsInDim S512x8 (![] : Fin 0 → Fin S512x8.rank)
  dot_S100000x64_S64x64_S100000x64_1_0_0_1_n_n_wf : DotDims.WF S100000x64 S64x64 S100000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x8_S512x8_1_0_0_1_n_n_wf : DotDims.WF S512x64 S64x8 S512x8 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x8_S512x8_1_0_0_1_n_n : DotDims S512x64 S64x8 S512x8 where
  lhsContracting := [1]
  rhsContracting := [0]
  lhsNonContracting := [0]
  rhsNonContracting := [1]
  lhsBatch := []
  rhsBatch := []
  wf := dot_S512x64_S64x8_S512x8_1_0_0_1_n_n_wf

class Facts : Prop extends Facts₀ where

variable [Facts]
-- ==== Proof.KW.Reg0.lean ====
import proofs.«419973_j8177617732163_2_alg».proof.Proof.Gen.Kernel.Launch
import proofs.«419973_j8177617732163_2_alg».proof.Proof.Gen.Kernel.Skeleton
import proofs.«419973_j8177617732163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # Region 0: one block of rows of x times the 64x64 weights, per grid point -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds the point's block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights window's buffer holds the whole 64x64 matrix at every point: its block index never moves,
    so where it is not fetched it still holds the block of the point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x64 := Rect.unit (s := S5000x64) ![0, 0] S5000x64.size inb_S5000x64_S5000x64_0_0
abbrev r0_w : Rect S64x64 := Rect.unit (s := S64x64) ![0, 0] S64x64.size inb_S64x64_S64x64_0_0

/-! ## What the body leaves in the output window's buffer -/

/-- The output buffer after the body: its one whole-block store, the product of the block of x and the weights. -/
def out0_2 (x0 : Vec F S5000x64 .f32) (x1 : Vec F S64x64 .f32) : Vec F S5000x64 .f32 :=
  View.canon [⟨r0_x, k0_pay1 (View.ld x0 r0_x) (View.ld x1 r0_w)⟩]

/-- The one store covers the buffer. -/
theorem cover0_2 (p0 : Vec F S5000x64 .f32) (y : S5000x64.Idx) :
    ∃ pc ∈ ([⟨r0_x, p0⟩] : List (View.Piece (Elt F) S5000x64 .f32)), y ∈ pc.1.set :=
  View.cover_of_tiled [⟨r0_x, p0⟩] S5000x64.size (by rfl) y

/-! ## The body's triple -/

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (i : grid0.Coords)
    (arg0 : Memref sig .tc .vmem S5000x64 .f32) (harg0 : arg0.IsWhole)
    (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data: the arrays as the region finds them; after the body at point `t` each input's buffer at its
    block and the output's at the product of the two blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.KW.Reg1.lean ====
import proofs.«419973_j8177617732163_2_alg».proof.Proof.Gen.Kernel.Launch
import proofs.«419973_j8177617732163_2_alg».proof.Proof.Gen.Kernel.Skeleton
import proofs.«419973_j8177617732163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # The combine-and-project kernel on the 20 row blocks, at the entry contents `V`

Windows 0, 1, 2 (the aggregate, the features, the squared inverse-root degree column) and the two outputs 5, 6 move
with the point: block `t` is rows `5000 t … 5000 t + 4999`. Windows 3 (the bias row) and 4 (the weights) have a
constant block index: one block, the whole array. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point it is live, whether the block was moved in there or
    carried over from the point before (then the block index has not moved, so it is the same block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point it is live, whether the block was moved in there or
    carried over from the point before (then the block index has not moved, so it is the same block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point it is live, whether the block was moved in there or
    carried over from the point before (then the block index has not moved, so it is the same block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point it is live, whether the block was moved in there or
    carried over from the point before (then the block index has not moved, so it is the same block). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point it is live, whether the block was moved in there or
    carried over from the point before (then the block index has not moved, so it is the same block). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in each output window's buffer -/

/-- Window 5 after the body: one store of the whole block, `max (agg + h * d + b, 0)` of the four input blocks. -/
def out1_5 (x0 : Vec F S5000x64 .f32) (x1 : Vec F S5000x64 .f32) (x2 : Vec F S5000x1 .f32) (x3 : Vec F S1x64 .f32) : Vec F S5000x64 .f32 :=
  View.canon [⟨r1_0, k1_pay1 (View.ld x0 r1_0) (View.ld x1 r1_0) (View.ld x2 r1_1) (View.ld x3 r1_2)⟩]

/-- Window 6 after the body: one store of the whole block, the rounded window-5 value times the rounded weights. -/
def out1_6 (x0 : Vec F S5000x64 .f32) (x1 : Vec F S5000x64 .f32) (x2 : Vec F S5000x1 .f32) (x3 : Vec F S1x64 .f32) (x4 : Vec F S64x64 .f32) : Vec F S5000x64 .f32 :=
  View.canon [⟨r1_0, k1_pay2 (View.ld x0 r1_0) (View.ld x1 r1_0) (View.ld x2 r1_1) (View.ld x3 r1_2) (View.ld x4 r1_3)⟩]

/-- A single whole-block store covers the 5000 x 64 buffer (both outputs have this shape). -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 4000000 in
/-- The kernel body on whole staging memrefs, the five inputs' at read contents `x0 … x4` and the two outputs' at
    anything, runs to the continuation holding the inputs' as they were and the outputs' at `out1_5`, `out1_6` of
    the inputs: the body is its sequence of whole-buffer loads and two whole-buffer stores over the payloads. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3) ∗ owns (c : Thread nD τ) arg7 fullShare (out1_6 x0 x1 x2 x3 x4)) -∗ K ⟨⟩))
      ⊢ wp frame (wpE (defs₀ (F := F)) Variants.none c none) E (cc1__combine_matmul_kernel i arg1 harg1 arg2 harg2 arg3 harg3 arg4 harg4 arg5 harg5 arg6 harg6 arg7 harg7) K := by
  simp only [cc1__combine_matmul_kernel_eq_skeleton]; unfold cc1__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_5 _)

/-! ## The pipeline's proof data -/

/-- The proof data of this pipeline on core `c`: the arrays as the region finds them; after the body at point `t`
    each input's buffer at its block and each output's at `out1_5`, `out1_6` of the input blocks; the invariant is the
    untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KW.Reg2.lean ====
import proofs.«419973_j8177617732163_2_alg».proof.Proof.Gen.Kernel.Launch
import proofs.«419973_j8177617732163_2_alg».proof.Proof.Gen.Kernel.Skeleton
import proofs.«419973_j8177617732163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # The combine-and-project kernel on the 20 row blocks, at the entry contents `V`

Windows 0, 1, 2 (the aggregate, the features, the squared inverse-root degree column) and the two outputs 5, 6 move
with the point: block `t` is rows `5000 t … 5000 t + 4999`. Windows 3 (the bias row) and 4 (the weights) have a
constant block index: one block, the whole array. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point it is live, whether the block was moved in there or
    carried over from the point before (then the block index has not moved, so it is the same block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point it is live, whether the block was moved in there or
    carried over from the point before (then the block index has not moved, so it is the same block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point it is live, whether the block was moved in there or
    carried over from the point before (then the block index has not moved, so it is the same block). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every point it is live, whether the block was moved in there or
    carried over from the point before (then the block index has not moved, so it is the same block). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every point it is live, whether the block was moved in there or
    carried over from the point before (then the block index has not moved, so it is the same block). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in each output window's buffer -/

/-- Window 5 after the body: one store of the whole block, `max (agg + h * d + b, 0)` of the four input blocks. -/
def out2_5 (x0 : Vec F S5000x64 .f32) (x1 : Vec F S5000x64 .f32) (x2 : Vec F S5000x1 .f32) (x3 : Vec F S1x64 .f32) : Vec F S5000x64 .f32 :=
  View.canon [⟨r2_0, k2_pay1 (View.ld x0 r2_0) (View.ld x1 r2_0) (View.ld x2 r2_1) (View.ld x3 r2_2)⟩]

/-- Window 6 after the body: one store of the whole block, the rounded window-5 value times the rounded weights. -/
def out2_6 (x0 : Vec F S5000x64 .f32) (x1 : Vec F S5000x64 .f32) (x2 : Vec F S5000x1 .f32) (x3 : Vec F S1x64 .f32) (x4 : Vec F S64x64 .f32) : Vec F S5000x64 .f32 :=
  View.canon [⟨r2_0, k2_pay2 (View.ld x0 r2_0) (View.ld x1 r2_0) (View.ld x2 r2_1) (View.ld x3 r2_2) (View.ld x4 r2_3)⟩]

/-- A single whole-block store covers the 5000 x 64 buffer (both outputs have this shape). -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 4000000 in
/-- The kernel body on whole staging memrefs, the five inputs' at read contents `x0 … x4` and the two outputs' at
    anything, runs to the continuation holding the inputs' as they were and the outputs' at `out2_5`, `out2_6` of
    the inputs: the body is its sequence of whole-buffer loads and two whole-buffer stores over the payloads. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3) ∗ owns (c : Thread nD τ) arg7 fullShare (out2_6 x0 x1 x2 x3 x4)) -∗ K ⟨⟩))
      ⊢ wp frame (wpE (defs₀ (F := F)) Variants.none c none) E (cc2__combine_matmul_kernel i arg1 harg1 arg2 harg2 arg3 harg3 arg4 harg4 arg5 harg5 arg6 harg6 arg7 harg7) K := by
  simp only [cc2__combine_matmul_kernel_eq_skeleton]; unfold cc2__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_5 _)

/-! ## The pipeline's proof data -/

/-- The proof data of this pipeline on core `c`: the arrays as the region finds them; after the body at point `t`
    each input's buffer at its block and each output's at `out2_5`, `out2_6` of the input blocks; the invariant is the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KW.Reg3.lean ====
import proofs.«419973_j8177617732163_2_alg».proof.Proof.Gen.Kernel.Launch
import proofs.«419973_j8177617732163_2_alg».proof.Proof.Gen.Kernel.Skeleton
import proofs.«419973_j8177617732163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # Region 3: out = max(agg + h * dinv2 + bias, 0), one 5000-row block per grid point -/

/-! ## The windows' blocks -/

/-- Window `w`'s block at point `t`, read off the array the region finds on entry. Windows 0, 1, 2, 4 are rows
    5000 t … 5000 t + 4999 of their arrays; window 3 is the whole 1 x 64 row at every point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block of the entry array at every point, whether or not the
    point fetched it: unfetched, the block index has not moved, so the block kept from the previous point is this
    point's. Stated for any proof data whose array 0 is the entry array and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current buffer holds its block of the entry array at every point, whether or not the
    point fetched it: unfetched, the block index has not moved, so the block kept from the previous point is this
    point's. Stated for any proof data whose array 1 is the entry array and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current buffer holds its block of the entry array at every point, whether or not the
    point fetched it: unfetched, the block index has not moved, so the block kept from the previous point is this
    point's. Stated for any proof data whose array 2 is the entry array and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current buffer holds its block of the entry array at every point, whether or not the
    point fetched it: unfetched, the block index has not moved, so the block kept from the previous point is this
    point's. Stated for any proof data whose array 3 is the entry array and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each operand is read whole, the result is stored whole -/

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S1x64 := Rect.unit (s := S1x64) ![0, 0] S1x64.size inb_S1x64_S1x64_0_0

/-! ## What the body leaves in the output window's buffer -/

/-- Window 4's buffer after the body, from the four input blocks: the one whole-block store of
    max(x0 + x1 * (x2 along columns) + (x3 along rows), 0). -/
def out3_4 (x0 : Vec F S5000x64 .f32) (x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_1) (View.ld x3 r3_2)⟩]

/-- The one store is the whole block, so it covers every entry. -/
theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The body on whole buffers, the four inputs' at contents x0 … x3 and the output's at anything, returns the inputs'
    unchanged and the output's at `out3_4 x0 x1 x2 x3`: four whole loads, a load of the output that is not used, one
    whole store. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region on core `c`: the arrays as the region finds them; after the body at point `t` each
    input's buffer at its block and the output's at `out3_4` of the four input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KW.Reg4.lean ====
import proofs.«419973_j8177617732163_2_alg».proof.Proof.Gen.Kernel.Launch
import proofs.«419973_j8177617732163_2_alg».proof.Proof.Gen.Kernel.Skeleton
import proofs.«419973_j8177617732163_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # The pooling region: segment sums and counts carried across the 20 row blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The grid has 20 points, so 19 is one of them. -/
theorem lt19_4 : 19 < cfg4.N := by rw [show cfg4.N = 20 from N_4]; decide

/-- The two accumulators after the body at point `n`: the per-graph sums of the rows seen so far (512 x 64) and the
    per-graph row counts (512 x 1). At point 0 both start from zero; at point `n + 1` the block's one-hot products are
    added to what point `n` left. -/
def acc4 (c : Dev nD) : (n : ℕ) → n < cfg4.N → Vec F S512x64 .f32 × Vec F S512x1 .f32
  | 0, h => (k4_pay4 (iblk4 V c 1 ⟨0, h⟩) (iblk4 V c 0 ⟨0, h⟩) k4_pay1, k4_pay5 (iblk4 V c 1 ⟨0, h⟩) k4_pay2)
  | n + 1, h => (k4_pay4 (iblk4 V c 1 ⟨n + 1, h⟩) (iblk4 V c 0 ⟨n + 1, h⟩) (acc4 c n (Nat.lt_of_succ_lt h)).1,
      k4_pay5 (iblk4 V c 1 ⟨n + 1, h⟩) (acc4 c n (Nat.lt_of_succ_lt h)).2)

theorem acc4_zero (c : Dev nD) (h : 0 < cfg4.N) :
    acc4 V c 0 h = (k4_pay4 (iblk4 V c 1 ⟨0, h⟩) (iblk4 V c 0 ⟨0, h⟩) k4_pay1, k4_pay5 (iblk4 V c 1 ⟨0, h⟩) k4_pay2) := rfl

theorem acc4_succ (c : Dev nD) (n : ℕ) (h : n + 1 < cfg4.N) :
    acc4 V c (n + 1) h = (k4_pay4 (iblk4 V c 1 ⟨n + 1, h⟩) (iblk4 V c 0 ⟨n + 1, h⟩) (acc4 V c n (Nat.lt_of_succ_lt h)).1,
      k4_pay5 (iblk4 V c 1 ⟨n + 1, h⟩) (acc4 V c n (Nat.lt_of_succ_lt h)).2) := rfl

/-- The output block: the means (sums over counts clamped below by one) through the linear layer and the logistic,
    from the accumulators after the last point. -/
def out4 (c : Dev nD) : Vec F S512x8 .f32 :=
  k4_pay6 (acc4 V c 19 lt19_4).1 (acc4 V c 19 lt19_4).2 (iblk4 V c 2 ⟨19, lt19_4⟩) (iblk4 V c 3 ⟨19, lt19_4⟩)

/-- The two accumulators as whole memrefs. -/
abbrev scM4_0 : Memref sig .tc .vmem S512x64 .f32 := Memref.whole cc4_scratch0
abbrev scM4_1 : Memref sig .tc .vmem S512x1 .f32 := Memref.whole cc4_scratch1

/-- The region invariant before position `n`: before the first point the class's; afterwards the two accumulators at
    what the point before left, every other scoped buffer at anything and the generator register at some state. -/
def Phi4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

/-- The proof data of the pooling pipeline on core `c`: each input's buffer at its block; the output's at `out4`
    (what the last point stores; at the other points the window is idle and this is a placeholder nothing consults). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
/-- The output window after the body: `out4` (at the last point, where it is stored and flushed; elsewhere a placeholder). -/
theorem after4_4 (c : Dev nD) (t : Fin cfg4.N) : (dat4 V c).after 4 t = out4 V c := by dsimp only [dat4]

/-! ## The two conditions on the grid point, in closed form -/

theorem hz4 : (![0, 0] : Fin 2 → Nat) = fun _ => 0 := funext fun a => by fin_cases a <;> rfl

/-- The first conditional's condition: the point's coordinate, as a 32-bit word, equals 0. -/
abbrev cond4_0 (i : grid4.Coords) : Prop :=
  (Scalar.cmpi .ne (Scalar.extui (Scalar.cmpi .eq (BitVec.ofNat 32 (i 0).val) 0#32) : BitVec 32) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- The second conditional's condition: the coordinate equals 19. -/
abbrev cond4_1 (i : grid4.Coords) : Prop := k4_cond2 i = 1#1
/-- It holds at point 19 only. -/
theorem hcond4_1 : ∀ t : Fin cfg4.N, cond4_1 (grid4.coords t) ↔ t.val = 19 :=
  (by decide +kernel : ∀ t : Fin grid4.N, cond4_1 (grid4.coords t) ↔ t.val = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Away from the last point the output window is idle, -/
theorem idleAt4_4 : ∀ t : Fin cfg4.N, ¬cond4_1 (grid4.coords t) → cfg4.idle 4 (grid4.coords t) = true := by decide +kernel
/-- and its block is not written back there. -/
theorem noFlush4_4 : ∀ t : Fin cfg4.N, ¬cond4_1 (grid4.coords t) → (cfg4.win 4).flush t = false := by decide +kernel
/-- At the last point it is live. -/
theorem liveAt4_4 : ∀ t : Fin cfg4.N, cond4_1 (grid4.coords t) → cfg4.idle 4 (grid4.coords t) = false := by decide +kernel

/-- A store through the whole-shape rectangle at zero offsets, last, leaves its payload in the buffer whatever was
    stored before it. -/
theorem read_writes_whole4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body's triple, case by case

The body on whole memrefs. Every store covers its whole buffer, so what a buffer holds afterwards is the last
store's payload; a load of a buffer after such a store reads that payload. -/

set_option maxHeartbeats 4000000 in
/-- Point 0: both accumulators are zeroed, then the block's one-hot products are added. The once-fetched windows
    and the output window are not touched. -/
theorem sound_kernel4_A (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x8 .f32) (harg3 : arg3.IsWhole) (arg4 : Memref sig .tc .vmem S1x8 .f32) (harg4 : arg4.IsWhole)
    (arg5 : Memref sig .tc .vmem S512x8 .f32) (harg5 : arg5.IsWhole) (arg6 : Memref sig .tc .vmem S512x64 .f32) (harg6 : arg6.IsWhole)
    (arg7 : Memref sig .tc .vmem S512x1 .f32) (harg7 : arg7.IsWhole)
    (hc0 : cond4_0 i) (hc1 : ¬cond4_1 i)
    (x0 : Vec F S5000x64 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k4_pay4 x1 x0 k4_pay1) ∗ owns (c : Thread nD τ) arg7 fullShare (k4_pay5 x1 k4_pay2)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%d6, %f6, -, H6⟩, ⟨%d7, %f7, -, H7⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H6]
  · iexists _; isplitr
    swap; · iexact H6
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  · iexists _; isplitr
    swap; · iexact H7
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]

set_option maxHeartbeats 4000000 in
/-- A point strictly between the first and the last: the block's one-hot products are added to what the point
    before left. -/
theorem sound_kernel4_B (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x8 .f32) (harg3 : arg3.IsWhole) (arg4 : Memref sig .tc .vmem S1x8 .f32) (harg4 : arg4.IsWhole)
    (arg5 : Memref sig .tc .vmem S512x8 .f32) (harg5 : arg5.IsWhole) (arg6 : Memref sig .tc .vmem S512x64 .f32) (harg6 : arg6.IsWhole)
    (arg7 : Memref sig .tc .vmem S512x1 .f32) (harg7 : arg7.IsWhole)
    (hc0 : ¬cond4_0 i) (hc1 : ¬cond4_1 i)
    (x0 : Vec F S5000x64 .f32) (x1 : Vec F S5000x1 .i32) (xs0 : Vec F S512x64 .f32) (xs1 : Vec F S512x1 .f32) (K : PUnit → sProp 𝕄) :
    iprop(owns (c : Thread nD τ) arg1 fullShare x0 ∗ owns (c : Thread nD τ) arg2 fullShare x1
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg6 fullShare (k4_pay4 x1 x0 xs0) ∗ owns (c : Thread nD τ) arg7 fullShare (k4_pay5 x1 xs1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f6, %hf6, H6⟩, ⟨%f7, %hf7, H7⟩, Hk⟩
  obtain rfl := harg1.eq_unread hf0; obtain rfl := harg2.eq_unread hf1
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H6]
  · iexists _; isplitr
    swap; · iexact H6
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  · iexists _; isplitr
    swap; · iexact H7
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]

set_option maxHeartbeats 4000000 in
/-- The last point: the products are added, then the output block is computed from the two accumulators, the weights
    and the bias row, and stored. -/
theorem sound_kernel4_C (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x8 .f32) (harg3 : arg3.IsWhole) (arg4 : Memref sig .tc .vmem S1x8 .f32) (harg4 : arg4.IsWhole)
    (arg5 : Memref sig .tc .vmem S512x8 .f32) (harg5 : arg5.IsWhole) (arg6 : Memref sig .tc .vmem S512x64 .f32) (harg6 : arg6.IsWhole)
    (arg7 : Memref sig .tc .vmem S512x1 .f32) (harg7 : arg7.IsWhole)
    (hc0 : ¬cond4_0 i) (hc1 : cond4_1 i)
    (x0 : Vec F S5000x64 .f32) (x1 : Vec F S5000x1 .i32) (x2 : Vec F S64x8 .f32) (x3 : Vec F S1x8 .f32)
    (xs0 : Vec F S512x64 .f32) (xs1 : Vec F S512x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k4_pay6 (k4_pay4 x1 x0 xs0) (k4_pay5 x1 xs1) x2 x3)
            ∗ owns (c : Thread nD τ) arg6 fullShare (k4_pay4 x1 x0 xs0) ∗ owns (c : Thread nD τ) arg7 fullShare (k4_pay5 x1 xs1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  obtain rfl := harg1.eq_unread hf0; obtain rfl := harg2.eq_unread hf1
  obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  isplitl [H6]
  · iexists _; isplitr
    swap; · iexact H6
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  · iexists _; isplitr
    swap; · iexact H7
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]

/-! ## The inputs' buffers hold their blocks at every point -/

/-- An input window's current buffer holds its block at every point, fetched there or not (a block fetched once has
    not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The accumulators and the invariant, point by point -/

/-- The accumulators after point 0: the first block's products over zero. -/
theorem acc4_first (c : Dev nD) (t : Fin cfg4.N) (h0 : t.val = 0) :
    acc4 V c t.val t.isLt = (k4_pay4 (iblk4 V c 1 t) (iblk4 V c 0 t) k4_pay1, k4_pay5 (iblk4 V c 1 t) k4_pay2) := by
  obtain ⟨n, hn⟩ := t
  cases n with
  | zero => rfl
  | succ n => exact absurd h0 (Nat.succ_ne_zero n)

/-- The accumulators after a later point: its block's products over what the point before left. -/
theorem acc4_later (c : Dev nD) (t : Fin cfg4.N) (h0 : t.val ≠ 0) :
    acc4 V c t.val t.isLt = (k4_pay4 (iblk4 V c 1 t) (iblk4 V c 0 t) (acc4 V c (t.val - 1) (Nat.lt_of_le_of_lt (Nat.sub_le _ _) t.isLt)).1,
      k4_pay5 (iblk4 V c 1 t) (acc4 V c (t.val - 1) (Nat.lt_of_le_of_lt (Nat.sub_le _ _) t.isLt)).2) := by
  obtain ⟨n, hn⟩ := t
  cases n with
  | zero => exact absurd rfl h0
  | succ n => rfl

/-- The output block over the last point's data. -/
theorem out4_last (c : Dev nD) (t : Fin cfg4.N) (h : t.val = 19) :
    out4 V c = k4_pay6 (acc4 V c t.val t.isLt).1 (acc4 V c t.val t.isLt).2 (iblk4 V c 2 t) (iblk4 V c 3 t) := by
  obtain ⟨n, hn⟩ := t
  obtain rfl : n = 19 := h
  rfl

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

theorem Phi4_castSucc (c : Dev nD) (t : Fin cfg4.N) :
    (dat4 V c).Φ t.castSucc = Phi4 V c t.val (Nat.le_of_lt t.isLt) := by
  dsimp only [dat4]; simp only [Fin.coe_castSucc]

/-- The class's invariant with the two accumulators as whole memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks; the point's position selects the case; the
    invariant hands over the two accumulators (at anything before the first point, at what the point before left
    afterwards) and takes them back at this point's contents; the output window's buffer comes back untouched except
    at the last point, where it holds the output block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  have hN : t.val < 20 := lt_of_lt_of_eq t.isLt (show cfg4.N = 20 from N_4)
  by_cases h0 : t.val = 0
  · have h1 : ¬t.val = 19 := by omega
    rw [Dat.leavesExact_idle (dat4 V c) 4 t (idleAt4_4 t (fun h => h1 ((hcond4_1 t).mp h))) (noFlush4_4 t (fun h => h1 ((hcond4_1 t).mp h)))]
    rw [acc4_first V c t h0]; dsimp only
    rw [Phi4_castSucc V c t, Phi4_zero V c _ _ h0, PhiA4_eq]
    iintro ⟨⟨⟨⟨HS0, HS1⟩, HR⟩, Hg⟩, Ho, ⟨%d0, H0⟩, ⟨%d1, H1⟩, ⟨%d2, H2⟩, ⟨%d3, H3⟩, H4⟩
    iapply (sound_kernel4_A c Set.univ (grid4.coords t) _ _ _ _ _ _ _ _ _ _ _ _ _ _ ((hcond4_0 t).mpr h0) (fun h => h1 ((hcond4_1 t).mp h)) (iblk4 V c 0 t) (iblk4 V c 1 t) _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · by_cases h1 : t.val = 19
    · rw [show (dat4 V c).leavesExact 4 t = owns (c : Thread nD τ) (st4_4 t) fullShare ((dat4 V c).after 4 t) from by
        unfold Dat.leavesExact; rw [liveAt4_4 t ((hcond4_1 t).mpr h1)], after4_4, out4_last V c t h1]
      rw [acc4_later V c t h0]; dsimp only
      rw [Phi4_castSucc V c t, Phi4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idleAt4_4 t (fun h => h1 ((hcond4_1 t).mp h))) (noFlush4_4 t (fun h => h1 ((hcond4_1 t).mp h)))]
      rw [acc4_later V c t h0]; dsimp only
      rw [Phi4_castSucc V c t, Phi4_pos V c _ _ h0]
      iintro ⟨⟨⟨⟨HS0, HS1⟩, HR⟩, Hg⟩, Ho, ⟨%d0, H0⟩, ⟨%d1, H1⟩, ⟨%d2, H2⟩, ⟨%d3, H3⟩, H4⟩
      iapply (sound_kernel4_B c Set.univ (grid4.coords t) _ _ _ _ _ _ _ _ _ _ _ _ _ _ (fun h => h0 ((hcond4_0 t).mp h)) (fun h => h1 ((hcond4_1 t).mp h)) (iblk4 V c 0 t) (iblk4 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point but the first the invariant gives the class's back: the accumulators' contents are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi4_out V c _ (by rw [Fin.val_last]; have : cfg4.N = 20 := N_4; omega)

end Cert.Kernel.Hand
end
-- ==== Proof.KW.Outs.lean ====
/-
  What each of the five kernel regions leaves in the buffers it writes, as one table filled region by region.

  Between two items of @main every unscoped buffer holds the launch contents, then what the host stretches compute, then —
  at the buffers a region writes — an entry of a table of contents. Here the table is built in five stages: a region's
  proof data is taken at the contents its predecessors left (which read only earlier entries), and what its 20 grid
  points write back becomes the next entry. Later stages never change an earlier entry, so a valuation read at the
  last table is the one read at the stage that completed it.
-/
import proofs.«419973_j8177617732163_2_alg».proof.Proof.KW.FrameV
import proofs.«419973_j8177617732163_2_alg».proof.Proof.KW.Reg0
import proofs.«419973_j8177617732163_2_alg».proof.Proof.KW.Reg1
import proofs.«419973_j8177617732163_2_alg».proof.Proof.KW.Reg2
import proofs.«419973_j8177617732163_2_alg».proof.Proof.KW.Reg3
import proofs.«419973_j8177617732163_2_alg».proof.Proof.KW.Reg4
import proofs.«419973_j8177617732163_2_alg».proof.Proof.Gen.Kernel.Skeleton
import proofs.«419973_j8177617732163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave, stage by stage

The valuations between @main's items read a table of the contents each region leaves. The table is filled one
region at a time: each region's proof data is taken at the contents its predecessors left, and what it writes back
over the 20 grid points becomes the next entry. -/

/-- The contents table with one more entry: at step `j` and buffer `r₀` the contents `x`, elsewhere as before. -/
def put (o : Outs (F := F)) (j : ℕ) (r₀ : Ref sig .tc) (x : (c : Dev nD) → Buf (Elt F) ((c : Thread nD τ).loc r₀)) : Outs (F := F) :=
  fun j' r c => if h : j' = j ∧ r = r₀ then h.2 ▸ x c else o j' r c

theorem put_same (o : Outs (F := F)) (j : ℕ) (r₀ : Ref sig .tc) (x : (c : Dev nD) → Buf (Elt F) ((c : Thread nD τ).loc r₀)) (c : Dev nD) :
    put o j r₀ x j r₀ c = x c := by
  unfold put; rw [dif_pos ⟨rfl, rfl⟩]

theorem put_step_ne (o : Outs (F := F)) (j : ℕ) (r₀ : Ref sig .tc) (x : (c : Dev nD) → Buf (Elt F) ((c : Thread nD τ).loc r₀))
    (j' : ℕ) (r : Ref sig .tc) (c : Dev nD) (hj : j' ≠ j) : put o j r₀ x j' r c = o j' r c := by
  unfold put; rw [dif_neg (fun h => hj h.1)]

theorem put_ref_ne (o : Outs (F := F)) (j : ℕ) (r₀ : Ref sig .tc) (x : (c : Dev nD) → Buf (Elt F) ((c : Thread nD τ).loc r₀))
    (j' : ℕ) (r : Ref sig .tc) (c : Dev nD) (hr : r ≠ r₀) : put o j r₀ x j' r c = o j' r c := by
  unfold put; rw [dif_neg (fun h => hr h.2)]

/-- Before any region: a table nothing reads. -/
def o0 : Outs (F := F) := fun _ r c => m ((c : Thread nD τ).loc r)

/-- Region 0 is entered at the contents after the first host stretch. -/
abbrev Vin0 : (c : Dev nD) → (b : Ref sig .tc) → Buf (Elt F) ((c : Thread nD τ).loc b) := fun c b => V1 m c b
/-- After region 0: the first layer's product, written back block by block. -/
def o1 : Outs (F := F) := put (o0 m) 2 main_v34 (fun c => (dat0 (Vin0 m) c).arrAt 2 cfg0.N)
abbrev Vin1 : (c : Dev nD) → (b : Ref sig .tc) → Buf (Elt F) ((c : Thread nD τ).loc b) := fun c b => V3 m (o1 m) c b
/-- After region 1: the first layer's features and their product with the second weights. -/
def o2 : Outs (F := F) := put (put (o1 m) 4 main_v47_0 (fun c => (dat1 (Vin1 m) c).arrAt 5 cfg1.N)) 4 main_v47_1 (fun c => (dat1 (Vin1 m) c).arrAt 6 cfg1.N)
abbrev Vin2 : (c : Dev nD) → (b : Ref sig .tc) → Buf (Elt F) ((c : Thread nD τ).loc b) := fun c b => V5 m (o2 m) c b
/-- After region 2: the second layer's features and their product with the third weights. -/
def o3 : Outs (F := F) := put (put (o2 m) 6 main_v60_0 (fun c => (dat2 (Vin2 m) c).arrAt 5 cfg2.N)) 6 main_v60_1 (fun c => (dat2 (Vin2 m) c).arrAt 6 cfg2.N)
abbrev Vin3 : (c : Dev nD) → (b : Ref sig .tc) → Buf (Elt F) ((c : Thread nD τ).loc b) := fun c b => V7 m (o3 m) c b
/-- After region 3: the third layer's features. -/
def o4 : Outs (F := F) := put (o3 m) 8 main_v73 (fun c => (dat3 (Vin3 m) c).arrAt 4 cfg3.N)
abbrev Vin4 : (c : Dev nD) → (b : Ref sig .tc) → Buf (Elt F) ((c : Thread nD τ).loc b) := fun c b => V8 m (o4 m) c b
/-- After region 4: the readout. -/
def o5 : Outs (F := F) := put (o4 m) 9 main_v74 (fun c => (dat4 (Vin4 m) c).arrAt 4 cfg4.N)

/-! ### The table's entries, read at the last stage and at the stage that wrote them -/

theorem o1_2 (c : Dev nD) : o1 m 2 main_v34 c = (dat0 (Vin0 m) c).arrAt 2 cfg0.N := put_same _ _ _ _ c
theorem o5_2 (c : Dev nD) : o5 m 2 main_v34 c = (dat0 (Vin0 m) c).arrAt 2 cfg0.N := by
  unfold o5 o4 o3 o2
  rw [put_step_ne _ _ _ _ _ _ _ (by decide), put_step_ne _ _ _ _ _ _ _ (by decide), put_step_ne _ _ _ _ _ _ _ (by decide),
    put_step_ne _ _ _ _ _ _ _ (by decide), put_step_ne _ _ _ _ _ _ _ (by decide), put_step_ne _ _ _ _ _ _ _ (by decide)]
  exact o1_2 m c

theorem o2_4a (c : Dev nD) : o2 m 4 main_v47_0 c = (dat1 (Vin1 m) c).arrAt 5 cfg1.N := by
  unfold o2; rw [put_ref_ne _ _ _ _ _ _ _ (by decide)]; exact put_same _ _ _ _ c
theorem o2_4b (c : Dev nD) : o2 m 4 main_v47_1 c = (dat1 (Vin1 m) c).arrAt 6 cfg1.N := put_same _ _ _ _ c
theorem o3_6a (c : Dev nD) : o3 m 6 main_v60_0 c = (dat2 (Vin2 m) c).arrAt 5 cfg2.N := by
  unfold o3; rw [put_ref_ne _ _ _ _ _ _ _ (by decide)]; exact put_same _ _ _ _ c
theorem o3_6b (c : Dev nD) : o3 m 6 main_v60_1 c = (dat2 (Vin2 m) c).arrAt 6 cfg2.N := put_same _ _ _ _ c
theorem o4_8 (c : Dev nD) : o4 m 8 main_v73 c = (dat3 (Vin3 m) c).arrAt 4 cfg3.N := put_same _ _ _ _ c
theorem o5_9 (c : Dev nD) : o5 m 9 main_v74 c = (dat4 (Vin4 m) c).arrAt 4 cfg4.N := put_same _ _ _ _ c

/-! ### A later stage keeps the earlier entries -/

theorem o2_eq_o1 (j : ℕ) (r : Ref sig .tc) (c : Dev nD) (hj : j ≠ 4) : o2 m j r c = o1 m j r c := by
  unfold o2; rw [put_step_ne _ _ _ _ _ _ _ hj, put_step_ne _ _ _ _ _ _ _ hj]
theorem o3_eq_o2 (j : ℕ) (r : Ref sig .tc) (c : Dev nD) (hj : j ≠ 6) : o3 m j r c = o2 m j r c := by
  unfold o3; rw [put_step_ne _ _ _ _ _ _ _ hj, put_step_ne _ _ _ _ _ _ _ hj]
theorem o4_eq_o3 (j : ℕ) (r : Ref sig .tc) (c : Dev nD) (hj : j ≠ 8) : o4 m j r c = o3 m j r c := by
  unfold o4; rw [put_step_ne _ _ _ _ _ _ _ hj]
theorem o5_eq_o4 (j : ℕ) (r : Ref sig .tc) (c : Dev nD) (hj : j ≠ 9) : o5 m j r c = o4 m j r c := by
  unfold o5; rw [put_step_ne _ _ _ _ _ _ _ hj]

/-! ### The valuations read only the entries before them -/

section Congr
variable {o o' : Outs (F := F)} (c : Dev nD)
theorem V2_congr (h2 : o 2 main_v34 c = o' 2 main_v34 c) : V2 m o c = V2 m o' c := by
  show Function.update (V1 m c) _ (o 2 main_v34 c) = Function.update (V1 m c) _ (o' 2 main_v34 c); rw [h2]
theorem V3_congr (h2 : o 2 main_v34 c = o' 2 main_v34 c) : V3 m o c = V3 m o' c := by
  show StableHlo.after hostOps1 (V2 m o c) = StableHlo.after hostOps1 (V2 m o' c); rw [V2_congr m c h2]
theorem V4_congr (h2 : o 2 main_v34 c = o' 2 main_v34 c) (h4a : o 4 main_v47_0 c = o' 4 main_v47_0 c) (h4b : o 4 main_v47_1 c = o' 4 main_v47_1 c) :
    V4 m o c = V4 m o' c := by
  show Function.update (Function.update (V3 m o c) _ (o 4 main_v47_0 c)) _ (o 4 main_v47_1 c) = Function.update (Function.update (V3 m o' c) _ (o' 4 main_v47_0 c)) _ (o' 4 main_v47_1 c)
  rw [V3_congr m c h2, h4a, h4b]
theorem V5_congr (h2 : o 2 main_v34 c = o' 2 main_v34 c) (h4a : o 4 main_v47_0 c = o' 4 main_v47_0 c) (h4b : o 4 main_v47_1 c = o' 4 main_v47_1 c) :
    V5 m o c = V5 m o' c := by
  show StableHlo.after hostOps2 (V4 m o c) = StableHlo.after hostOps2 (V4 m o' c); rw [V4_congr m c h2 h4a h4b]
theorem V6_congr (h2 : o 2 main_v34 c = o' 2 main_v34 c) (h4a : o 4 main_v47_0 c = o' 4 main_v47_0 c) (h4b : o 4 main_v47_1 c = o' 4 main_v47_1 c)
    (h6a : o 6 main_v60_0 c = o' 6 main_v60_0 c) (h6b : o 6 main_v60_1 c = o' 6 main_v60_1 c) : V6 m o c = V6 m o' c := by
  show Function.update (Function.update (V5 m o c) _ (o 6 main_v60_0 c)) _ (o 6 main_v60_1 c) = Function.update (Function.update (V5 m o' c) _ (o' 6 main_v60_0 c)) _ (o' 6 main_v60_1 c)
  rw [V5_congr m c h2 h4a h4b, h6a, h6b]
theorem V7_congr (h2 : o 2 main_v34 c = o' 2 main_v34 c) (h4a : o 4 main_v47_0 c = o' 4 main_v47_0 c) (h4b : o 4 main_v47_1 c = o' 4 main_v47_1 c)
    (h6a : o 6 main_v60_0 c = o' 6 main_v60_0 c) (h6b : o 6 main_v60_1 c = o' 6 main_v60_1 c) : V7 m o c = V7 m o' c := by
  show StableHlo.after hostOps3 (V6 m o c) = StableHlo.after hostOps3 (V6 m o' c); rw [V6_congr m c h2 h4a h4b h6a h6b]
theorem V8_congr (h2 : o 2 main_v34 c = o' 2 main_v34 c) (h4a : o 4 main_v47_0 c = o' 4 main_v47_0 c) (h4b : o 4 main_v47_1 c = o' 4 main_v47_1 c)
    (h6a : o 6 main_v60_0 c = o' 6 main_v60_0 c) (h6b : o 6 main_v60_1 c = o' 6 main_v60_1 c) (h8 : o 8 main_v73 c = o' 8 main_v73 c) : V8 m o c = V8 m o' c := by
  show Function.update (V7 m o c) _ (o 8 main_v73 c) = Function.update (V7 m o' c) _ (o' 8 main_v73 c)
  rw [V7_congr m c h2 h4a h4b h6a h6b, h8]
end Congr

/-! ### The valuations at the last table are those at the stage that completed them -/

theorem V2_last (c : Dev nD) : V2 m (o5 m) c = V2 m (o1 m) c :=
  V2_congr m c ((o5_eq_o4 m _ _ c (by decide)).trans ((o4_eq_o3 m _ _ c (by decide)).trans ((o3_eq_o2 m _ _ c (by decide)).trans (o2_eq_o1 m _ _ c (by decide)))))
theorem V3_last (c : Dev nD) : V3 m (o5 m) c = V3 m (o1 m) c :=
  V3_congr m c ((o5_eq_o4 m _ _ c (by decide)).trans ((o4_eq_o3 m _ _ c (by decide)).trans ((o3_eq_o2 m _ _ c (by decide)).trans (o2_eq_o1 m _ _ c (by decide)))))
theorem V4_last (c : Dev nD) : V4 m (o5 m) c = V4 m (o2 m) c :=
  V4_congr m c ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
theorem V5_last (c : Dev nD) : V5 m (o5 m) c = V5 m (o2 m) c :=
  V5_congr m c ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
theorem V6_last (c : Dev nD) : V6 m (o5 m) c = V6 m (o3 m) c :=
  V6_congr m c ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide)))
theorem V7_last (c : Dev nD) : V7 m (o5 m) c = V7 m (o3 m) c :=
  V7_congr m c ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide)))
theorem V8_last (c : Dev nD) : V8 m (o5 m) c = V8 m (o4 m) c :=
  V8_congr m c (o5_eq_o4 m _ _ c (by decide)) (o5_eq_o4 m _ _ c (by decide)) (o5_eq_o4 m _ _ c (by decide)) (o5_eq_o4 m _ _ c (by decide))
    (o5_eq_o4 m _ _ c (by decide)) (o5_eq_o4 m _ _ c (by decide))

end Cert.Kernel.Hand

end
-- ==== Proof.KW.Run.lean ====
/-
  The kernel's program run from launch to return: five kernel regions among four stretches of host operations.

  Each region is entered from "every unscoped buffer at the contents its predecessors left" and left with its output
  arrays at what its 20 grid points wrote back (the next entry of the contents table); the host stretches in between are
  run by the generated conditional frame. The post names the result array at the last table's entry and every argument as launched.
-/
import proofs.«419973_j8177617732163_2_alg».proof.Proof.KW.FrameV
import proofs.«419973_j8177617732163_2_alg».proof.Proof.KW.Outs
import Idealize.ShloMosaic.Lib.Pipeline.Kit
import proofs.«419973_j8177617732163_2_alg».proof.Proof.Gen.Kernel.Skeleton
import proofs.«419973_j8177617732163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c

/-- No core owes another anything: no level is assigned. -/
abbrev Lz : GSem nD τ sig → Finset Unit := fun _ => ∅
abbrev lvz : GSem nD τ sig → Unit → ℕ := fun _ _ => 0
/-- Beside the buffers through every item: the core's generator register at some state and its dues, none. -/
abbrev Rr (c : Dev nD) : sProp 𝕄 := iprop((∃ r, prngReg c r) ∗ ∃ W, owes (c : Thread nD τ) (0 : CellTallies nD τ sig Unit) W)

/-! ## Region 0 -/

/-- A buffer region 0 does not write holds after it what it held before. -/
theorem keep0 (c : Dev nD) (r : Ref sig .tc) (h : r ∉ ([main_v34] : List (Ref sig .tc))) : V2 m (o1 m) c r = Vin0 m c r := V2_of m (o1 m) c r h

set_option maxHeartbeats 4000000 in
/-- At region 0's exit each of its arrays holds what the 20 write-backs leave: the inputs as entered, the outputs at the table's new entries. -/
theorem hF0 (c : Dev nD) (w : Fin cfg0.W) : (dat0 (Vin0 m) c).arrAt w cfg0.N = (fun b : Ref sig .tc => V2 m (o1 m) c b) (Pipeline.arrRef spec0 w) := by
  match w with
  | ⟨0, _⟩ => exact ((dat0 (Vin0 m) c).arrAt_in 0 rfl _).trans ((A_eq0 (Vin0 m) c 0).trans (keep0 m c main_arg0 (by decide)).symm)
  | ⟨1, _⟩ => exact ((dat0 (Vin0 m) c).arrAt_in 1 rfl _).trans ((A_eq0 (Vin0 m) c 1).trans (keep0 m c main_arg3 (by decide)).symm)
  | ⟨2, _⟩ => exact ((Function.update_self (Proc.devRef (τ := τ) .tc main_v34) (o1 m 2 main_v34 c) (V1 m c)).trans (o1_2 m c)).symm

/-- Every other buffer is as region 0 found it. -/
theorem hrest0 (c : Dev nD) : ∀ b : Ref sig .tc, b ∉ Finset.univ.image (Pipeline.arrRef spec0) → (fun b : Ref sig .tc => V2 m (o1 m) c b) b = Vin0 m c b :=
  fun b hb => keep0 m c b (fun h => hb (by rw [List.mem_singleton.mp h]; exact Finset.mem_image.mpr ⟨2, Finset.mem_univ _, rfl⟩))

set_option backward.isDefEq.respectTransparency.types false in
/-- Region 0 over the thread state: entered from every unscoped buffer at the contents its predecessors left, left
    with its outputs at the table's new entries; the generator register goes into the region's invariant and comes back;
    nothing is owed. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (o1 m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b : Ref sig .tc => V2 m (o1 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem V3_21 (c : Dev nD) : V3 m (o2 m) c = V3 m (o1 m) c := V3_congr m c (o2_eq_o1 m _ _ c (by decide))
/-- A buffer region 1 does not write holds after it what it held before. -/
theorem keep1 (c : Dev nD) (r : Ref sig .tc) (h : r ∉ ([main_v47_0, main_v47_1] : List (Ref sig .tc))) : V4 m (o2 m) c r = Vin1 m c r :=
  (V4_of m (o2 m) c r h).trans (congrFun (V3_21 m c) r)

set_option maxHeartbeats 4000000 in
/-- At region 1's exit each of its arrays holds what the 20 write-backs leave: the inputs as entered, the outputs at the table's new entries. -/
theorem hF1 (c : Dev nD) (w : Fin cfg1.W) : (dat1 (Vin1 m) c).arrAt w cfg1.N = (fun b : Ref sig .tc => V4 m (o2 m) c b) (Pipeline.arrRef spec1 w) := by
  match w with
  | ⟨0, _⟩ => exact ((dat1 (Vin1 m) c).arrAt_in 0 rfl _).trans ((A_eq1 (Vin1 m) c 0).trans (keep1 m c main_v46 (by decide)).symm)
  | ⟨1, _⟩ => exact ((dat1 (Vin1 m) c).arrAt_in 1 rfl _).trans ((A_eq1 (Vin1 m) c 1).trans (keep1 m c main_v34 (by decide)).symm)
  | ⟨2, _⟩ => exact ((dat1 (Vin1 m) c).arrAt_in 2 rfl _).trans ((A_eq1 (Vin1 m) c 2).trans (keep1 m c main_v28 (by decide)).symm)
  | ⟨3, _⟩ => exact ((dat1 (Vin1 m) c).arrAt_in 3 rfl _).trans ((A_eq1 (Vin1 m) c 3).trans (keep1 m c main_v29 (by decide)).symm)
  | ⟨4, _⟩ => exact ((dat1 (Vin1 m) c).arrAt_in 4 rfl _).trans ((A_eq1 (Vin1 m) c 4).trans (keep1 m c main_arg5 (by decide)).symm)
  | ⟨5, _⟩ => exact (((Function.update_of_ne (StableHlo.devRef_ne_of_ne (by decide) : (Proc.devRef .tc main_v47_0 : DevRef τ sig) ≠ Proc.devRef .tc main_v47_1) (o2 m 4 main_v47_1 c) (Function.update (V3 m (o2 m) c) (Proc.devRef (τ := τ) .tc main_v47_0) (o2 m 4 main_v47_0 c))).trans (Function.update_self (Proc.devRef (τ := τ) .tc main_v47_0) (o2 m 4 main_v47_0 c) (V3 m (o2 m) c))).trans (o2_4a m c)).symm
  | ⟨6, _⟩ => exact ((Function.update_self (Proc.devRef (τ := τ) .tc main_v47_1) (o2 m 4 main_v47_1 c) (Function.update (V3 m (o2 m) c) (Proc.devRef (τ := τ) .tc main_v47_0) (o2 m 4 main_v47_0 c))).trans (o2_4b m c)).symm

/-- Every other buffer is as region 1 found it. -/
theorem hrest1 (c : Dev nD) : ∀ b : Ref sig .tc, b ∉ Finset.univ.image (Pipeline.arrRef spec1) → (fun b : Ref sig .tc => V4 m (o2 m) c b) b = Vin1 m c b :=
  fun b hb => keep1 m c b (fun h => hb (by rcases List.mem_cons.mp h with h | h <;> (first | (rw [h]; exact Finset.mem_image.mpr ⟨5, Finset.mem_univ _, rfl⟩) | (rw [List.mem_singleton.mp h]; exact Finset.mem_image.mpr ⟨6, Finset.mem_univ _, rfl⟩))))

set_option backward.isDefEq.respectTransparency.types false in
/-- Region 1 over the thread state: entered from every unscoped buffer at the contents its predecessors left, left
    with its outputs at the table's new entries; the generator register goes into the region's invariant and comes back;
    nothing is owed. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (V3 m (o1 m) c) ∗ Rr c)
  post c := iprop(StableHlo.held (c : Thread nD τ) (Pipeline.ucRefs τ sig) (V4 m (o2 m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b : Ref sig .tc => V4 m (o2 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem V5_32 (c : Dev nD) : V5 m (o3 m) c = V5 m (o2 m) c := V5_congr m c (o3_eq_o2 m _ _ c (by decide)) (o3_eq_o2 m _ _ c (by decide)) (o3_eq_o2 m _ _ c (by decide))
/-- A buffer region 2 does not write holds after it what it held before. -/
theorem keep2 (c : Dev nD) (r : Ref sig .tc) (h : r ∉ ([main_v60_0, main_v60_1] : List (Ref sig .tc))) : V6 m (o3 m) c r = Vin2 m c r :=
  (V6_of m (o3 m) c r h).trans (congrFun (V5_32 m c) r)

set_option maxHeartbeats 4000000 in
/-- At region 2's exit each of its arrays holds what the 20 write-backs leave: the inputs as entered, the outputs at the table's new entries. -/
theorem hF2 (c : Dev nD) (w : Fin cfg2.W) : (dat2 (Vin2 m) c).arrAt w cfg2.N = (fun b : Ref sig .tc => V6 m (o3 m) c b) (Pipeline.arrRef spec2 w) := by
  match w with
  | ⟨0, _⟩ => exact ((dat2 (Vin2 m) c).arrAt_in 0 rfl _).trans ((A_eq2 (Vin2 m) c 0).trans (keep2 m c main_v59 (by decide)).symm)
  | ⟨1, _⟩ => exact ((dat2 (Vin2 m) c).arrAt_in 1 rfl _).trans ((A_eq2 (Vin2 m) c 1).trans (keep2 m c main_v47_1 (by decide)).symm)
  | ⟨2, _⟩ => exact ((dat2 (Vin2 m) c).arrAt_in 2 rfl _).trans ((A_eq2 (Vin2 m) c 2).trans (keep2 m c main_v28 (by decide)).symm)
  | ⟨3, _⟩ => exact ((dat2 (Vin2 m) c).arrAt_in 3 rfl _).trans ((A_eq2 (Vin2 m) c 3).trans (keep2 m c main_v30 (by decide)).symm)
  | ⟨4, _⟩ => exact ((dat2 (Vin2 m) c).arrAt_in 4 rfl _).trans ((A_eq2 (Vin2 m) c 4).trans (keep2 m c main_arg7 (by decide)).symm)
  | ⟨5, _⟩ => exact (((Function.update_of_ne (StableHlo.devRef_ne_of_ne (by decide) : (Proc.devRef .tc main_v60_0 : DevRef τ sig) ≠ Proc.devRef .tc main_v60_1) (o3 m 6 main_v60_1 c) (Function.update (V5 m (o3 m) c) (Proc.devRef (τ := τ) .tc main_v60_0) (o3 m 6 main_v60_0 c))).trans (Function.update_self (Proc.devRef (τ := τ) .tc main_v60_0) (o3 m 6 main_v60_0 c) (V5 m (o3 m) c))).trans (o3_6a m c)).symm
  | ⟨6, _⟩ => exact ((Function.update_self (Proc.devRef (τ := τ) .tc main_v60_1) (o3 m 6 main_v60_1 c) (Function.update (V5 m (o3 m) c) (Proc.devRef (τ := τ) .tc main_v60_0) (o3 m 6 main_v60_0 c))).trans (o3_6b m c)).symm

/-- Every other buffer is as region 2 found it. -/
theorem hrest2 (c : Dev nD) : ∀ b : Ref sig .tc, b ∉ Finset.univ.image (Pipeline.arrRef spec2) → (fun b : Ref sig .tc => V6 m (o3 m) c b) b = Vin2 m c b :=
  fun b hb => keep2 m c b (fun h => hb (by rcases List.mem_cons.mp h with h | h <;> (first | (rw [h]; exact Finset.mem_image.mpr ⟨5, Finset.mem_univ _, rfl⟩) | (rw [List.mem_singleton.mp h]; exact Finset.mem_image.mpr ⟨6, Finset.mem_univ _, rfl⟩))))

set_option backward.isDefEq.respectTransparency.types false in
/-- Region 2 over the thread state: entered from every unscoped buffer at the contents its predecessors left, left
    with its outputs at the table's new entries; the generator register goes into the region's invariant and comes back;
    nothing is owed. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ Lz lvz 2 fun _ _ => rfl
  pre c := iprop(StableHlo.held (c : Thread nD τ) (Pipeline.ucRefs τ sig) (V5 m (o2 m) c) ∗ Rr c)
  post c := iprop(StableHlo.held (c : Thread nD τ) (Pipeline.ucRefs τ sig) (V6 m (o3 m) c) ∗ Rr c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b : Ref sig .tc => V6 m (o3 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem V7_43 (c : Dev nD) : V7 m (o4 m) c = V7 m (o3 m) c := V7_congr m c (o4_eq_o3 m _ _ c (by decide)) (o4_eq_o3 m _ _ c (by decide)) (o4_eq_o3 m _ _ c (by decide)) (o4_eq_o3 m _ _ c (by decide)) (o4_eq_o3 m _ _ c (by decide))
/-- A buffer region 3 does not write holds after it what it held before. -/
theorem keep3 (c : Dev nD) (r : Ref sig .tc) (h : r ∉ ([main_v73] : List (Ref sig .tc))) : V8 m (o4 m) c r = Vin3 m c r :=
  (V8_of m (o4 m) c r h).trans (congrFun (V7_43 m c) r)

set_option maxHeartbeats 4000000 in
/-- At region 3's exit each of its arrays holds what the 20 write-backs leave: the inputs as entered, the outputs at the table's new entries. -/
theorem hF3 (c : Dev nD) (w : Fin cfg3.W) : (dat3 (Vin3 m) c).arrAt w cfg3.N = (fun b : Ref sig .tc => V8 m (o4 m) c b) (Pipeline.arrRef spec3 w) := by
  match w with
  | ⟨0, _⟩ => exact ((dat3 (Vin3 m) c).arrAt_in 0 rfl _).trans ((A_eq3 (Vin3 m) c 0).trans (keep3 m c main_v72 (by decide)).symm)
  | ⟨1, _⟩ => exact ((dat3 (Vin3 m) c).arrAt_in 1 rfl _).trans ((A_eq3 (Vin3 m) c 1).trans (keep3 m c main_v60_1 (by decide)).symm)
  | ⟨2, _⟩ => exact ((dat3 (Vin3 m) c).arrAt_in 2 rfl _).trans ((A_eq3 (Vin3 m) c 2).trans (keep3 m c main_v28 (by decide)).symm)
  | ⟨3, _⟩ => exact ((dat3 (Vin3 m) c).arrAt_in 3 rfl _).trans ((A_eq3 (Vin3 m) c 3).trans (keep3 m c main_v31 (by decide)).symm)
  | ⟨4, _⟩ => exact ((Function.update_self (Proc.devRef (τ := τ) .tc main_v73) (o4 m 8 main_v73 c) (V7 m (o4 m) c)).trans (o4_8 m c)).symm

/-- Every other buffer is as region 3 found it. -/
theorem hrest3 (c : Dev nD) : ∀ b : Ref sig .tc, b ∉ Finset.univ.image (Pipeline.arrRef spec3) → (fun b : Ref sig .tc => V8 m (o4 m) c b) b = Vin3 m c b :=
  fun b hb => keep3 m c b (fun h => hb (by rw [List.mem_singleton.mp h]; exact Finset.mem_image.mpr ⟨4, Finset.mem_univ _, rfl⟩))

set_option backward.isDefEq.respectTransparency.types false in
/-- Region 3 over the thread state: entered from every unscoped buffer at the contents its predecessors left, left
    with its outputs at the table's new entries; the generator register goes into the region's invariant and comes back;
    nothing is owed. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ Lz lvz 3 fun _ _ => rfl
  pre c := iprop(StableHlo.held (c : Thread nD τ) (Pipeline.ucRefs τ sig) (V7 m (o3 m) c) ∗ Rr c)
  post c := iprop(StableHlo.held (c : Thread nD τ) (Pipeline.ucRefs τ sig) (V8 m (o4 m) c) ∗ Rr c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b : Ref sig .tc => V8 m (o4 m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- A buffer region 4 does not write holds after it what it held before. -/
theorem keep4 (c : Dev nD) (r : Ref sig .tc) (h : r ∉ ([main_v74] : List (Ref sig .tc))) : V9 m (o5 m) c r = Vin4 m c r :=
  (V9_of m (o5 m) c r h).trans (congrFun (V8_last m c) r)

set_option maxHeartbeats 4000000 in
/-- At region 4's exit each of its arrays holds what the 20 write-backs leave: the inputs as entered, the outputs at the table's new entries. -/
theorem hF4 (c : Dev nD) (w : Fin cfg4.W) : (dat4 (Vin4 m) c).arrAt w cfg4.N = (fun b : Ref sig .tc => V9 m (o5 m) c b) (Pipeline.arrRef spec4 w) := by
  match w with
  | ⟨0, _⟩ => exact ((dat4 (Vin4 m) c).arrAt_in 0 rfl _).trans ((A_eq4 (Vin4 m) c 0).trans (keep4 m c main_v73 (by decide)).symm)
  | ⟨1, _⟩ => exact ((dat4 (Vin4 m) c).arrAt_in 1 rfl _).trans ((A_eq4 (Vin4 m) c 1).trans (keep4 m c main_v33 (by decide)).symm)
  | ⟨2, _⟩ => exact ((dat4 (Vin4 m) c).arrAt_in 2 rfl _).trans ((A_eq4 (Vin4 m) c 2).trans (keep4 m c main_arg9 (by decide)).symm)
  | ⟨3, _⟩ => exact ((dat4 (Vin4 m) c).arrAt_in 3 rfl _).trans ((A_eq4 (Vin4 m) c 3).trans (keep4 m c main_v32 (by decide)).symm)
  | ⟨4, _⟩ => exact ((Function.update_self (Proc.devRef (τ := τ) .tc main_v74) (o5 m 9 main_v74 c) (V8 m (o5 m) c)).trans (o5_9 m c)).symm

/-- Every other buffer is as region 4 found it. -/
theorem hrest4 (c : Dev nD) : ∀ b : Ref sig .tc, b ∉ Finset.univ.image (Pipeline.arrRef spec4) → (fun b : Ref sig .tc => V9 m (o5 m) c b) b = Vin4 m c b :=
  fun b hb => keep4 m c b (fun h => hb (by rw [List.mem_singleton.mp h]; exact Finset.mem_image.mpr ⟨4, Finset.mem_univ _, rfl⟩))

set_option backward.isDefEq.respectTransparency.types false in
/-- Region 4 over the thread state: entered from every unscoped buffer at the contents its predecessors left, left
    with its outputs at the table's new entries; the generator register goes into the region's invariant and comes back;
    nothing is owed. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ Lz lvz 4 fun _ _ => rfl
  pre c := iprop(StableHlo.held (c : Thread nD τ) (Pipeline.ucRefs τ sig) (V8 m (o4 m) c) ∗ Rr c)
  post c := iprop(StableHlo.held (c : Thread nD τ) (Pipeline.ucRefs τ sig) (V9 m (o5 m) c) ∗ Rr c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (iprop(iprop(∃ r, prngReg c r) ∗ Pipeline.prefHeld (pcfgs (F := F) 4).pre c (fun _ => fullShare) (adm (F := F) 4).1 ∗ Pipeline.scopedRest spec4 c) : sProp 𝕄) ⊢ Pipeline.ΦA spec4 c from by
      unfold Pipeline.ΦA
      iintro ⟨Hp, -, Hr⟩
      isplitl [Hr]; · iexact Hr
      iexact Hp).trans (hin4 (Vin4 m) c)
  hout c := (hout4 (Vin4 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (fun b : Ref sig .tc => V9 m (o5 m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What rides beside the buffers at every boundary. -/
abbrev Eb : Fin 6 → Dev nD → sProp 𝕄 := fun _ c => Rr c

set_option backward.isDefEq.respectTransparency.types false in
/-- THE RUN of the kernel's program, at any `F`: from any memory with zero counters every weakly fair execution of
    @main terminates, nothing faulting; the result array `main_v74` ends at the last table's entry and every
    argument array as launched. -/
theorem run_main : θ_run defs (onTc (τ := τ) (main (F := F))) ⟨m, fun _ => 0, ρ⟩ (fun r => ∀ c : Dev nD,
      r.2.mem ((c.tc : Thread nD τ).loc main_v74) = V9 m (o5 m) c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_condV m (emb₁ : Emb _ 𝕄) () Variants.none Lz lvz (fun _ _ => rfl) ρ (o5 m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Eb
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_last m c]; exact .rfl)
    (reg1 m) (fun c => by rw [V3_last m c]; exact .rfl) (fun c => by rw [V4_last m c]; exact .rfl)
    (reg2 m) (fun c => by rw [V5_last m c]; exact .rfl) (fun c => by rw [V6_last m c]; exact .rfl)
    (reg3 m) (fun c => by rw [V7_last m c]; exact .rfl) (fun c => by rw [V8_last m c]; exact .rfl)
    (reg4 m) (fun c => by rw [V8_last m c]; exact .rfl) (fun c => .rfl)

end Cert.Kernel.Hand

end
-- ==== Proof.KI.Reg0.lean ====
import proofs.«419973_j8177617732163_2_alg».proof.Proof.Gen.KernelIdeal.Launch
import proofs.«419973_j8177617732163_2_alg».proof.Proof.Gen.KernelIdeal.Skeleton
import proofs.«419973_j8177617732163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # Region 0: one block of rows of x times the 64x64 weights, per grid point -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds the point's block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights window's buffer holds the whole 64x64 matrix at every point: its block index never moves,
    so where it is not fetched it still holds the block of the point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x64 := Rect.unit (s := S5000x64) ![0, 0] S5000x64.size inb_S5000x64_S5000x64_0_0
abbrev r0_w : Rect S64x64 := Rect.unit (s := S64x64) ![0, 0] S64x64.size inb_S64x64_S64x64_0_0

/-! ## What the body leaves in the output window's buffer -/

/-- The output buffer after the body: its one whole-block store, the product of the block of x and the weights. -/
def out0_2 (x0 : Vec F S5000x64 .f32) (x1 : Vec F S64x64 .f32) : Vec F S5000x64 .f32 :=
  View.canon [⟨r0_x, k0_pay1 (View.ld x0 r0_x) (View.ld x1 r0_w)⟩]

/-- The one store covers the buffer. -/
theorem cover0_2 (p0 : Vec F S5000x64 .f32) (y : S5000x64.Idx) :
    ∃ pc ∈ ([⟨r0_x, p0⟩] : List (View.Piece (Elt F) S5000x64 .f32)), y ∈ pc.1.set :=
  View.cover_of_tiled [⟨r0_x, p0⟩] S5000x64.size (by rfl) y

/-! ## The body's triple -/

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (i : grid0.Coords)
    (arg0 : Memref sig .tc .vmem S5000x64 .f32) (harg0 : arg0.IsWhole)
    (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data: the arrays as the region finds them; after the body at point `t` each input's buffer at its
    block and the output's at the product of the two blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KI.Reg1.lean ====
import proofs.«419973_j8177617732163_2_alg».proof.Proof.Gen.KernelIdeal.Launch
import proofs.«419973_j8177617732163_2_alg».proof.Proof.Gen.KernelIdeal.Skeleton
import proofs.«419973_j8177617732163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # The combine-and-project kernel on the 20 row blocks, at the entry contents `V`

Windows 0, 1, 2 (the aggregate, the features, the squared inverse-root degree column) and the two outputs 5, 6 move
with the point: block `t` is rows `5000 t … 5000 t + 4999`. Windows 3 (the bias row) and 4 (the weights) have a
constant block index: one block, the whole array. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point it is live, whether the block was moved in there or
    carried over from the point before (then the block index has not moved, so it is the same block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point it is live, whether the block was moved in there or
    carried over from the point before (then the block index has not moved, so it is the same block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point it is live, whether the block was moved in there or
    carried over from the point before (then the block index has not moved, so it is the same block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point it is live, whether the block was moved in there or
    carried over from the point before (then the block index has not moved, so it is the same block). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point it is live, whether the block was moved in there or
    carried over from the point before (then the block index has not moved, so it is the same block). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in each output window's buffer -/

/-- Window 5 after the body: one store of the whole block, `max (agg + h * d + b, 0)` of the four input blocks. -/
def out1_5 (x0 : Vec F S5000x64 .f32) (x1 : Vec F S5000x64 .f32) (x2 : Vec F S5000x1 .f32) (x3 : Vec F S1x64 .f32) : Vec F S5000x64 .f32 :=
  View.canon [⟨r1_0, k1_pay1 (View.ld x0 r1_0) (View.ld x1 r1_0) (View.ld x2 r1_1) (View.ld x3 r1_2)⟩]

/-- Window 6 after the body: one store of the whole block, the rounded window-5 value times the rounded weights. -/
def out1_6 (x0 : Vec F S5000x64 .f32) (x1 : Vec F S5000x64 .f32) (x2 : Vec F S5000x1 .f32) (x3 : Vec F S1x64 .f32) (x4 : Vec F S64x64 .f32) : Vec F S5000x64 .f32 :=
  View.canon [⟨r1_0, k1_pay2 (View.ld x0 r1_0) (View.ld x1 r1_0) (View.ld x2 r1_1) (View.ld x3 r1_2) (View.ld x4 r1_3)⟩]

/-- A single whole-block store covers the 5000 x 64 buffer (both outputs have this shape). -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 4000000 in
/-- The kernel body on whole staging memrefs, the five inputs' at read contents `x0 … x4` and the two outputs' at
    anything, runs to the continuation holding the inputs' as they were and the outputs' at `out1_5`, `out1_6` of
    the inputs: the body is its sequence of whole-buffer loads and two whole-buffer stores over the payloads. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3) ∗ owns (c : Thread nD τ) arg7 fullShare (out1_6 x0 x1 x2 x3 x4)) -∗ K ⟨⟩))
      ⊢ wp frame (wpE (defs₀ (F := F)) Variants.none c none) E (cc1__combine_matmul_kernel i arg1 harg1 arg2 harg2 arg3 harg3 arg4 harg4 arg5 harg5 arg6 harg6 arg7 harg7) K := by
  simp only [cc1__combine_matmul_kernel_eq_skeleton]; unfold cc1__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_5 _)

/-! ## The pipeline's proof data -/

/-- The proof data of this pipeline on core `c`: the arrays as the region finds them; after the body at point `t`
    each input's buffer at its block and each output's at `out1_5`, `out1_6` of the input blocks; the invariant is the
    untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«419973_j8177617732163_2_alg».proof.Proof.Gen.KernelIdeal.Launch
import proofs.«419973_j8177617732163_2_alg».proof.Proof.Gen.KernelIdeal.Skeleton
import proofs.«419973_j8177617732163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # The combine-and-project kernel on the 20 row blocks, at the entry contents `V`

Windows 0, 1, 2 (the aggregate, the features, the squared inverse-root degree column) and the two outputs 5, 6 move
with the point: block `t` is rows `5000 t … 5000 t + 4999`. Windows 3 (the bias row) and 4 (the weights) have a
constant block index: one block, the whole array. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point it is live, whether the block was moved in there or
    carried over from the point before (then the block index has not moved, so it is the same block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point it is live, whether the block was moved in there or
    carried over from the point before (then the block index has not moved, so it is the same block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point it is live, whether the block was moved in there or
    carried over from the point before (then the block index has not moved, so it is the same block). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every point it is live, whether the block was moved in there or
    carried over from the point before (then the block index has not moved, so it is the same block). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every point it is live, whether the block was moved in there or
    carried over from the point before (then the block index has not moved, so it is the same block). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in each output window's buffer -/

/-- Window 5 after the body: one store of the whole block, `max (agg + h * d + b, 0)` of the four input blocks. -/
def out2_5 (x0 : Vec F S5000x64 .f32) (x1 : Vec F S5000x64 .f32) (x2 : Vec F S5000x1 .f32) (x3 : Vec F S1x64 .f32) : Vec F S5000x64 .f32 :=
  View.canon [⟨r2_0, k2_pay1 (View.ld x0 r2_0) (View.ld x1 r2_0) (View.ld x2 r2_1) (View.ld x3 r2_2)⟩]

/-- Window 6 after the body: one store of the whole block, the rounded window-5 value times the rounded weights. -/
def out2_6 (x0 : Vec F S5000x64 .f32) (x1 : Vec F S5000x64 .f32) (x2 : Vec F S5000x1 .f32) (x3 : Vec F S1x64 .f32) (x4 : Vec F S64x64 .f32) : Vec F S5000x64 .f32 :=
  View.canon [⟨r2_0, k2_pay2 (View.ld x0 r2_0) (View.ld x1 r2_0) (View.ld x2 r2_1) (View.ld x3 r2_2) (View.ld x4 r2_3)⟩]

/-- A single whole-block store covers the 5000 x 64 buffer (both outputs have this shape). -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 4000000 in
/-- The kernel body on whole staging memrefs, the five inputs' at read contents `x0 … x4` and the two outputs' at
    anything, runs to the continuation holding the inputs' as they were and the outputs' at `out2_5`, `out2_6` of
    the inputs: the body is its sequence of whole-buffer loads and two whole-buffer stores over the payloads. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3) ∗ owns (c : Thread nD τ) arg7 fullShare (out2_6 x0 x1 x2 x3 x4)) -∗ K ⟨⟩))
      ⊢ wp frame (wpE (defs₀ (F := F)) Variants.none c none) E (cc2__combine_matmul_kernel i arg1 harg1 arg2 harg2 arg3 harg3 arg4 harg4 arg5 harg5 arg6 harg6 arg7 harg7) K := by
  simp only [cc2__combine_matmul_kernel_eq_skeleton]; unfold cc2__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_5 _)

/-! ## The pipeline's proof data -/

/-- The proof data of this pipeline on core `c`: the arrays as the region finds them; after the body at point `t`
    each input's buffer at its block and each output's at `out2_5`, `out2_6` of the input blocks; the invariant is the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«419973_j8177617732163_2_alg».proof.Proof.Gen.KernelIdeal.Launch
import proofs.«419973_j8177617732163_2_alg».proof.Proof.Gen.KernelIdeal.Skeleton
import proofs.«419973_j8177617732163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # Region 3: out = max(agg + h * dinv2 + bias, 0), one 5000-row block per grid point -/

/-! ## The windows' blocks -/

/-- Window `w`'s block at point `t`, read off the array the region finds on entry. Windows 0, 1, 2, 4 are rows
    5000 t … 5000 t + 4999 of their arrays; window 3 is the whole 1 x 64 row at every point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block of the entry array at every point, whether or not the
    point fetched it: unfetched, the block index has not moved, so the block kept from the previous point is this
    point's. Stated for any proof data whose array 0 is the entry array and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current buffer holds its block of the entry array at every point, whether or not the
    point fetched it: unfetched, the block index has not moved, so the block kept from the previous point is this
    point's. Stated for any proof data whose array 1 is the entry array and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current buffer holds its block of the entry array at every point, whether or not the
    point fetched it: unfetched, the block index has not moved, so the block kept from the previous point is this
    point's. Stated for any proof data whose array 2 is the entry array and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current buffer holds its block of the entry array at every point, whether or not the
    point fetched it: unfetched, the block index has not moved, so the block kept from the previous point is this
    point's. Stated for any proof data whose array 3 is the entry array and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each operand is read whole, the result is stored whole -/

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S1x64 := Rect.unit (s := S1x64) ![0, 0] S1x64.size inb_S1x64_S1x64_0_0

/-! ## What the body leaves in the output window's buffer -/

/-- Window 4's buffer after the body, from the four input blocks: the one whole-block store of
    max(x0 + x1 * (x2 along columns) + (x3 along rows), 0). -/
def out3_4 (x0 : Vec F S5000x64 .f32) (x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_1) (View.ld x3 r3_2)⟩]

/-- The one store is the whole block, so it covers every entry. -/
theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The body on whole buffers, the four inputs' at contents x0 … x3 and the output's at anything, returns the inputs'
    unchanged and the output's at `out3_4 x0 x1 x2 x3`: four whole loads, a load of the output that is not used, one
    whole store. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region on core `c`: the arrays as the region finds them; after the body at point `t` each
    input's buffer at its block and the output's at `out3_4` of the four input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«419973_j8177617732163_2_alg».proof.Proof.Gen.KernelIdeal.Launch
import proofs.«419973_j8177617732163_2_alg».proof.Proof.Gen.KernelIdeal.Skeleton
import proofs.«419973_j8177617732163_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: every statement is at this PARAMETER
variable (V : (c : Dev nD) → (b : Ref sig .tc) → Buf (Elt F) ((c : Thread nD τ).loc b))

/-! # The pooling region: segment sums and counts carried across the 20 row blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The grid has 20 points, so 19 is one of them. -/
theorem lt19_4 : 19 < cfg4.N := by rw [show cfg4.N = 20 from N_4]; decide

/-- The two accumulators after the body at point `n`: the per-graph sums of the rows seen so far (512 x 64) and the
    per-graph row counts (512 x 1). At point 0 both start from zero; at point `n + 1` the block's one-hot products are
    added to what point `n` left. -/
def acc4 (c : Dev nD) : (n : ℕ) → n < cfg4.N → Vec F S512x64 .f32 × Vec F S512x1 .f32
  | 0, h => (k4_pay4 (iblk4 V c 1 ⟨0, h⟩) (iblk4 V c 0 ⟨0, h⟩) k4_pay1, k4_pay5 (iblk4 V c 1 ⟨0, h⟩) k4_pay2)
  | n + 1, h => (k4_pay4 (iblk4 V c 1 ⟨n + 1, h⟩) (iblk4 V c 0 ⟨n + 1, h⟩) (acc4 c n (Nat.lt_of_succ_lt h)).1,
      k4_pay5 (iblk4 V c 1 ⟨n + 1, h⟩) (acc4 c n (Nat.lt_of_succ_lt h)).2)

theorem acc4_zero (c : Dev nD) (h : 0 < cfg4.N) :
    acc4 V c 0 h = (k4_pay4 (iblk4 V c 1 ⟨0, h⟩) (iblk4 V c 0 ⟨0, h⟩) k4_pay1, k4_pay5 (iblk4 V c 1 ⟨0, h⟩) k4_pay2) := rfl

theorem acc4_succ (c : Dev nD) (n : ℕ) (h : n + 1 < cfg4.N) :
    acc4 V c (n + 1) h = (k4_pay4 (iblk4 V c 1 ⟨n + 1, h⟩) (iblk4 V c 0 ⟨n + 1, h⟩) (acc4 V c n (Nat.lt_of_succ_lt h)).1,
      k4_pay5 (iblk4 V c 1 ⟨n + 1, h⟩) (acc4 V c n (Nat.lt_of_succ_lt h)).2) := rfl

/-- The output block: the means (sums over counts clamped below by one) through the linear layer and the logistic,
    from the accumulators after the last point. -/
def out4 (c : Dev nD) : Vec F S512x8 .f32 :=
  k4_pay6 (acc4 V c 19 lt19_4).1 (acc4 V c 19 lt19_4).2 (iblk4 V c 2 ⟨19, lt19_4⟩) (iblk4 V c 3 ⟨19, lt19_4⟩)

/-- The two accumulators as whole memrefs. -/
abbrev scM4_0 : Memref sig .tc .vmem S512x64 .f32 := Memref.whole cc4_scratch0
abbrev scM4_1 : Memref sig .tc .vmem S512x1 .f32 := Memref.whole cc4_scratch1

/-- The region invariant before position `n`: before the first point the class's; afterwards the two accumulators at
    what the point before left, every other scoped buffer at anything and the generator register at some state. -/
def Phi4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

/-- The proof data of the pooling pipeline on core `c`: each input's buffer at its block; the output's at `out4`
    (what the last point stores; at the other points the window is idle and this is a placeholder nothing consults). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
/-- The output window after the body: `out4` (at the last point, where it is stored and flushed; elsewhere a placeholder). -/
theorem after4_4 (c : Dev nD) (t : Fin cfg4.N) : (dat4 V c).after 4 t = out4 V c := by dsimp only [dat4]

/-! ## The two conditions on the grid point, in closed form -/

theorem hz4 : (![0, 0] : Fin 2 → Nat) = fun _ => 0 := funext fun a => by fin_cases a <;> rfl

/-- The first conditional's condition: the point's coordinate, as a 32-bit word, equals 0. -/
abbrev cond4_0 (i : grid4.Coords) : Prop :=
  (Scalar.cmpi .ne (Scalar.extui (Scalar.cmpi .eq (BitVec.ofNat 32 (i 0).val) 0#32) : BitVec 32) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- The second conditional's condition: the coordinate equals 19. -/
abbrev cond4_1 (i : grid4.Coords) : Prop := k4_cond2 i = 1#1
/-- It holds at point 19 only. -/
theorem hcond4_1 : ∀ t : Fin cfg4.N, cond4_1 (grid4.coords t) ↔ t.val = 19 :=
  (by decide +kernel : ∀ t : Fin grid4.N, cond4_1 (grid4.coords t) ↔ t.val = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Away from the last point the output window is idle, -/
theorem idleAt4_4 : ∀ t : Fin cfg4.N, ¬cond4_1 (grid4.coords t) → cfg4.idle 4 (grid4.coords t) = true := by decide +kernel
/-- and its block is not written back there. -/
theorem noFlush4_4 : ∀ t : Fin cfg4.N, ¬cond4_1 (grid4.coords t) → (cfg4.win 4).flush t = false := by decide +kernel
/-- At the last point it is live. -/
theorem liveAt4_4 : ∀ t : Fin cfg4.N, cond4_1 (grid4.coords t) → cfg4.idle 4 (grid4.coords t) = false := by decide +kernel

/-- A store through the whole-shape rectangle at zero offsets, last, leaves its payload in the buffer whatever was
    stored before it. -/
theorem read_writes_whole4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

/-! ## The body's triple, case by case

The body on whole memrefs. Every store covers its whole buffer, so what a buffer holds afterwards is the last
store's payload; a load of a buffer after such a store reads that payload. -/

set_option maxHeartbeats 4000000 in
/-- Point 0: both accumulators are zeroed, then the block's one-hot products are added. The once-fetched windows
    and the output window are not touched. -/
theorem sound_kernel4_A (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x8 .f32) (harg3 : arg3.IsWhole) (arg4 : Memref sig .tc .vmem S1x8 .f32) (harg4 : arg4.IsWhole)
    (arg5 : Memref sig .tc .vmem S512x8 .f32) (harg5 : arg5.IsWhole) (arg6 : Memref sig .tc .vmem S512x64 .f32) (harg6 : arg6.IsWhole)
    (arg7 : Memref sig .tc .vmem S512x1 .f32) (harg7 : arg7.IsWhole)
    (hc0 : cond4_0 i) (hc1 : ¬cond4_1 i)
    (x0 : Vec F S5000x64 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k4_pay4 x1 x0 k4_pay1) ∗ owns (c : Thread nD τ) arg7 fullShare (k4_pay5 x1 k4_pay2)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%d6, %f6, -, H6⟩, ⟨%d7, %f7, -, H7⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H6]
  · iexists _; isplitr
    swap; · iexact H6
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  · iexists _; isplitr
    swap; · iexact H7
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]

set_option maxHeartbeats 4000000 in
/-- A point strictly between the first and the last: the block's one-hot products are added to what the point
    before left. -/
theorem sound_kernel4_B (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x8 .f32) (harg3 : arg3.IsWhole) (arg4 : Memref sig .tc .vmem S1x8 .f32) (harg4 : arg4.IsWhole)
    (arg5 : Memref sig .tc .vmem S512x8 .f32) (harg5 : arg5.IsWhole) (arg6 : Memref sig .tc .vmem S512x64 .f32) (harg6 : arg6.IsWhole)
    (arg7 : Memref sig .tc .vmem S512x1 .f32) (harg7 : arg7.IsWhole)
    (hc0 : ¬cond4_0 i) (hc1 : ¬cond4_1 i)
    (x0 : Vec F S5000x64 .f32) (x1 : Vec F S5000x1 .i32) (xs0 : Vec F S512x64 .f32) (xs1 : Vec F S512x1 .f32) (K : PUnit → sProp 𝕄) :
    iprop(owns (c : Thread nD τ) arg1 fullShare x0 ∗ owns (c : Thread nD τ) arg2 fullShare x1
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg6 fullShare (k4_pay4 x1 x0 xs0) ∗ owns (c : Thread nD τ) arg7 fullShare (k4_pay5 x1 xs1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f6, %hf6, H6⟩, ⟨%f7, %hf7, H7⟩, Hk⟩
  obtain rfl := harg1.eq_unread hf0; obtain rfl := harg2.eq_unread hf1
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H6]
  · iexists _; isplitr
    swap; · iexact H6
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  · iexists _; isplitr
    swap; · iexact H7
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]

set_option maxHeartbeats 4000000 in
/-- The last point: the products are added, then the output block is computed from the two accumulators, the weights
    and the bias row, and stored. -/
theorem sound_kernel4_C (c : Dev nD) (E : Set ℕ) (i : grid4.Coords)
    (arg1 : Memref sig .tc .vmem S5000x64 .f32) (harg1 : arg1.IsWhole) (arg2 : Memref sig .tc .vmem S5000x1 .i32) (harg2 : arg2.IsWhole)
    (arg3 : Memref sig .tc .vmem S64x8 .f32) (harg3 : arg3.IsWhole) (arg4 : Memref sig .tc .vmem S1x8 .f32) (harg4 : arg4.IsWhole)
    (arg5 : Memref sig .tc .vmem S512x8 .f32) (harg5 : arg5.IsWhole) (arg6 : Memref sig .tc .vmem S512x64 .f32) (harg6 : arg6.IsWhole)
    (arg7 : Memref sig .tc .vmem S512x1 .f32) (harg7 : arg7.IsWhole)
    (hc0 : ¬cond4_0 i) (hc1 : cond4_1 i)
    (x0 : Vec F S5000x64 .f32) (x1 : Vec F S5000x1 .i32) (x2 : Vec F S64x8 .f32) (x3 : Vec F S1x8 .f32)
    (xs0 : Vec F S512x64 .f32) (xs1 : Vec F S512x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k4_pay6 (k4_pay4 x1 x0 xs0) (k4_pay5 x1 xs1) x2 x3)
            ∗ owns (c : Thread nD τ) arg6 fullShare (k4_pay4 x1 x0 xs0) ∗ owns (c : Thread nD τ) arg7 fullShare (k4_pay5 x1 xs1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  obtain rfl := harg1.eq_unread hf0; obtain rfl := harg2.eq_unread hf1
  obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  isplitl [H6]
  · iexists _; isplitr
    swap; · iexact H6
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]
  · iexists _; isplitr
    swap; · iexact H7
    ipureintro
    refine (read_writes_whole4 _ _ hz4 _ _ _).trans ?_
    try sl_unfold_words
    simp only [View.readAt_eq_ld, harg1.read_unread, harg2.read_unread, harg3.read_unread, harg4.read_unread, harg6.read_unread, harg7.read_unread,
      View.readCov_unit_zero (S := S512x64) _ hz4, View.readCov_unit_zero (S := S512x1) _ hz4,
      View.ld_unit_zero (S := S5000x64) hz4, View.ld_unit_zero (S := S5000x1) hz4, View.ld_unit_zero (S := S512x64) hz4,
      View.ld_unit_zero (S := S512x1) hz4, View.ld_unit_zero (S := S64x8) hz4, View.ld_unit_zero (S := S1x8) hz4]

/-! ## The inputs' buffers hold their blocks at every point -/

/-- An input window's current buffer holds its block at every point, fetched there or not (a block fetched once has
    not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The accumulators and the invariant, point by point -/

/-- The accumulators after point 0: the first block's products over zero. -/
theorem acc4_first (c : Dev nD) (t : Fin cfg4.N) (h0 : t.val = 0) :
    acc4 V c t.val t.isLt = (k4_pay4 (iblk4 V c 1 t) (iblk4 V c 0 t) k4_pay1, k4_pay5 (iblk4 V c 1 t) k4_pay2) := by
  obtain ⟨n, hn⟩ := t
  cases n with
  | zero => rfl
  | succ n => exact absurd h0 (Nat.succ_ne_zero n)

/-- The accumulators after a later point: its block's products over what the point before left. -/
theorem acc4_later (c : Dev nD) (t : Fin cfg4.N) (h0 : t.val ≠ 0) :
    acc4 V c t.val t.isLt = (k4_pay4 (iblk4 V c 1 t) (iblk4 V c 0 t) (acc4 V c (t.val - 1) (Nat.lt_of_le_of_lt (Nat.sub_le _ _) t.isLt)).1,
      k4_pay5 (iblk4 V c 1 t) (acc4 V c (t.val - 1) (Nat.lt_of_le_of_lt (Nat.sub_le _ _) t.isLt)).2) := by
  obtain ⟨n, hn⟩ := t
  cases n with
  | zero => exact absurd rfl h0
  | succ n => rfl

/-- The output block over the last point's data. -/
theorem out4_last (c : Dev nD) (t : Fin cfg4.N) (h : t.val = 19) :
    out4 V c = k4_pay6 (acc4 V c t.val t.isLt).1 (acc4 V c t.val t.isLt).2 (iblk4 V c 2 t) (iblk4 V c 3 t) := by
  obtain ⟨n, hn⟩ := t
  obtain rfl : n = 19 := h
  rfl

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

theorem Phi4_castSucc (c : Dev nD) (t : Fin cfg4.N) :
    (dat4 V c).Φ t.castSucc = Phi4 V c t.val (Nat.le_of_lt t.isLt) := by
  dsimp only [dat4]; simp only [Fin.coe_castSucc]

/-- The class's invariant with the two accumulators as whole memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks; the point's position selects the case; the
    invariant hands over the two accumulators (at anything before the first point, at what the point before left
    afterwards) and takes them back at this point's contents; the output window's buffer comes back untouched except
    at the last point, where it holds the output block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  have hN : t.val < 20 := lt_of_lt_of_eq t.isLt (show cfg4.N = 20 from N_4)
  by_cases h0 : t.val = 0
  · have h1 : ¬t.val = 19 := by omega
    rw [Dat.leavesExact_idle (dat4 V c) 4 t (idleAt4_4 t (fun h => h1 ((hcond4_1 t).mp h))) (noFlush4_4 t (fun h => h1 ((hcond4_1 t).mp h)))]
    rw [acc4_first V c t h0]; dsimp only
    rw [Phi4_castSucc V c t, Phi4_zero V c _ _ h0, PhiA4_eq]
    iintro ⟨⟨⟨⟨HS0, HS1⟩, HR⟩, Hg⟩, Ho, ⟨%d0, H0⟩, ⟨%d1, H1⟩, ⟨%d2, H2⟩, ⟨%d3, H3⟩, H4⟩
    iapply (sound_kernel4_A c Set.univ (grid4.coords t) _ _ _ _ _ _ _ _ _ _ _ _ _ _ ((hcond4_0 t).mpr h0) (fun h => h1 ((hcond4_1 t).mp h)) (iblk4 V c 0 t) (iblk4 V c 1 t) _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · by_cases h1 : t.val = 19
    · rw [show (dat4 V c).leavesExact 4 t = owns (c : Thread nD τ) (st4_4 t) fullShare ((dat4 V c).after 4 t) from by
        unfold Dat.leavesExact; rw [liveAt4_4 t ((hcond4_1 t).mpr h1)], after4_4, out4_last V c t h1]
      rw [acc4_later V c t h0]; dsimp only
      rw [Phi4_castSucc V c t, Phi4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idleAt4_4 t (fun h => h1 ((hcond4_1 t).mp h))) (noFlush4_4 t (fun h => h1 ((hcond4_1 t).mp h)))]
      rw [acc4_later V c t h0]; dsimp only
      rw [Phi4_castSucc V c t, Phi4_pos V c _ _ h0]
      iintro ⟨⟨⟨⟨HS0, HS1⟩, HR⟩, Hg⟩, Ho, ⟨%d0, H0⟩, ⟨%d1, H1⟩, ⟨%d2, H2⟩, ⟨%d3, H3⟩, H4⟩
      iapply (sound_kernel4_B c Set.univ (grid4.coords t) _ _ _ _ _ _ _ _ _ _ _ _ _ _ (fun h => h0 ((hcond4_0 t).mp h)) (fun h => h1 ((hcond4_1 t).mp h)) (iblk4 V c 0 t) (iblk4 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point but the first the invariant gives the class's back: the accumulators' contents are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi4_out V c _ (by rw [Fin.val_last]; have : cfg4.N = 20 := N_4; omega)

end Cert.KernelIdeal.Hand
end
-- ==== Proof.KI.Outs.lean ====
/-
  What each of the five kernel regions leaves in the buffers it writes, as one table filled region by region.

  Between two items of @main every unscoped buffer holds the launch contents, then what the host stretches compute, then —
  at the buffers a region writes — an entry of a table of contents. Here the table is built in five stages: a region's
  proof data is taken at the contents its predecessors left (which read only earlier entries), and what its 20 grid
  points write back becomes the next entry. Later stages never change an earlier entry, so a valuation read at the
  last table is the one read at the stage that completed it.
-/
import proofs.«419973_j8177617732163_2_alg».proof.Proof.KI.FrameV
import proofs.«419973_j8177617732163_2_alg».proof.Proof.KI.Reg0
import proofs.«419973_j8177617732163_2_alg».proof.Proof.KI.Reg1
import proofs.«419973_j8177617732163_2_alg».proof.Proof.KI.Reg2
import proofs.«419973_j8177617732163_2_alg».proof.Proof.KI.Reg3
import proofs.«419973_j8177617732163_2_alg».proof.Proof.KI.Reg4
import proofs.«419973_j8177617732163_2_alg».proof.Proof.Gen.KernelIdeal.Skeleton
import proofs.«419973_j8177617732163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave, stage by stage

The valuations between @main's items read a table of the contents each region leaves. The table is filled one
region at a time: each region's proof data is taken at the contents its predecessors left, and what it writes back
over the 20 grid points becomes the next entry. -/

/-- The contents table with one more entry: at step `j` and buffer `r₀` the contents `x`, elsewhere as before. -/
def put (o : Outs (F := F)) (j : ℕ) (r₀ : Ref sig .tc) (x : (c : Dev nD) → Buf (Elt F) ((c : Thread nD τ).loc r₀)) : Outs (F := F) :=
  fun j' r c => if h : j' = j ∧ r = r₀ then h.2 ▸ x c else o j' r c

theorem put_same (o : Outs (F := F)) (j : ℕ) (r₀ : Ref sig .tc) (x : (c : Dev nD) → Buf (Elt F) ((c : Thread nD τ).loc r₀)) (c : Dev nD) :
    put o j r₀ x j r₀ c = x c := by
  unfold put; rw [dif_pos ⟨rfl, rfl⟩]

theorem put_step_ne (o : Outs (F := F)) (j : ℕ) (r₀ : Ref sig .tc) (x : (c : Dev nD) → Buf (Elt F) ((c : Thread nD τ).loc r₀))
    (j' : ℕ) (r : Ref sig .tc) (c : Dev nD) (hj : j' ≠ j) : put o j r₀ x j' r c = o j' r c := by
  unfold put; rw [dif_neg (fun h => hj h.1)]

theorem put_ref_ne (o : Outs (F := F)) (j : ℕ) (r₀ : Ref sig .tc) (x : (c : Dev nD) → Buf (Elt F) ((c : Thread nD τ).loc r₀))
    (j' : ℕ) (r : Ref sig .tc) (c : Dev nD) (hr : r ≠ r₀) : put o j r₀ x j' r c = o j' r c := by
  unfold put; rw [dif_neg (fun h => hr h.2)]

/-- Before any region: a table nothing reads. -/
def o0 : Outs (F := F) := fun _ r c => m ((c : Thread nD τ).loc r)

/-- Region 0 is entered at the contents after the first host stretch. -/
abbrev Vin0 : (c : Dev nD) → (b : Ref sig .tc) → Buf (Elt F) ((c : Thread nD τ).loc b) := fun c b => V1 m c b
/-- After region 0: the first layer's product, written back block by block. -/
def o1 : Outs (F := F) := put (o0 m) 2 main_v34 (fun c => (dat0 (Vin0 m) c).arrAt 2 cfg0.N)
abbrev Vin1 : (c : Dev nD) → (b : Ref sig .tc) → Buf (Elt F) ((c : Thread nD τ).loc b) := fun c b => V3 m (o1 m) c b
/-- After region 1: the first layer's features and their product with the second weights. -/
def o2 : Outs (F := F) := put (put (o1 m) 4 main_v47_0 (fun c => (dat1 (Vin1 m) c).arrAt 5 cfg1.N)) 4 main_v47_1 (fun c => (dat1 (Vin1 m) c).arrAt 6 cfg1.N)
abbrev Vin2 : (c : Dev nD) → (b : Ref sig .tc) → Buf (Elt F) ((c : Thread nD τ).loc b) := fun c b => V5 m (o2 m) c b
/-- After region 2: the second layer's features and their product with the third weights. -/
def o3 : Outs (F := F) := put (put (o2 m) 6 main_v60_0 (fun c => (dat2 (Vin2 m) c).arrAt 5 cfg2.N)) 6 main_v60_1 (fun c => (dat2 (Vin2 m) c).arrAt 6 cfg2.N)
abbrev Vin3 : (c : Dev nD) → (b : Ref sig .tc) → Buf (Elt F) ((c : Thread nD τ).loc b) := fun c b => V7 m (o3 m) c b
/-- After region 3: the third layer's features. -/
def o4 : Outs (F := F) := put (o3 m) 8 main_v73 (fun c => (dat3 (Vin3 m) c).arrAt 4 cfg3.N)
abbrev Vin4 : (c : Dev nD) → (b : Ref sig .tc) → Buf (Elt F) ((c : Thread nD τ).loc b) := fun c b => V8 m (o4 m) c b
/-- After region 4: the readout. -/
def o5 : Outs (F := F) := put (o4 m) 9 main_v74 (fun c => (dat4 (Vin4 m) c).arrAt 4 cfg4.N)

/-! ### The table's entries, read at the last stage and at the stage that wrote them -/

theorem o1_2 (c : Dev nD) : o1 m 2 main_v34 c = (dat0 (Vin0 m) c).arrAt 2 cfg0.N := put_same _ _ _ _ c
theorem o5_2 (c : Dev nD) : o5 m 2 main_v34 c = (dat0 (Vin0 m) c).arrAt 2 cfg0.N := by
  unfold o5 o4 o3 o2
  rw [put_step_ne _ _ _ _ _ _ _ (by decide), put_step_ne _ _ _ _ _ _ _ (by decide), put_step_ne _ _ _ _ _ _ _ (by decide),
    put_step_ne _ _ _ _ _ _ _ (by decide), put_step_ne _ _ _ _ _ _ _ (by decide), put_step_ne _ _ _ _ _ _ _ (by decide)]
  exact o1_2 m c

theorem o2_4a (c : Dev nD) : o2 m 4 main_v47_0 c = (dat1 (Vin1 m) c).arrAt 5 cfg1.N := by
  unfold o2; rw [put_ref_ne _ _ _ _ _ _ _ (by decide)]; exact put_same _ _ _ _ c
theorem o2_4b (c : Dev nD) : o2 m 4 main_v47_1 c = (dat1 (Vin1 m) c).arrAt 6 cfg1.N := put_same _ _ _ _ c
theorem o3_6a (c : Dev nD) : o3 m 6 main_v60_0 c = (dat2 (Vin2 m) c).arrAt 5 cfg2.N := by
  unfold o3; rw [put_ref_ne _ _ _ _ _ _ _ (by decide)]; exact put_same _ _ _ _ c
theorem o3_6b (c : Dev nD) : o3 m 6 main_v60_1 c = (dat2 (Vin2 m) c).arrAt 6 cfg2.N := put_same _ _ _ _ c
theorem o4_8 (c : Dev nD) : o4 m 8 main_v73 c = (dat3 (Vin3 m) c).arrAt 4 cfg3.N := put_same _ _ _ _ c
theorem o5_9 (c : Dev nD) : o5 m 9 main_v74 c = (dat4 (Vin4 m) c).arrAt 4 cfg4.N := put_same _ _ _ _ c

/-! ### A later stage keeps the earlier entries -/

theorem o2_eq_o1 (j : ℕ) (r : Ref sig .tc) (c : Dev nD) (hj : j ≠ 4) : o2 m j r c = o1 m j r c := by
  unfold o2; rw [put_step_ne _ _ _ _ _ _ _ hj, put_step_ne _ _ _ _ _ _ _ hj]
theorem o3_eq_o2 (j : ℕ) (r : Ref sig .tc) (c : Dev nD) (hj : j ≠ 6) : o3 m j r c = o2 m j r c := by
  unfold o3; rw [put_step_ne _ _ _ _ _ _ _ hj, put_step_ne _ _ _ _ _ _ _ hj]
theorem o4_eq_o3 (j : ℕ) (r : Ref sig .tc) (c : Dev nD) (hj : j ≠ 8) : o4 m j r c = o3 m j r c := by
  unfold o4; rw [put_step_ne _ _ _ _ _ _ _ hj]
theorem o5_eq_o4 (j : ℕ) (r : Ref sig .tc) (c : Dev nD) (hj : j ≠ 9) : o5 m j r c = o4 m j r c := by
  unfold o5; rw [put_step_ne _ _ _ _ _ _ _ hj]

/-! ### The valuations read only the entries before them -/

section Congr
variable {o o' : Outs (F := F)} (c : Dev nD)
theorem V2_congr (h2 : o 2 main_v34 c = o' 2 main_v34 c) : V2 m o c = V2 m o' c := by
  show Function.update (V1 m c) _ (o 2 main_v34 c) = Function.update (V1 m c) _ (o' 2 main_v34 c); rw [h2]
theorem V3_congr (h2 : o 2 main_v34 c = o' 2 main_v34 c) : V3 m o c = V3 m o' c := by
  show StableHlo.after hostOps1 (V2 m o c) = StableHlo.after hostOps1 (V2 m o' c); rw [V2_congr m c h2]
theorem V4_congr (h2 : o 2 main_v34 c = o' 2 main_v34 c) (h4a : o 4 main_v47_0 c = o' 4 main_v47_0 c) (h4b : o 4 main_v47_1 c = o' 4 main_v47_1 c) :
    V4 m o c = V4 m o' c := by
  show Function.update (Function.update (V3 m o c) _ (o 4 main_v47_0 c)) _ (o 4 main_v47_1 c) = Function.update (Function.update (V3 m o' c) _ (o' 4 main_v47_0 c)) _ (o' 4 main_v47_1 c)
  rw [V3_congr m c h2, h4a, h4b]
theorem V5_congr (h2 : o 2 main_v34 c = o' 2 main_v34 c) (h4a : o 4 main_v47_0 c = o' 4 main_v47_0 c) (h4b : o 4 main_v47_1 c = o' 4 main_v47_1 c) :
    V5 m o c = V5 m o' c := by
  show StableHlo.after hostOps2 (V4 m o c) = StableHlo.after hostOps2 (V4 m o' c); rw [V4_congr m c h2 h4a h4b]
theorem V6_congr (h2 : o 2 main_v34 c = o' 2 main_v34 c) (h4a : o 4 main_v47_0 c = o' 4 main_v47_0 c) (h4b : o 4 main_v47_1 c = o' 4 main_v47_1 c)
    (h6a : o 6 main_v60_0 c = o' 6 main_v60_0 c) (h6b : o 6 main_v60_1 c = o' 6 main_v60_1 c) : V6 m o c = V6 m o' c := by
  show Function.update (Function.update (V5 m o c) _ (o 6 main_v60_0 c)) _ (o 6 main_v60_1 c) = Function.update (Function.update (V5 m o' c) _ (o' 6 main_v60_0 c)) _ (o' 6 main_v60_1 c)
  rw [V5_congr m c h2 h4a h4b, h6a, h6b]
theorem V7_congr (h2 : o 2 main_v34 c = o' 2 main_v34 c) (h4a : o 4 main_v47_0 c = o' 4 main_v47_0 c) (h4b : o 4 main_v47_1 c = o' 4 main_v47_1 c)
    (h6a : o 6 main_v60_0 c = o' 6 main_v60_0 c) (h6b : o 6 main_v60_1 c = o' 6 main_v60_1 c) : V7 m o c = V7 m o' c := by
  show StableHlo.after hostOps3 (V6 m o c) = StableHlo.after hostOps3 (V6 m o' c); rw [V6_congr m c h2 h4a h4b h6a h6b]
theorem V8_congr (h2 : o 2 main_v34 c = o' 2 main_v34 c) (h4a : o 4 main_v47_0 c = o' 4 main_v47_0 c) (h4b : o 4 main_v47_1 c = o' 4 main_v47_1 c)
    (h6a : o 6 main_v60_0 c = o' 6 main_v60_0 c) (h6b : o 6 main_v60_1 c = o' 6 main_v60_1 c) (h8 : o 8 main_v73 c = o' 8 main_v73 c) : V8 m o c = V8 m o' c := by
  show Function.update (V7 m o c) _ (o 8 main_v73 c) = Function.update (V7 m o' c) _ (o' 8 main_v73 c)
  rw [V7_congr m c h2 h4a h4b h6a h6b, h8]
end Congr

/-! ### The valuations at the last table are those at the stage that completed them -/

theorem V2_last (c : Dev nD) : V2 m (o5 m) c = V2 m (o1 m) c :=
  V2_congr m c ((o5_eq_o4 m _ _ c (by decide)).trans ((o4_eq_o3 m _ _ c (by decide)).trans ((o3_eq_o2 m _ _ c (by decide)).trans (o2_eq_o1 m _ _ c (by decide)))))
theorem V3_last (c : Dev nD) : V3 m (o5 m) c = V3 m (o1 m) c :=
  V3_congr m c ((o5_eq_o4 m _ _ c (by decide)).trans ((o4_eq_o3 m _ _ c (by decide)).trans ((o3_eq_o2 m _ _ c (by decide)).trans (o2_eq_o1 m _ _ c (by decide)))))
theorem V4_last (c : Dev nD) : V4 m (o5 m) c = V4 m (o2 m) c :=
  V4_congr m c ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
theorem V5_last (c : Dev nD) : V5 m (o5 m) c = V5 m (o2 m) c :=
  V5_congr m c ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
    ((o5_eq_o4 m _ _ c (by decide)).trans ((o4_eq_o3 m _ _ c (by decide)).trans (o3_eq_o2 m _ _ c (by decide))))
theorem V6_last (c : Dev nD) : V6 m (o5 m) c = V6 m (o3 m) c :=
  V6_congr m c ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide)))
theorem V7_last (c : Dev nD) : V7 m (o5 m) c = V7 m (o3 m) c :=
  V7_congr m c ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide))) ((o5_eq_o4 m _ _ c (by decide)).trans (o4_eq_o3 m _ _ c (by decide)))
    ((o5_eq_o4 m _ _ c (by decide)).trans (o4_eq_o3 m _ _ c (by decide)))
theorem V8_last (c : Dev nD) : V8 m (o5 m) c = V8 m (o4 m) c :=
  V8_congr m c (o5_eq_o4 m _ _ c (by decide)) (o5_eq_o4 m _ _ c (by decide)) (o5_eq_o4 m _ _ c (by decide)) (o5_eq_o4 m _ _ c (by decide))
    (o5_eq_o4 m _ _ c (by decide)) (o5_eq_o4 m _ _ c (by decide))

end Cert.KernelIdeal.Hand

end
-- ==== Proof.KI.Run.lean ====
/-
  The kernel's program run from launch to return: five kernel regions among four stretches of host operations.

  Each region is entered from "every unscoped buffer at the contents its predecessors left" and left with its output
  arrays at what its 20 grid points wrote back (the next entry of the contents table); the host stretches in between are
  run by the generated conditional frame. The post names the result array at the last table's entry and every argument as launched.
-/
import proofs.«419973_j8177617732163_2_alg».proof.Proof.KI.FrameV
import proofs.«419973_j8177617732163_2_alg».proof.Proof.KI.Outs
import Idealize.ShloMosaic.Lib.Pipeline.Kit
import proofs.«419973_j8177617732163_2_alg».proof.Proof.Gen.KernelIdeal.Skeleton
import proofs.«419973_j8177617732163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c

/-- No core owes another anything: no level is assigned. -/
abbrev Lz : GSem nD τ sig → Finset Unit := fun _ => ∅
abbrev lvz : GSem nD τ sig → Unit → ℕ := fun _ _ => 0
/-- Beside the buffers through every item: the core's generator register at some state and its dues, none. -/
abbrev Rr (c : Dev nD) : sProp 𝕄 := iprop((∃ r, prngReg c r) ∗ ∃ W, owes (c : Thread nD τ) (0 : CellTallies nD τ sig Unit) W)

/-! ## Region 0 -/

/-- A buffer region 0 does not write holds after it what it held before. -/
theorem keep0 (c : Dev nD) (r : Ref sig .tc) (h : r ∉ ([main_v34] : List (Ref sig .tc))) : V2 m (o1 m) c r = Vin0 m c r := V2_of m (o1 m) c r h

set_option maxHeartbeats 4000000 in
/-- At region 0's exit each of its arrays holds what the 20 write-backs leave: the inputs as entered, the outputs at the table's new entries. -/
theorem hF0 (c : Dev nD) (w : Fin cfg0.W) : (dat0 (Vin0 m) c).arrAt w cfg0.N = (fun b : Ref sig .tc => V2 m (o1 m) c b) (Pipeline.arrRef spec0 w) := by
  match w with
  | ⟨0, _⟩ => exact ((dat0 (Vin0 m) c).arrAt_in 0 rfl _).trans ((A_eq0 (Vin0 m) c 0).trans (keep0 m c main_arg0 (by decide)).symm)
  | ⟨1, _⟩ => exact ((dat0 (Vin0 m) c).arrAt_in 1 rfl _).trans ((A_eq0 (Vin0 m) c 1).trans (keep0 m c main_arg3 (by decide)).symm)
  | ⟨2, _⟩ => exact ((Function.update_self (Proc.devRef (τ := τ) .tc main_v34) (o1 m 2 main_v34 c) (V1 m c)).trans (o1_2 m c)).symm

/-- Every other buffer is as region 0 found it. -/
theorem hrest0 (c : Dev nD) : ∀ b : Ref sig .tc, b ∉ Finset.univ.image (Pipeline.arrRef spec0) → (fun b : Ref sig .tc => V2 m (o1 m) c b) b = Vin0 m c b :=
  fun b hb => keep0 m c b (fun h => hb (by rw [List.mem_singleton.mp h]; exact Finset.mem_image.mpr ⟨2, Finset.mem_univ _, rfl⟩))

set_option backward.isDefEq.respectTransparency.types false in
/-- Region 0 over the thread state: entered from every unscoped buffer at the contents its predecessors left, left
    with its outputs at the table's new entries; the generator register goes into the region's invariant and comes back;
    nothing is owed. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (o1 m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b : Ref sig .tc => V2 m (o1 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem V3_21 (c : Dev nD) : V3 m (o2 m) c = V3 m (o1 m) c := V3_congr m c (o2_eq_o1 m _ _ c (by decide))
/-- A buffer region 1 does not write holds after it what it held before. -/
theorem keep1 (c : Dev nD) (r : Ref sig .tc) (h : r ∉ ([main_v47_0, main_v47_1] : List (Ref sig .tc))) : V4 m (o2 m) c r = Vin1 m c r :=
  (V4_of m (o2 m) c r h).trans (congrFun (V3_21 m c) r)

set_option maxHeartbeats 4000000 in
/-- At region 1's exit each of its arrays holds what the 20 write-backs leave: the inputs as entered, the outputs at the table's new entries. -/
theorem hF1 (c : Dev nD) (w : Fin cfg1.W) : (dat1 (Vin1 m) c).arrAt w cfg1.N = (fun b : Ref sig .tc => V4 m (o2 m) c b) (Pipeline.arrRef spec1 w) := by
  match w with
  | ⟨0, _⟩ => exact ((dat1 (Vin1 m) c).arrAt_in 0 rfl _).trans ((A_eq1 (Vin1 m) c 0).trans (keep1 m c main_v46 (by decide)).symm)
  | ⟨1, _⟩ => exact ((dat1 (Vin1 m) c).arrAt_in 1 rfl _).trans ((A_eq1 (Vin1 m) c 1).trans (keep1 m c main_v34 (by decide)).symm)
  | ⟨2, _⟩ => exact ((dat1 (Vin1 m) c).arrAt_in 2 rfl _).trans ((A_eq1 (Vin1 m) c 2).trans (keep1 m c main_v28 (by decide)).symm)
  | ⟨3, _⟩ => exact ((dat1 (Vin1 m) c).arrAt_in 3 rfl _).trans ((A_eq1 (Vin1 m) c 3).trans (keep1 m c main_v29 (by decide)).symm)
  | ⟨4, _⟩ => exact ((dat1 (Vin1 m) c).arrAt_in 4 rfl _).trans ((A_eq1 (Vin1 m) c 4).trans (keep1 m c main_arg5 (by decide)).symm)
  | ⟨5, _⟩ => exact (((Function.update_of_ne (StableHlo.devRef_ne_of_ne (by decide) : (Proc.devRef .tc main_v47_0 : DevRef τ sig) ≠ Proc.devRef .tc main_v47_1) (o2 m 4 main_v47_1 c) (Function.update (V3 m (o2 m) c) (Proc.devRef (τ := τ) .tc main_v47_0) (o2 m 4 main_v47_0 c))).trans (Function.update_self (Proc.devRef (τ := τ) .tc main_v47_0) (o2 m 4 main_v47_0 c) (V3 m (o2 m) c))).trans (o2_4a m c)).symm
  | ⟨6, _⟩ => exact ((Function.update_self (Proc.devRef (τ := τ) .tc main_v47_1) (o2 m 4 main_v47_1 c) (Function.update (V3 m (o2 m) c) (Proc.devRef (τ := τ) .tc main_v47_0) (o2 m 4 main_v47_0 c))).trans (o2_4b m c)).symm

/-- Every other buffer is as region 1 found it. -/
theorem hrest1 (c : Dev nD) : ∀ b : Ref sig .tc, b ∉ Finset.univ.image (Pipeline.arrRef spec1) → (fun b : Ref sig .tc => V4 m (o2 m) c b) b = Vin1 m c b :=
  fun b hb => keep1 m c b (fun h => hb (by rcases List.mem_cons.mp h with h | h <;> (first | (rw [h]; exact Finset.mem_image.mpr ⟨5, Finset.mem_univ _, rfl⟩) | (rw [List.mem_singleton.mp h]; exact Finset.mem_image.mpr ⟨6, Finset.mem_univ _, rfl⟩))))

set_option backward.isDefEq.respectTransparency.types false in
/-- Region 1 over the thread state: entered from every unscoped buffer at the contents its predecessors left, left
    with its outputs at the table's new entries; the generator register goes into the region's invariant and comes back;
    nothing is owed. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (V3 m (o1 m) c) ∗ Rr c)
  post c := iprop(StableHlo.held (c : Thread nD τ) (Pipeline.ucRefs τ sig) (V4 m (o2 m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b : Ref sig .tc => V4 m (o2 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem V5_32 (c : Dev nD) : V5 m (o3 m) c = V5 m (o2 m) c := V5_congr m c (o3_eq_o2 m _ _ c (by decide)) (o3_eq_o2 m _ _ c (by decide)) (o3_eq_o2 m _ _ c (by decide))
/-- A buffer region 2 does not write holds after it what it held before. -/
theorem keep2 (c : Dev nD) (r : Ref sig .tc) (h : r ∉ ([main_v60_0, main_v60_1] : List (Ref sig .tc))) : V6 m (o3 m) c r = Vin2 m c r :=
  (V6_of m (o3 m) c r h).trans (congrFun (V5_32 m c) r)

set_option maxHeartbeats 4000000 in
/-- At region 2's exit each of its arrays holds what the 20 write-backs leave: the inputs as entered, the outputs at the table's new entries. -/
theorem hF2 (c : Dev nD) (w : Fin cfg2.W) : (dat2 (Vin2 m) c).arrAt w cfg2.N = (fun b : Ref sig .tc => V6 m (o3 m) c b) (Pipeline.arrRef spec2 w) := by
  match w with
  | ⟨0, _⟩ => exact ((dat2 (Vin2 m) c).arrAt_in 0 rfl _).trans ((A_eq2 (Vin2 m) c 0).trans (keep2 m c main_v59 (by decide)).symm)
  | ⟨1, _⟩ => exact ((dat2 (Vin2 m) c).arrAt_in 1 rfl _).trans ((A_eq2 (Vin2 m) c 1).trans (keep2 m c main_v47_1 (by decide)).symm)
  | ⟨2, _⟩ => exact ((dat2 (Vin2 m) c).arrAt_in 2 rfl _).trans ((A_eq2 (Vin2 m) c 2).trans (keep2 m c main_v28 (by decide)).symm)
  | ⟨3, _⟩ => exact ((dat2 (Vin2 m) c).arrAt_in 3 rfl _).trans ((A_eq2 (Vin2 m) c 3).trans (keep2 m c main_v30 (by decide)).symm)
  | ⟨4, _⟩ => exact ((dat2 (Vin2 m) c).arrAt_in 4 rfl _).trans ((A_eq2 (Vin2 m) c 4).trans (keep2 m c main_arg7 (by decide)).symm)
  | ⟨5, _⟩ => exact (((Function.update_of_ne (StableHlo.devRef_ne_of_ne (by decide) : (Proc.devRef .tc main_v60_0 : DevRef τ sig) ≠ Proc.devRef .tc main_v60_1) (o3 m 6 main_v60_1 c) (Function.update (V5 m (o3 m) c) (Proc.devRef (τ := τ) .tc main_v60_0) (o3 m 6 main_v60_0 c))).trans (Function.update_self (Proc.devRef (τ := τ) .tc main_v60_0) (o3 m 6 main_v60_0 c) (V5 m (o3 m) c))).trans (o3_6a m c)).symm
  | ⟨6, _⟩ => exact ((Function.update_self (Proc.devRef (τ := τ) .tc main_v60_1) (o3 m 6 main_v60_1 c) (Function.update (V5 m (o3 m) c) (Proc.devRef (τ := τ) .tc main_v60_0) (o3 m 6 main_v60_0 c))).trans (o3_6b m c)).symm

/-- Every other buffer is as region 2 found it. -/
theorem hrest2 (c : Dev nD) : ∀ b : Ref sig .tc, b ∉ Finset.univ.image (Pipeline.arrRef spec2) → (fun b : Ref sig .tc => V6 m (o3 m) c b) b = Vin2 m c b :=
  fun b hb => keep2 m c b (fun h => hb (by rcases List.mem_cons.mp h with h | h <;> (first | (rw [h]; exact Finset.mem_image.mpr ⟨5, Finset.mem_univ _, rfl⟩) | (rw [List.mem_singleton.mp h]; exact Finset.mem_image.mpr ⟨6, Finset.mem_univ _, rfl⟩))))

set_option backward.isDefEq.respectTransparency.types false in
/-- Region 2 over the thread state: entered from every unscoped buffer at the contents its predecessors left, left
    with its outputs at the table's new entries; the generator register goes into the region's invariant and comes back;
    nothing is owed. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ Lz lvz 2 fun _ _ => rfl
  pre c := iprop(StableHlo.held (c : Thread nD τ) (Pipeline.ucRefs τ sig) (V5 m (o2 m) c) ∗ Rr c)
  post c := iprop(StableHlo.held (c : Thread nD τ) (Pipeline.ucRefs τ sig) (V6 m (o3 m) c) ∗ Rr c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b : Ref sig .tc => V6 m (o3 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem V7_43 (c : Dev nD) : V7 m (o4 m) c = V7 m (o3 m) c := V7_congr m c (o4_eq_o3 m _ _ c (by decide)) (o4_eq_o3 m _ _ c (by decide)) (o4_eq_o3 m _ _ c (by decide)) (o4_eq_o3 m _ _ c (by decide)) (o4_eq_o3 m _ _ c (by decide))
/-- A buffer region 3 does not write holds after it what it held before. -/
theorem keep3 (c : Dev nD) (r : Ref sig .tc) (h : r ∉ ([main_v73] : List (Ref sig .tc))) : V8 m (o4 m) c r = Vin3 m c r :=
  (V8_of m (o4 m) c r h).trans (congrFun (V7_43 m c) r)

set_option maxHeartbeats 4000000 in
/-- At region 3's exit each of its arrays holds what the 20 write-backs leave: the inputs as entered, the outputs at the table's new entries. -/
theorem hF3 (c : Dev nD) (w : Fin cfg3.W) : (dat3 (Vin3 m) c).arrAt w cfg3.N = (fun b : Ref sig .tc => V8 m (o4 m) c b) (Pipeline.arrRef spec3 w) := by
  match w with
  | ⟨0, _⟩ => exact ((dat3 (Vin3 m) c).arrAt_in 0 rfl _).trans ((A_eq3 (Vin3 m) c 0).trans (keep3 m c main_v72 (by decide)).symm)
  | ⟨1, _⟩ => exact ((dat3 (Vin3 m) c).arrAt_in 1 rfl _).trans ((A_eq3 (Vin3 m) c 1).trans (keep3 m c main_v60_1 (by decide)).symm)
  | ⟨2, _⟩ => exact ((dat3 (Vin3 m) c).arrAt_in 2 rfl _).trans ((A_eq3 (Vin3 m) c 2).trans (keep3 m c main_v28 (by decide)).symm)
  | ⟨3, _⟩ => exact ((dat3 (Vin3 m) c).arrAt_in 3 rfl _).trans ((A_eq3 (Vin3 m) c 3).trans (keep3 m c main_v31 (by decide)).symm)
  | ⟨4, _⟩ => exact ((Function.update_self (Proc.devRef (τ := τ) .tc main_v73) (o4 m 8 main_v73 c) (V7 m (o4 m) c)).trans (o4_8 m c)).symm

/-- Every other buffer is as region 3 found it. -/
theorem hrest3 (c : Dev nD) : ∀ b : Ref sig .tc, b ∉ Finset.univ.image (Pipeline.arrRef spec3) → (fun b : Ref sig .tc => V8 m (o4 m) c b) b = Vin3 m c b :=
  fun b hb => keep3 m c b (fun h => hb (by rw [List.mem_singleton.mp h]; exact Finset.mem_image.mpr ⟨4, Finset.mem_univ _, rfl⟩))

set_option backward.isDefEq.respectTransparency.types false in
/-- Region 3 over the thread state: entered from every unscoped buffer at the contents its predecessors left, left
    with its outputs at the table's new entries; the generator register goes into the region's invariant and comes back;
    nothing is owed. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ Lz lvz 3 fun _ _ => rfl
  pre c := iprop(StableHlo.held (c : Thread nD τ) (Pipeline.ucRefs τ sig) (V7 m (o3 m) c) ∗ Rr c)
  post c := iprop(StableHlo.held (c : Thread nD τ) (Pipeline.ucRefs τ sig) (V8 m (o4 m) c) ∗ Rr c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b : Ref sig .tc => V8 m (o4 m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- A buffer region 4 does not write holds after it what it held before. -/
theorem keep4 (c : Dev nD) (r : Ref sig .tc) (h : r ∉ ([main_v74] : List (Ref sig .tc))) : V9 m (o5 m) c r = Vin4 m c r :=
  (V9_of m (o5 m) c r h).trans (congrFun (V8_last m c) r)

set_option maxHeartbeats 4000000 in
/-- At region 4's exit each of its arrays holds what the 20 write-backs leave: the inputs as entered, the outputs at the table's new entries. -/
theorem hF4 (c : Dev nD) (w : Fin cfg4.W) : (dat4 (Vin4 m) c).arrAt w cfg4.N = (fun b : Ref sig .tc => V9 m (o5 m) c b) (Pipeline.arrRef spec4 w) := by
  match w with
  | ⟨0, _⟩ => exact ((dat4 (Vin4 m) c).arrAt_in 0 rfl _).trans ((A_eq4 (Vin4 m) c 0).trans (keep4 m c main_v73 (by decide)).symm)
  | ⟨1, _⟩ => exact ((dat4 (Vin4 m) c).arrAt_in 1 rfl _).trans ((A_eq4 (Vin4 m) c 1).trans (keep4 m c main_v33 (by decide)).symm)
  | ⟨2, _⟩ => exact ((dat4 (Vin4 m) c).arrAt_in 2 rfl _).trans ((A_eq4 (Vin4 m) c 2).trans (keep4 m c main_arg9 (by decide)).symm)
  | ⟨3, _⟩ => exact ((dat4 (Vin4 m) c).arrAt_in 3 rfl _).trans ((A_eq4 (Vin4 m) c 3).trans (keep4 m c main_v32 (by decide)).symm)
  | ⟨4, _⟩ => exact ((Function.update_self (Proc.devRef (τ := τ) .tc main_v74) (o5 m 9 main_v74 c) (V8 m (o5 m) c)).trans (o5_9 m c)).symm

/-- Every other buffer is as region 4 found it. -/
theorem hrest4 (c : Dev nD) : ∀ b : Ref sig .tc, b ∉ Finset.univ.image (Pipeline.arrRef spec4) → (fun b : Ref sig .tc => V9 m (o5 m) c b) b = Vin4 m c b :=
  fun b hb => keep4 m c b (fun h => hb (by rw [List.mem_singleton.mp h]; exact Finset.mem_image.mpr ⟨4, Finset.mem_univ _, rfl⟩))

set_option backward.isDefEq.respectTransparency.types false in
/-- Region 4 over the thread state: entered from every unscoped buffer at the contents its predecessors left, left
    with its outputs at the table's new entries; the generator register goes into the region's invariant and comes back;
    nothing is owed. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ Lz lvz 4 fun _ _ => rfl
  pre c := iprop(StableHlo.held (c : Thread nD τ) (Pipeline.ucRefs τ sig) (V8 m (o4 m) c) ∗ Rr c)
  post c := iprop(StableHlo.held (c : Thread nD τ) (Pipeline.ucRefs τ sig) (V9 m (o5 m) c) ∗ Rr c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (iprop(iprop(∃ r, prngReg c r) ∗ Pipeline.prefHeld (pcfgs (F := F) 4).pre c (fun _ => fullShare) (adm (F := F) 4).1 ∗ Pipeline.scopedRest spec4 c) : sProp 𝕄) ⊢ Pipeline.ΦA spec4 c from by
      unfold Pipeline.ΦA
      iintro ⟨Hp, -, Hr⟩
      isplitl [Hr]; · iexact Hr
      iexact Hp).trans (hin4 (Vin4 m) c)
  hout c := (hout4 (Vin4 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (fun b : Ref sig .tc => V9 m (o5 m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What rides beside the buffers at every boundary. -/
abbrev Eb : Fin 6 → Dev nD → sProp 𝕄 := fun _ c => Rr c

set_option backward.isDefEq.respectTransparency.types false in
/-- THE RUN of the kernel's program, at any `F`: from any memory with zero counters every weakly fair execution of
    @main terminates, nothing faulting; the result array `main_v74` ends at the last table's entry and every
    argument array as launched. -/
theorem run_main : θ_run defs (onTc (τ := τ) (main (F := F))) ⟨m, fun _ => 0, ρ⟩ (fun r => ∀ c : Dev nD,
      r.2.mem ((c.tc : Thread nD τ).loc main_v74) = V9 m (o5 m) c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_condV m (emb₁ : Emb _ 𝕄) () Variants.none Lz lvz (fun _ _ => rfl) ρ (o5 m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Eb
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_last m c]; exact .rfl)
    (reg1 m) (fun c => by rw [V3_last m c]; exact .rfl) (fun c => by rw [V4_last m c]; exact .rfl)
    (reg2 m) (fun c => by rw [V5_last m c]; exact .rfl) (fun c => by rw [V6_last m c]; exact .rfl)
    (reg3 m) (fun c => by rw [V7_last m c]; exact .rfl) (fun c => by rw [V8_last m c]; exact .rfl)
    (reg4 m) (fun c => by rw [V8_last m c]; exact .rfl) (fun c => .rfl)

end Cert.KernelIdeal.Hand

end
-- ==== Proof.KI.Carry.lean ====
/-
  Between two items of the program a buffer that no later item rewrites still holds what its writer left:
  the edge rows, the edge weights, the self-loop weights, the bias rows and the graph ids written by the first
  host stretch; the arguments, which nothing writes; each region's output where the next items read it; and
  each host stretch's result where the following region reads it. All for an arbitrary table of region outputs.
-/
import proofs.«419973_j8177617732163_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (outs : Outs (F := F))

/-! ## What the first host stretch wrote and nothing rewrites -/

theorem carry2_main_v1 (c : Dev nD) : V2 m outs c main_v1 = V1 m c main_v1 :=
  (V2_of m outs c main_v1 (by decide))
theorem carry3_main_v1 (c : Dev nD) : V3 m outs c main_v1 = V1 m c main_v1 :=
  (V3_of m outs c main_v1 (by decide)).trans <| (V2_of m outs c main_v1 (by decide))
theorem carry4_main_v1 (c : Dev nD) : V4 m outs c main_v1 = V1 m c main_v1 :=
  (V4_of m outs c main_v1 (by decide)).trans <| (V3_of m outs c main_v1 (by decide)).trans <| (V2_of m outs c main_v1 (by decide))
theorem carry5_main_v1 (c : Dev nD) : V5 m outs c main_v1 = V1 m c main_v1 :=
  (V5_of m outs c main_v1 (by decide)).trans <| (V4_of m outs c main_v1 (by decide)).trans <| (V3_of m outs c main_v1 (by decide)).trans <| (V2_of m outs c main_v1 (by decide))
theorem carry6_main_v1 (c : Dev nD) : V6 m outs c main_v1 = V1 m c main_v1 :=
  (V6_of m outs c main_v1 (by decide)).trans <| (V5_of m outs c main_v1 (by decide)).trans <| (V4_of m outs c main_v1 (by decide)).trans <| (V3_of m outs c main_v1 (by decide)).trans <| (V2_of m outs c main_v1 (by decide))
theorem carry7_main_v1 (c : Dev nD) : V7 m outs c main_v1 = V1 m c main_v1 :=
  (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide))
theorem carry8_main_v1 (c : Dev nD) : V8 m outs c main_v1 = V1 m c main_v1 :=
  (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide))

theorem carry2_main_v3 (c : Dev nD) : V2 m outs c main_v3 = V1 m c main_v3 :=
  (V2_of m outs c main_v3 (by decide))
theorem carry3_main_v3 (c : Dev nD) : V3 m outs c main_v3 = V1 m c main_v3 :=
  (V3_of m outs c main_v3 (by decide)).trans <| (V2_of m outs c main_v3 (by decide))
theorem carry4_main_v3 (c : Dev nD) : V4 m outs c main_v3 = V1 m c main_v3 :=
  (V4_of m outs c main_v3 (by decide)).trans <| (V3_of m outs c main_v3 (by decide)).trans <| (V2_of m outs c main_v3 (by decide))
theorem carry5_main_v3 (c : Dev nD) : V5 m outs c main_v3 = V1 m c main_v3 :=
  (V5_of m outs c main_v3 (by decide)).trans <| (V4_of m outs c main_v3 (by decide)).trans <| (V3_of m outs c main_v3 (by decide)).trans <| (V2_of m outs c main_v3 (by decide))
theorem carry6_main_v3 (c : Dev nD) : V6 m outs c main_v3 = V1 m c main_v3 :=
  (V6_of m outs c main_v3 (by decide)).trans <| (V5_of m outs c main_v3 (by decide)).trans <| (V4_of m outs c main_v3 (by decide)).trans <| (V3_of m outs c main_v3 (by decide)).trans <| (V2_of m outs c main_v3 (by decide))
theorem carry7_main_v3 (c : Dev nD) : V7 m outs c main_v3 = V1 m c main_v3 :=
  (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide))
theorem carry8_main_v3 (c : Dev nD) : V8 m outs c main_v3 = V1 m c main_v3 :=
  (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide))

theorem carry2_main_v26 (c : Dev nD) : V2 m outs c main_v26 = V1 m c main_v26 :=
  (V2_of m outs c main_v26 (by decide))
theorem carry3_main_v26 (c : Dev nD) : V3 m outs c main_v26 = V1 m c main_v26 :=
  (V3_of m outs c main_v26 (by decide)).trans <| (V2_of m outs c main_v26 (by decide))
theorem carry4_main_v26 (c : Dev nD) : V4 m outs c main_v26 = V1 m c main_v26 :=
  (V4_of m outs c main_v26 (by decide)).trans <| (V3_of m outs c main_v26 (by decide)).trans <| (V2_of m outs c main_v26 (by decide))
theorem carry5_main_v26 (c : Dev nD) : V5 m outs c main_v26 = V1 m c main_v26 :=
  (V5_of m outs c main_v26 (by decide)).trans <| (V4_of m outs c main_v26 (by decide)).trans <| (V3_of m outs c main_v26 (by decide)).trans <| (V2_of m outs c main_v26 (by decide))
theorem carry6_main_v26 (c : Dev nD) : V6 m outs c main_v26 = V1 m c main_v26 :=
  (V6_of m outs c main_v26 (by decide)).trans <| (V5_of m outs c main_v26 (by decide)).trans <| (V4_of m outs c main_v26 (by decide)).trans <| (V3_of m outs c main_v26 (by decide)).trans <| (V2_of m outs c main_v26 (by decide))
theorem carry7_main_v26 (c : Dev nD) : V7 m outs c main_v26 = V1 m c main_v26 :=
  (V7_of m outs c main_v26 (by decide)).trans <| (V6_of m outs c main_v26 (by decide)).trans <| (V5_of m outs c main_v26 (by decide)).trans <| (V4_of m outs c main_v26 (by decide)).trans <| (V3_of m outs c main_v26 (by decide)).trans <| (V2_of m outs c main_v26 (by decide))
theorem carry8_main_v26 (c : Dev nD) : V8 m outs c main_v26 = V1 m c main_v26 :=
  (V8_of m outs c main_v26 (by decide)).trans <| (V7_of m outs c main_v26 (by decide)).trans <| (V6_of m outs c main_v26 (by decide)).trans <| (V5_of m outs c main_v26 (by decide)).trans <| (V4_of m outs c main_v26 (by decide)).trans <| (V3_of m outs c main_v26 (by decide)).trans <| (V2_of m outs c main_v26 (by decide))

theorem carry2_main_v28 (c : Dev nD) : V2 m outs c main_v28 = V1 m c main_v28 :=
  (V2_of m outs c main_v28 (by decide))
theorem carry3_main_v28 (c : Dev nD) : V3 m outs c main_v28 = V1 m c main_v28 :=
  (V3_of m outs c main_v28 (by decide)).trans <| (V2_of m outs c main_v28 (by decide))
theorem carry4_main_v28 (c : Dev nD) : V4 m outs c main_v28 = V1 m c main_v28 :=
  (V4_of m outs c main_v28 (by decide)).trans <| (V3_of m outs c main_v28 (by decide)).trans <| (V2_of m outs c main_v28 (by decide))
theorem carry5_main_v28 (c : Dev nD) : V5 m outs c main_v28 = V1 m c main_v28 :=
  (V5_of m outs c main_v28 (by decide)).trans <| (V4_of m outs c main_v28 (by decide)).trans <| (V3_of m outs c main_v28 (by decide)).trans <| (V2_of m outs c main_v28 (by decide))
theorem carry6_main_v28 (c : Dev nD) : V6 m outs c main_v28 = V1 m c main_v28 :=
  (V6_of m outs c main_v28 (by decide)).trans <| (V5_of m outs c main_v28 (by decide)).trans <| (V4_of m outs c main_v28 (by decide)).trans <| (V3_of m outs c main_v28 (by decide)).trans <| (V2_of m outs c main_v28 (by decide))
theorem carry7_main_v28 (c : Dev nD) : V7 m outs c main_v28 = V1 m c main_v28 :=
  (V7_of m outs c main_v28 (by decide)).trans <| (V6_of m outs c main_v28 (by decide)).trans <| (V5_of m outs c main_v28 (by decide)).trans <| (V4_of m outs c main_v28 (by decide)).trans <| (V3_of m outs c main_v28 (by decide)).trans <| (V2_of m outs c main_v28 (by decide))
theorem carry8_main_v28 (c : Dev nD) : V8 m outs c main_v28 = V1 m c main_v28 :=
  (V8_of m outs c main_v28 (by decide)).trans <| (V7_of m outs c main_v28 (by decide)).trans <| (V6_of m outs c main_v28 (by decide)).trans <| (V5_of m outs c main_v28 (by decide)).trans <| (V4_of m outs c main_v28 (by decide)).trans <| (V3_of m outs c main_v28 (by decide)).trans <| (V2_of m outs c main_v28 (by decide))

theorem carry2_main_v29 (c : Dev nD) : V2 m outs c main_v29 = V1 m c main_v29 :=
  (V2_of m outs c main_v29 (by decide))
theorem carry3_main_v29 (c : Dev nD) : V3 m outs c main_v29 = V1 m c main_v29 :=
  (V3_of m outs c main_v29 (by decide)).trans <| (V2_of m outs c main_v29 (by decide))
theorem carry4_main_v29 (c : Dev nD) : V4 m outs c main_v29 = V1 m c main_v29 :=
  (V4_of m outs c main_v29 (by decide)).trans <| (V3_of m outs c main_v29 (by decide)).trans <| (V2_of m outs c main_v29 (by decide))
theorem carry5_main_v29 (c : Dev nD) : V5 m outs c main_v29 = V1 m c main_v29 :=
  (V5_of m outs c main_v29 (by decide)).trans <| (V4_of m outs c main_v29 (by decide)).trans <| (V3_of m outs c main_v29 (by decide)).trans <| (V2_of m outs c main_v29 (by decide))
theorem carry6_main_v29 (c : Dev nD) : V6 m outs c main_v29 = V1 m c main_v29 :=
  (V6_of m outs c main_v29 (by decide)).trans <| (V5_of m outs c main_v29 (by decide)).trans <| (V4_of m outs c main_v29 (by decide)).trans <| (V3_of m outs c main_v29 (by decide)).trans <| (V2_of m outs c main_v29 (by decide))
theorem carry7_main_v29 (c : Dev nD) : V7 m outs c main_v29 = V1 m c main_v29 :=
  (V7_of m outs c main_v29 (by decide)).trans <| (V6_of m outs c main_v29 (by decide)).trans <| (V5_of m outs c main_v29 (by decide)).trans <| (V4_of m outs c main_v29 (by decide)).trans <| (V3_of m outs c main_v29 (by decide)).trans <| (V2_of m outs c main_v29 (by decide))
theorem carry8_main_v29 (c : Dev nD) : V8 m outs c main_v29 = V1 m c main_v29 :=
  (V8_of m outs c main_v29 (by decide)).trans <| (V7_of m outs c main_v29 (by decide)).trans <| (V6_of m outs c main_v29 (by decide)).trans <| (V5_of m outs c main_v29 (by decide)).trans <| (V4_of m outs c main_v29 (by decide)).trans <| (V3_of m outs c main_v29 (by decide)).trans <| (V2_of m outs c main_v29 (by decide))

theorem carry2_main_v30 (c : Dev nD) : V2 m outs c main_v30 = V1 m c main_v30 :=
  (V2_of m outs c main_v30 (by decide))
theorem carry3_main_v30 (c : Dev nD) : V3 m outs c main_v30 = V1 m c main_v30 :=
  (V3_of m outs c main_v30 (by decide)).trans <| (V2_of m outs c main_v30 (by decide))
theorem carry4_main_v30 (c : Dev nD) : V4 m outs c main_v30 = V1 m c main_v30 :=
  (V4_of m outs c main_v30 (by decide)).trans <| (V3_of m outs c main_v30 (by decide)).trans <| (V2_of m outs c main_v30 (by decide))
theorem carry5_main_v30 (c : Dev nD) : V5 m outs c main_v30 = V1 m c main_v30 :=
  (V5_of m outs c main_v30 (by decide)).trans <| (V4_of m outs c main_v30 (by decide)).trans <| (V3_of m outs c main_v30 (by decide)).trans <| (V2_of m outs c main_v30 (by decide))
theorem carry6_main_v30 (c : Dev nD) : V6 m outs c main_v30 = V1 m c main_v30 :=
  (V6_of m outs c main_v30 (by decide)).trans <| (V5_of m outs c main_v30 (by decide)).trans <| (V4_of m outs c main_v30 (by decide)).trans <| (V3_of m outs c main_v30 (by decide)).trans <| (V2_of m outs c main_v30 (by decide))
theorem carry7_main_v30 (c : Dev nD) : V7 m outs c main_v30 = V1 m c main_v30 :=
  (V7_of m outs c main_v30 (by decide)).trans <| (V6_of m outs c main_v30 (by decide)).trans <| (V5_of m outs c main_v30 (by decide)).trans <| (V4_of m outs c main_v30 (by decide)).trans <| (V3_of m outs c main_v30 (by decide)).trans <| (V2_of m outs c main_v30 (by decide))
theorem carry8_main_v30 (c : Dev nD) : V8 m outs c main_v30 = V1 m c main_v30 :=
  (V8_of m outs c main_v30 (by decide)).trans <| (V7_of m outs c main_v30 (by decide)).trans <| (V6_of m outs c main_v30 (by decide)).trans <| (V5_of m outs c main_v30 (by decide)).trans <| (V4_of m outs c main_v30 (by decide)).trans <| (V3_of m outs c main_v30 (by decide)).trans <| (V2_of m outs c main_v30 (by decide))

theorem carry2_main_v31 (c : Dev nD) : V2 m outs c main_v31 = V1 m c main_v31 :=
  (V2_of m outs c main_v31 (by decide))
theorem carry3_main_v31 (c : Dev nD) : V3 m outs c main_v31 = V1 m c main_v31 :=
  (V3_of m outs c main_v31 (by decide)).trans <| (V2_of m outs c main_v31 (by decide))
theorem carry4_main_v31 (c : Dev nD) : V4 m outs c main_v31 = V1 m c main_v31 :=
  (V4_of m outs c main_v31 (by decide)).trans <| (V3_of m outs c main_v31 (by decide)).trans <| (V2_of m outs c main_v31 (by decide))
theorem carry5_main_v31 (c : Dev nD) : V5 m outs c main_v31 = V1 m c main_v31 :=
  (V5_of m outs c main_v31 (by decide)).trans <| (V4_of m outs c main_v31 (by decide)).trans <| (V3_of m outs c main_v31 (by decide)).trans <| (V2_of m outs c main_v31 (by decide))
theorem carry6_main_v31 (c : Dev nD) : V6 m outs c main_v31 = V1 m c main_v31 :=
  (V6_of m outs c main_v31 (by decide)).trans <| (V5_of m outs c main_v31 (by decide)).trans <| (V4_of m outs c main_v31 (by decide)).trans <| (V3_of m outs c main_v31 (by decide)).trans <| (V2_of m outs c main_v31 (by decide))
theorem carry7_main_v31 (c : Dev nD) : V7 m outs c main_v31 = V1 m c main_v31 :=
  (V7_of m outs c main_v31 (by decide)).trans <| (V6_of m outs c main_v31 (by decide)).trans <| (V5_of m outs c main_v31 (by decide)).trans <| (V4_of m outs c main_v31 (by decide)).trans <| (V3_of m outs c main_v31 (by decide)).trans <| (V2_of m outs c main_v31 (by decide))
theorem carry8_main_v31 (c : Dev nD) : V8 m outs c main_v31 = V1 m c main_v31 :=
  (V8_of m outs c main_v31 (by decide)).trans <| (V7_of m outs c main_v31 (by decide)).trans <| (V6_of m outs c main_v31 (by decide)).trans <| (V5_of m outs c main_v31 (by decide)).trans <| (V4_of m outs c main_v31 (by decide)).trans <| (V3_of m outs c main_v31 (by decide)).trans <| (V2_of m outs c main_v31 (by decide))

theorem carry2_main_v32 (c : Dev nD) : V2 m outs c main_v32 = V1 m c main_v32 :=
  (V2_of m outs c main_v32 (by decide))
theorem carry3_main_v32 (c : Dev nD) : V3 m outs c main_v32 = V1 m c main_v32 :=
  (V3_of m outs c main_v32 (by decide)).trans <| (V2_of m outs c main_v32 (by decide))
theorem carry4_main_v32 (c : Dev nD) : V4 m outs c main_v32 = V1 m c main_v32 :=
  (V4_of m outs c main_v32 (by decide)).trans <| (V3_of m outs c main_v32 (by decide)).trans <| (V2_of m outs c main_v32 (by decide))
theorem carry5_main_v32 (c : Dev nD) : V5 m outs c main_v32 = V1 m c main_v32 :=
  (V5_of m outs c main_v32 (by decide)).trans <| (V4_of m outs c main_v32 (by decide)).trans <| (V3_of m outs c main_v32 (by decide)).trans <| (V2_of m outs c main_v32 (by decide))
theorem carry6_main_v32 (c : Dev nD) : V6 m outs c main_v32 = V1 m c main_v32 :=
  (V6_of m outs c main_v32 (by decide)).trans <| (V5_of m outs c main_v32 (by decide)).trans <| (V4_of m outs c main_v32 (by decide)).trans <| (V3_of m outs c main_v32 (by decide)).trans <| (V2_of m outs c main_v32 (by decide))
theorem carry7_main_v32 (c : Dev nD) : V7 m outs c main_v32 = V1 m c main_v32 :=
  (V7_of m outs c main_v32 (by decide)).trans <| (V6_of m outs c main_v32 (by decide)).trans <| (V5_of m outs c main_v32 (by decide)).trans <| (V4_of m outs c main_v32 (by decide)).trans <| (V3_of m outs c main_v32 (by decide)).trans <| (V2_of m outs c main_v32 (by decide))
theorem carry8_main_v32 (c : Dev nD) : V8 m outs c main_v32 = V1 m c main_v32 :=
  (V8_of m outs c main_v32 (by decide)).trans <| (V7_of m outs c main_v32 (by decide)).trans <| (V6_of m outs c main_v32 (by decide)).trans <| (V5_of m outs c main_v32 (by decide)).trans <| (V4_of m outs c main_v32 (by decide)).trans <| (V3_of m outs c main_v32 (by decide)).trans <| (V2_of m outs c main_v32 (by decide))

theorem carry2_main_v33 (c : Dev nD) : V2 m outs c main_v33 = V1 m c main_v33 :=
  (V2_of m outs c main_v33 (by decide))
theorem carry3_main_v33 (c : Dev nD) : V3 m outs c main_v33 = V1 m c main_v33 :=
  (V3_of m outs c main_v33 (by decide)).trans <| (V2_of m outs c main_v33 (by decide))
theorem carry4_main_v33 (c : Dev nD) : V4 m outs c main_v33 = V1 m c main_v33 :=
  (V4_of m outs c main_v33 (by decide)).trans <| (V3_of m outs c main_v33 (by decide)).trans <| (V2_of m outs c main_v33 (by decide))
theorem carry5_main_v33 (c : Dev nD) : V5 m outs c main_v33 = V1 m c main_v33 :=
  (V5_of m outs c main_v33 (by decide)).trans <| (V4_of m outs c main_v33 (by decide)).trans <| (V3_of m outs c main_v33 (by decide)).trans <| (V2_of m outs c main_v33 (by decide))
theorem carry6_main_v33 (c : Dev nD) : V6 m outs c main_v33 = V1 m c main_v33 :=
  (V6_of m outs c main_v33 (by decide)).trans <| (V5_of m outs c main_v33 (by decide)).trans <| (V4_of m outs c main_v33 (by decide)).trans <| (V3_of m outs c main_v33 (by decide)).trans <| (V2_of m outs c main_v33 (by decide))
theorem carry7_main_v33 (c : Dev nD) : V7 m outs c main_v33 = V1 m c main_v33 :=
  (V7_of m outs c main_v33 (by decide)).trans <| (V6_of m outs c main_v33 (by decide)).trans <| (V5_of m outs c main_v33 (by decide)).trans <| (V4_of m outs c main_v33 (by decide)).trans <| (V3_of m outs c main_v33 (by decide)).trans <| (V2_of m outs c main_v33 (by decide))
theorem carry8_main_v33 (c : Dev nD) : V8 m outs c main_v33 = V1 m c main_v33 :=
  (V8_of m outs c main_v33 (by decide)).trans <| (V7_of m outs c main_v33 (by decide)).trans <| (V6_of m outs c main_v33 (by decide)).trans <| (V5_of m outs c main_v33 (by decide)).trans <| (V4_of m outs c main_v33 (by decide)).trans <| (V3_of m outs c main_v33 (by decide)).trans <| (V2_of m outs c main_v33 (by decide))

/-! ## The arguments: nothing writes them -/

theorem carry0_main_arg1 (c : Dev nD) : V0 m c main_arg1 = m ((c : Thread nD τ).loc main_arg1) :=
  rfl
theorem carry0_main_arg2 (c : Dev nD) : V0 m c main_arg2 = m ((c : Thread nD τ).loc main_arg2) :=
  rfl
theorem carry0_main_arg4 (c : Dev nD) : V0 m c main_arg4 = m ((c : Thread nD τ).loc main_arg4) :=
  rfl
theorem carry0_main_arg6 (c : Dev nD) : V0 m c main_arg6 = m ((c : Thread nD τ).loc main_arg6) :=
  rfl
theorem carry0_main_arg8 (c : Dev nD) : V0 m c main_arg8 = m ((c : Thread nD τ).loc main_arg8) :=
  rfl
theorem carry0_main_arg10 (c : Dev nD) : V0 m c main_arg10 = m ((c : Thread nD τ).loc main_arg10) :=
  rfl
theorem carry1_main_arg0 (c : Dev nD) : V1 m c main_arg0 = m ((c : Thread nD τ).loc main_arg0) :=
  (V1_of m c main_arg0 (by decide)).trans <| rfl
theorem carry1_main_arg3 (c : Dev nD) : V1 m c main_arg3 = m ((c : Thread nD τ).loc main_arg3) :=
  (V1_of m c main_arg3 (by decide)).trans <| rfl
theorem carry3_main_arg5 (c : Dev nD) : V3 m outs c main_arg5 = m ((c : Thread nD τ).loc main_arg5) :=
  (V3_of m outs c main_arg5 (by decide)).trans <| (V2_of m outs c main_arg5 (by decide)).trans <| (V1_of m c main_arg5 (by decide)).trans <| rfl
theorem carry5_main_arg7 (c : Dev nD) : V5 m outs c main_arg7 = m ((c : Thread nD τ).loc main_arg7) :=
  (V5_of m outs c main_arg7 (by decide)).trans <| (V4_of m outs c main_arg7 (by decide)).trans <| (V3_of m outs c main_arg7 (by decide)).trans <| (V2_of m outs c main_arg7 (by decide)).trans <| (V1_of m c main_arg7 (by decide)).trans <| rfl
theorem carry8_main_arg9 (c : Dev nD) : V8 m outs c main_arg9 = m ((c : Thread nD τ).loc main_arg9) :=
  (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans <| rfl

/-! ## A region's output, read by the items after it -/

theorem carry2_main_v34 (c : Dev nD) : V2 m outs c main_v34 = outs 2 main_v34 c := by
  simp only [V2, Function.update_self]
theorem carry3_main_v34 (c : Dev nD) : V3 m outs c main_v34 = outs 2 main_v34 c :=
  (V3_of m outs c main_v34 (by decide)).trans <| carry2_main_v34 m outs c
theorem carry4_main_v47_1 (c : Dev nD) : V4 m outs c main_v47_1 = outs 4 main_v47_1 c := by
  simp only [V4, Function.update_self]
theorem carry5_main_v47_1 (c : Dev nD) : V5 m outs c main_v47_1 = outs 4 main_v47_1 c :=
  (V5_of m outs c main_v47_1 (by decide)).trans <| carry4_main_v47_1 m outs c
theorem carry6_main_v60_1 (c : Dev nD) : V6 m outs c main_v60_1 = outs 6 main_v60_1 c := by
  simp only [V6, Function.update_self]
theorem carry7_main_v60_1 (c : Dev nD) : V7 m outs c main_v60_1 = outs 6 main_v60_1 c :=
  (V7_of m outs c main_v60_1 (by decide)).trans <| carry6_main_v60_1 m outs c
theorem carry8_main_v73 (c : Dev nD) : V8 m outs c main_v73 = outs 8 main_v73 c := by
  simp only [V8, Function.update_self]
theorem carry9_main_v74 (c : Dev nD) : V9 m outs c main_v74 = outs 9 main_v74 c := by
  simp only [V9, Function.update_self]

/-! ## A host stretch's result, read by the region after it -/

theorem carry3_main_v46 (c : Dev nD) : V3 m outs c main_v46 = StableHlo.after hostOps1 (V2 m outs c) main_v46 := rfl
theorem carry5_main_v59 (c : Dev nD) : V5 m outs c main_v59 = StableHlo.after hostOps2 (V4 m outs c) main_v59 := rfl
theorem carry7_main_v72 (c : Dev nD) : V7 m outs c main_v72 = StableHlo.after hostOps3 (V6 m outs c) main_v72 := rfl

end Cert.KernelIdeal.Hand

end
-- ==== Proof.Spec.lean ====
/-
  The three array functions the graph network is made of, spelt with the host operations of the reference:
  a dense layer's product with its weights, one graph-convolution update, and the readout.

  * `mm x w` : the rows of `x` (100000 nodes, 64 features) times the 64 x 64 weight matrix.
  * `layer agg h d2 b` : max(agg + h * d2 + b, 0), entry by entry, where `d2` is a column (one number
    per node: the self-loop weight 1/deg) and `b` a row (one number per feature).
  * `pool x br wfc bfcr` : for each of the 512 graphs, the sum of the rows of `x` whose graph id (the
    column `br`) is that graph, divided by max(number of such rows, 1); then times the 64 x 8 readout matrix,
    plus the bias row, through 1 / (1 + exp(-z)).
-/
import proofs.«419973_j8177617732163_2_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- Rows of `x` times `w`: entry (i, j) is the sum over k of x(i, k) * w(k, j). -/
def mm (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- One graph-convolution update after the neighbour sum: max(agg + h * d2 + b, 0). -/
def layer (agg h : (⟨S100000x64, .f32⟩ : BufTy).Contents (Elt F)) (d2 : (⟨S100000x1, .f32⟩ : BufTy).Contents (Elt F))
    (b : (⟨S1x64, .f32⟩ : BufTy).Contents (Elt F)) : (⟨S100000x64, .f32⟩ : BufTy).Contents (Elt F) :=
  maximumf
    (addf (addf agg (mulf h (broadcastInDim S100000x64 ![0, 1] bcast_S100000x1_S100000x64_0_1 d2)))
      (broadcastInDim S100000x64 ![0, 1] bcast_S1x64_S100000x64_0_1 b))
    (broadcastInDim S100000x64 ![] bcast_S_S100000x64 (constant S_ .f32 0x00000000#32))

/-- The per-graph sums of the rows of `x`. -/
def segSum (x : (⟨S100000x64, .f32⟩ : BufTy).Contents (Elt F)) (br : (⟨S100000x1, .i32⟩ : BufTy).Contents (Elt F)) :
    (⟨S512x64, .f32⟩ : BufTy).Contents (Elt F) :=
  Host.scatterAdd scatter_S512x64_S100000x1_S100000x64_1_0_0_1
    (broadcastInDim S512x64 ![] bcast_S_S512x64 (constant S_ .f32 0x00000000#32)) br x

/-- The per-graph node counts, at least one. -/
def segCnt (br : (⟨S100000x1, .i32⟩ : BufTy).Contents (Elt F)) : (⟨S512, .f32⟩ : BufTy).Contents (Elt F) :=
  maximumf
    (Host.scatterAdd scatter_S512_S100000x1_S100000_n_0_0_1
      (broadcastInDim S512 ![] bcast_S_S512 (constant S_ .f32 0x00000000#32)) br
      (broadcastInDim S100000 ![] bcast_S_S100000 (constant S_ .f32 0x3F800000#32)))
    (broadcastInDim S512 ![] bcast_S_S512 (constant S_ .f32 0x3F800000#32))

/-- Mean of each graph's rows, the readout matrix, the bias, the logistic function spelt 1 / (1 + exp(-z)). -/
def pool (x : (⟨S100000x64, .f32⟩ : BufTy).Contents (Elt F)) (br : (⟨S100000x1, .i32⟩ : BufTy).Contents (Elt F))
    (wfc : (⟨S64x8, .f32⟩ : BufTy).Contents (Elt F)) (bfcr : (⟨S1x8, .f32⟩ : BufTy).Contents (Elt F)) :
    (⟨S512x8, .f32⟩ : BufTy).Contents (Elt F) :=
  Host.divf (broadcastInDim S512x8 ![] bcast_S_S512x8 (constant S_ .f32 0x3F800000#32))
    (addf (broadcastInDim S512x8 ![] bcast_S_S512x8 (constant S_ .f32 0x3F800000#32))
      (Host.exp (Host.negf
        (addf
          (Host.dotGeneral dot_S512x64_S64x8_S512x8_1_0_0_1_n_n none
            (Host.divf (segSum x br)
              (broadcastInDim S512x64 ![0, 1] bcast_S512x1_S512x64_0_1
                (broadcastInDim S512x1 ![0] bcast_S512_S512x1_0 (segCnt (F := F) br))))
            wfc)
          (broadcastInDim S512x8 ![0, 1] bcast_S1x8_S512x8_0_1 bfcr)))))

end Cert.Spec

end
-- ==== Proof.RefRun.lean ====
/-
  The reference's run and its stages read at an index (the generated modules), gathered under one import
  so that every module of the bridge takes them from here.
-/
import proofs.«419973_j8177617732163_2_alg».proof.Proof.Gen.ReferenceIdeal.Run
import proofs.«419973_j8177617732163_2_alg».proof.Proof.Gen.ReferenceIdeal.Read
-- ==== Proof.RefSpec.lean ====
/-
  The reference's network written over named pieces, each spelt with the reference program's own host operations
  and records: the two rows of the edge list, the wrap of a negative index, the normalisation 1/sqrt(1 + in-degree),
  the edge weights, the self-loop weights, the neighbour sum, and the three convolutions followed by the readout.
  The last theorem says the reference's result term IS this network of its eleven arguments (equal by unfolding names).
-/
import proofs.«419973_j8177617732163_2_alg».proof.Proof.Spec
import proofs.«419973_j8177617732163_2_alg».proof.Proof.RefRun

noncomputable section

namespace Cert.Spec

open Idealize.ShloMosaic Idealize.ShloMosaic.TcCoe Cert.ReferenceIdeal Cert.ReferenceIdeal.Facts₀ Cert.ReferenceIdeal.Facts

variable {F : FTy → Type} [FloatOps F]

/-- Row 0 of the edge list: the source node of each of the 1250000 edges. -/
def src (ei : IVec S2x1250000 32) :
    IVec S1250000 32 :=
  shapeCast _ (extractStridedSlice S1x1250000 ![0, 0] ei slices_S2x1250000_S1x1250000_0_0) shapeCasts_S1x1250000_S1250000

/-- Row 1 of the edge list: the target node of each edge. -/
def dst (ei : IVec S2x1250000 32) :
    IVec S1250000 32 :=
  shapeCast _ (extractStridedSlice S1x1250000 ![1, 0] ei slices_S2x1250000_S1x1250000_1_0) shapeCasts_S1x1250000_S1250000

/-- A negative node index counts from the end: idx + 100000 where idx < 0 (signed), idx elsewhere. -/
def wrap (idx : IVec S1250000 32) :
    IVec S1250000 32 :=
  select (cmpi .slt idx (broadcastInDim S1250000 ![] bcast_S_S1250000 (constantI S_ 32 0#32))) (addi idx (broadcastInDim S1250000 ![] bcast_S_S1250000 (constantI S_ 32 100000#32))) idx

/-- One over the square root of (1 + the number of edges whose target is the node), node by node. -/
def dinv (ei : IVec S2x1250000 32) :
    (⟨S100000, .f32⟩ : BufTy).Contents (Elt F) :=
  Host.rsqrt (addf (Host.scatterAdd scatter_S100000_S1250000x1_S1250000_n_0_0_1 (broadcastInDim S100000 ![] bcast_S_S100000 (constant S_ .f32 0x00000000#32)) (broadcastInDim S1250000x1 ![0] bcast_S1250000_S1250000x1_0 (dst ei)) (broadcastInDim S1250000 ![] bcast_S_S1250000 (constant S_ .f32 0x3F800000#32))) (broadcastInDim S100000 ![] bcast_S_S100000 (constant S_ .f32 0x3F800000#32)))

/-- The weight of each edge, as a column: dinv at its source times dinv at its target. -/
def coefB (ei : IVec S2x1250000 32) :
    (⟨S1250000x1, .f32⟩ : BufTy).Contents (Elt F) :=
  broadcastInDim S1250000x1 ![0] bcast_S1250000_S1250000x1_0 (mulf (Host.gather gather_S100000_S1250000x1_S1250000_n_0_n_n_0_1_1 (dinv (F := F) ei) (broadcastInDim S1250000x1 ![0] bcast_S1250000_S1250000x1_0 (wrap (src ei)))) (Host.gather gather_S100000_S1250000x1_S1250000_n_0_n_n_0_1_1 (dinv (F := F) ei) (broadcastInDim S1250000x1 ![0] bcast_S1250000_S1250000x1_0 (wrap (dst ei)))))

/-- The self-loop weight of each node, as a column: dinv squared. -/
def dinv2 (ei : IVec S2x1250000 32) :
    (⟨S100000x1, .f32⟩ : BufTy).Contents (Elt F) :=
  broadcastInDim S100000x1 ![0] bcast_S100000_S100000x1_0 (mulf (dinv (F := F) ei) (dinv (F := F) ei))

/-- The neighbour sum: row n is the sum, over the edges whose target is n, of the edge's weight times the row of `h` at the edge's source. -/
def aggOf (srcv : IVec S1250000 32) (dstv : IVec S1250000 32) (coefBv : (⟨S1250000x1, .f32⟩ : BufTy).Contents (Elt F)) (h : (⟨S100000x64, .f32⟩ : BufTy).Contents (Elt F)) :
    (⟨S100000x64, .f32⟩ : BufTy).Contents (Elt F) :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 dstv) (mulf (Host.gather gather_S100000x64_S1250000x1_S1250000x64_1_0_n_n_0_1_164 h (broadcastInDim S1250000x1 ![0] bcast_S1250000_S1250000x1_0 (wrap srcv))) (broadcastInDim S1250000x64 ![0, 1] bcast_S1250000x1_S1250000x64_0_1 coefBv))

/-- The neighbour sum over the edge list `ei` with its own weights. -/
def agg (ei : IVec S2x1250000 32) (h : (⟨S100000x64, .f32⟩ : BufTy).Contents (Elt F)) :
    (⟨S100000x64, .f32⟩ : BufTy).Contents (Elt F) :=
  aggOf (src ei) (dst ei) (coefB (F := F) ei) h

/-- A 64-vector as a 1 x 64 row. -/
def brow (b : (⟨S64, .f32⟩ : BufTy).Contents (Elt F)) :
    (⟨S1x64, .f32⟩ : BufTy).Contents (Elt F) :=
  broadcastInDim S1x64 ![1] bcast_S64_S1x64_1 b

/-- An 8-vector as a 1 x 8 row. -/
def brow8 (b : (⟨S8, .f32⟩ : BufTy).Contents (Elt F)) :
    (⟨S1x8, .f32⟩ : BufTy).Contents (Elt F) :=
  broadcastInDim S1x8 ![1] bcast_S8_S1x8_1 b

/-- The graph id of each node, as a column. -/
def bcol (batch : IVec S100000 32) :
    IVec S100000x1 32 :=
  broadcastInDim S100000x1 ![0] bcast_S100000_S100000x1_0 batch

/-- The whole network: three graph convolutions (each: features times weights, neighbour sum plus self loop plus bias,
    max with 0), then the per-graph mean, the readout matrix, the bias and the logistic function. -/
def gcn (x : (⟨S100000x64, .f32⟩ : BufTy).Contents (Elt F))
    (ei : IVec S2x1250000 32)
    (batch : IVec S100000 32)
    (W0 : (⟨S64x64, .f32⟩ : BufTy).Contents (Elt F))
    (b0 : (⟨S64, .f32⟩ : BufTy).Contents (Elt F))
    (W1 : (⟨S64x64, .f32⟩ : BufTy).Contents (Elt F))
    (b1 : (⟨S64, .f32⟩ : BufTy).Contents (Elt F))
    (W2 : (⟨S64x64, .f32⟩ : BufTy).Contents (Elt F))
    (b2 : (⟨S64, .f32⟩ : BufTy).Contents (Elt F))
    (Wfc : (⟨S64x8, .f32⟩ : BufTy).Contents (Elt F))
    (bfc : (⟨S8, .f32⟩ : BufTy).Contents (Elt F)) :
    (⟨S512x8, .f32⟩ : BufTy).Contents (Elt F) :=
  pool (layer (agg ei (mm (layer (agg ei (mm (layer (agg ei (mm x W0)) (mm x W0) (dinv2 (F := F) ei) (brow b0)) W1)) (mm (layer (agg ei (mm x W0)) (mm x W0) (dinv2 (F := F) ei) (brow b0)) W1) (dinv2 (F := F) ei) (brow b1)) W2)) (mm (layer (agg ei (mm (layer (agg ei (mm x W0)) (mm x W0) (dinv2 (F := F) ei) (brow b0)) W1)) (mm (layer (agg ei (mm x W0)) (mm x W0) (dinv2 (F := F) ei) (brow b0)) W1) (dinv2 (F := F) ei) (brow b1)) W2) (dinv2 (F := F) ei) (brow b2)) (bcol batch) Wfc (brow8 bfc)

/-- The reference's result is the network of its eleven arguments: the two terms are the same text once the names are unfolded. -/
theorem res_eq_gcn (m : (ℓ : Loc nD τ sig) → Buf (Elt F) ℓ) (c : Dev nD) :
    Cert.ReferenceIdeal.Value.res_main_v160 (F := F) m c =
      gcn (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10)) := by
  unfold Cert.ReferenceIdeal.Value.res_main_v160 gcn
  rfl

end Cert.Spec

end
-- ==== Proof.KI.HostVals.lean ====
/-
  The host operations the kernel's program runs between its regions, read as values. From any contents W of the
  buffers, the stretch before the first kernel leaves the two endpoint vectors of the edge list, the edge weights, the
  self-loop weights, the three bias vectors and the readout bias as one-row matrices and the graph ids as a column; each
  of the three later stretches leaves the neighbour sum of the features the kernel before it wrote. Every one is the
  reference's own function of the same name (RefSpec.lean) of what W holds at the operands.
-/
import proofs.«419973_j8177617732163_2_alg».proof.Proof.Gen.KernelIdeal.Launch
import proofs.«419973_j8177617732163_2_alg».proof.Proof.RefSpec
import Idealize.ShloMosaic.Lib.StableHlo.Run
import Idealize.ShloMosaic.Lib.ValueIdx
import Idealize.ShloMosaic.Lib.ValueLayout
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.ValueIdx

/-! ## A vector laid out as one row, or as one column

The kernel's program reshapes a vector to a one-row (one-column) matrix where the reference broadcasts it along
axis 1 (axis 0). Entry (u, i) of either is entry i of the vector (entry (i, u) for the column): the unit coordinate
u is 0, so the row-major position of (u, i) is i. -/

section Layout
variable {α : Type}

/-- An [a] vector cast to [1, a] is the vector broadcast along axis 1. -/
theorem shapeCast_row_eq_broadcastInDim {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  symm
  apply broadcastInDim_apply
  intro b
  match b with
  | ⟨0, _⟩ =>
    show i.val = if a = 1 then 0 else i.val
    have hi : i.val < a := i.isLt
    split
    · omega
    · rfl

/-- An [a] vector cast to [a, 1] is the vector broadcast along axis 0. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x h = broadcastInDim ⟨2, ![a, 1]⟩ ![0] hb x := by
  funext j
  have hj0 : (j 0).val < a := idx2_lt0 j
  have hj1 : (j 1).val < 1 := idx2_lt1 j
  rw [shapeCast_apply x h j (ix1 (j 0)) (by
    rw [Shape.rowMajor_val_two, Shape.rowMajor_val_one]
    show (j 0).val = (j 0).val * 1 + (j 1).val
    omega)]
  symm
  apply broadcastInDim_apply
  intro b
  match b with
  | ⟨0, _⟩ =>
    show (j 0).val = if a = 1 then 0 else (j 0).val
    split
    · omega
    · rfl

end Layout

variable {F : FTy → Type} [FloatOps F]
variable (W : Valuation τ sig (Elt F))

/-! ## The operations before the first kernel

From the edge list: the two endpoint vectors, the edge weights and the self-loop weights, each the reference's own
chain of operations on the same operand; from the bias vectors and the graph ids: their one-row and one-column
layouts, a reshape here where the reference broadcasts. -/

/-- The source node of each edge. -/
theorem host0_v1 :
    StableHlo.after hostOps0 W (Proc.devRef .tc main_v1) = Cert.Spec.src (W (Proc.devRef .tc main_arg1)) := by
  show StableHlo.after hostOps0 W (Proc.devRef .tc main_v1) = _
  after_results
  rfl

/-- The target node of each edge. -/
theorem host0_v3 :
    StableHlo.after hostOps0 W (Proc.devRef .tc main_v3) = Cert.Spec.dst (W (Proc.devRef .tc main_arg1)) := by
  show StableHlo.after hostOps0 W (Proc.devRef .tc main_v3) = _
  after_results
  rfl

/-- The weight of each edge, as a column. -/
theorem host0_v26 :
    StableHlo.after hostOps0 W (Proc.devRef .tc main_v26) = Cert.Spec.coefB (F := F) (W (Proc.devRef .tc main_arg1)) := by
  show StableHlo.after hostOps0 W (Proc.devRef .tc main_v26) = _
  after_results_simp
  rfl

/-- The self-loop weight of each node, as a column. -/
theorem host0_v28 :
    StableHlo.after hostOps0 W (Proc.devRef .tc main_v28) = Cert.Spec.dinv2 (F := F) (W (Proc.devRef .tc main_arg1)) := by
  show StableHlo.after hostOps0 W (Proc.devRef .tc main_v28) = _
  after_results_simp
  rfl

/-- The first layer's bias as a row. -/
theorem host0_v29 :
    StableHlo.after hostOps0 W (Proc.devRef .tc main_v29) = Cert.Spec.brow (W (Proc.devRef .tc main_arg4)) := by
  show StableHlo.after hostOps0 W (Proc.devRef .tc main_v29) = _
  after_results
  exact shapeCast_row_eq_broadcastInDim (a := 64) _ _ _

/-- The second layer's bias as a row. -/
theorem host0_v30 :
    StableHlo.after hostOps0 W (Proc.devRef .tc main_v30) = Cert.Spec.brow (W (Proc.devRef .tc main_arg6)) := by
  show StableHlo.after hostOps0 W (Proc.devRef .tc main_v30) = _
  after_results
  exact shapeCast_row_eq_broadcastInDim (a := 64) _ _ _

/-- The third layer's bias as a row. -/
theorem host0_v31 :
    StableHlo.after hostOps0 W (Proc.devRef .tc main_v31) = Cert.Spec.brow (W (Proc.devRef .tc main_arg8)) := by
  show StableHlo.after hostOps0 W (Proc.devRef .tc main_v31) = _
  after_results
  exact shapeCast_row_eq_broadcastInDim (a := 64) _ _ _

/-- The readout's bias as a row. -/
theorem host0_v32 :
    StableHlo.after hostOps0 W (Proc.devRef .tc main_v32) = Cert.Spec.brow8 (W (Proc.devRef .tc main_arg10)) := by
  show StableHlo.after hostOps0 W (Proc.devRef .tc main_v32) = _
  after_results
  exact shapeCast_row_eq_broadcastInDim (a := 8) _ _ _

/-- The graph id of each node, as a column. -/
theorem host0_v33 :
    StableHlo.after hostOps0 W (Proc.devRef .tc main_v33) = Cert.Spec.bcol (W (Proc.devRef .tc main_arg2)) := by
  show StableHlo.after hostOps0 W (Proc.devRef .tc main_v33) = _
  after_results
  exact shapeCast_col_eq_broadcastInDim (a := 100000) _ _ _

/-! ## The operations before the second, third and fourth kernels

Each stretch gathers the rows of the features at the wrapped source of every edge, scales them by the edge weights
and adds them into the row of the edge's target: the neighbour sum, over whatever the endpoint vectors, the weights
and the features are in W. -/

/-- The neighbour sum of the first kernel's product. -/
theorem host1_v46 :
    StableHlo.after hostOps1 W (Proc.devRef .tc main_v46)
      = Cert.Spec.aggOf (W (Proc.devRef .tc main_v1)) (W (Proc.devRef .tc main_v3)) (W (Proc.devRef .tc main_v26))
          (W (Proc.devRef .tc main_v34)) := by
  show StableHlo.after hostOps1 W (Proc.devRef .tc main_v46) = _
  after_results_simp
  rfl

/-- The neighbour sum of the second kernel's product. -/
theorem host2_v59 :
    StableHlo.after hostOps2 W (Proc.devRef .tc main_v59)
      = Cert.Spec.aggOf (W (Proc.devRef .tc main_v1)) (W (Proc.devRef .tc main_v3)) (W (Proc.devRef .tc main_v26))
          (W (Proc.devRef .tc main_v47_1)) := by
  show StableHlo.after hostOps2 W (Proc.devRef .tc main_v59) = _
  after_results_simp
  rfl

/-- The neighbour sum of the third kernel's product. -/
theorem host3_v72 :
    StableHlo.after hostOps3 W (Proc.devRef .tc main_v72)
      = Cert.Spec.aggOf (W (Proc.devRef .tc main_v1)) (W (Proc.devRef .tc main_v3)) (W (Proc.devRef .tc main_v26))
          (W (Proc.devRef .tc main_v60_1)) := by
  show StableHlo.after hostOps3 W (Proc.devRef .tc main_v72) = _
  after_results_simp
  rfl

end Cert.KernelIdeal.Hand
end
-- ==== Proof.KI.Val0.lean ====
import proofs.«419973_j8177617732163_2_alg».proof.Proof.KI.Reg0
import proofs.«419973_j8177617732163_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
variable (V : (c : Dev nD) → (b : Ref sig .tc) → Buf (Elt Ideal) ((c : Thread nD τ).loc b))

/-! # Region 0 at the ideal values: the output array is the rows of x times the weights -/

namespace Val0

/-- The block product's dimension numbers (rows x contraction times contraction x columns), -/
abbrev D0 : DotDims S5000x64 S64x64 S5000x64 := dot_S5000x64_S64x64_S5000x64_1_0_0_1_n_n
/-- and the whole-array product's. -/
abbrev DR : DotDims Cert.ReferenceIdeal.S100000x64 Cert.ReferenceIdeal.S64x64 Cert.ReferenceIdeal.S100000x64 :=
  Cert.ReferenceIdeal.dot_S100000x64_S64x64_S100000x64_1_0_0_1_n_n

/-! ## The operand indices of the two products: (row, k) and (k, column) -/

theorem lhs0 (a : Fin 5000) (b : Fin 64) (k : Fin 64) :
    D0.lhsIdx (ix2 a b) ((contrEquiv1 D0 64 rfl rfl).symm k) = ix2 a k := by
  have c2 := contrEquiv1_symm_val D0 64 rfl rfl k
  funext ax; apply Fin.ext
  match ax with
  | ⟨0, _⟩ => simp [DotDims.lhsIdx, D0, dot_S5000x64_S64x64_S5000x64_1_0_0_1_n_n]; rfl
  | ⟨1, _⟩ => simp [DotDims.lhsIdx, D0, dot_S5000x64_S64x64_S5000x64_1_0_0_1_n_n]; exact c2

theorem rhs0 (a : Fin 5000) (b : Fin 64) (k : Fin 64) :
    D0.rhsIdx (ix2 a b) ((contrEquiv1 D0 64 rfl rfl).symm k) = ix2 k b := by
  have c2 := contrEquiv1_symm_val D0 64 rfl rfl k
  funext ax; apply Fin.ext
  match ax with
  | ⟨0, _⟩ => simp [DotDims.rhsIdx, D0, dot_S5000x64_S64x64_S5000x64_1_0_0_1_n_n]; exact c2
  | ⟨1, _⟩ => simp [DotDims.rhsIdx, D0, dot_S5000x64_S64x64_S5000x64_1_0_0_1_n_n]; rfl

theorem lhsR (a : Fin 100000) (b : Fin 64) (k : Fin 64) :
    DR.lhsIdx (ix2 a b) ((contrEquiv1 DR 64 rfl rfl).symm k) = ix2 a k := by
  have c2 := contrEquiv1_symm_val DR 64 rfl rfl k
  funext ax; apply Fin.ext
  match ax with
  | ⟨0, _⟩ => simp [DotDims.lhsIdx, DR, Cert.ReferenceIdeal.dot_S100000x64_S64x64_S100000x64_1_0_0_1_n_n]; rfl
  | ⟨1, _⟩ => simp [DotDims.lhsIdx, DR, Cert.ReferenceIdeal.dot_S100000x64_S64x64_S100000x64_1_0_0_1_n_n]; exact c2

theorem rhsR (a : Fin 100000) (b : Fin 64) (k : Fin 64) :
    DR.rhsIdx (ix2 a b) ((contrEquiv1 DR 64 rfl rfl).symm k) = ix2 k b := by
  have c2 := contrEquiv1_symm_val DR 64 rfl rfl k
  funext ax; apply Fin.ext
  match ax with
  | ⟨0, _⟩ => simp [DotDims.rhsIdx, DR, Cert.ReferenceIdeal.dot_S100000x64_S64x64_S100000x64_1_0_0_1_n_n]; exact c2
  | ⟨1, _⟩ => simp [DotDims.rhsIdx, DR, Cert.ReferenceIdeal.dot_S100000x64_S64x64_S100000x64_1_0_0_1_n_n]; rfl

/-! ## The two products at an entry: the sum over k of x(row, k) * w(k, column) -/

/-- The body's payload at an entry: the change of format is the identity on extended reals and the accumulator
    starts at zero, so it is the plain sum of products. -/
theorem pay0_apply (x : Vec Ideal S5000x64 .f32) (w : Vec Ideal S64x64 .f32) (a : Fin 5000) (b : Fin 64) :
    k0_pay1 x w (ix2 a b) = ∑ k : Fin 64, x (ix2 a k) * w (ix2 k b) := by
  show FloatOps.matmul D0 none (truncf (F := Ideal) .bf16 (x : FVec Ideal S5000x64 .f32) bitsLt_bf16_f32)
    (truncf (F := Ideal) .bf16 (w : FVec Ideal S64x64 .f32) bitsLt_bf16_f32) (constant (F := Ideal) S5000x64 .f32 0x00000000#32) (ix2 a b) = _
  rw [Ideal.matmul_constant_zero_apply, ← Equiv.sum_comp (contrEquiv1 D0 64 rfl rfl).symm]
  refine Finset.sum_congr rfl fun k _ => ?_
  rw [lhs0, rhs0]
  rfl

/-- The whole-array product at an entry. -/
theorem mm_apply (X : (⟨Cert.ReferenceIdeal.S100000x64, .f32⟩ : BufTy).Contents (Elt Ideal))
    (W : (⟨Cert.ReferenceIdeal.S64x64, .f32⟩ : BufTy).Contents (Elt Ideal)) (a : Fin 100000) (b : Fin 64) :
    Cert.Spec.mm X W (ix2 a b) = ∑ k : Fin 64, X (ix2 a k) * W (ix2 k b) := by
  show FloatOps.dotGeneral (F := Ideal) (φ₁ := .f32) (φ₂ := .f32) DR none .single X W (ix2 a b) = _
  rw [Ideal.dotGeneral_apply, ← Equiv.sum_comp (contrEquiv1 DR 64 rfl rfl).symm]
  refine Finset.sum_congr rfl fun k _ => ?_
  rw [lhsR, rhsR]

/-! ## Where the blocks sit: block t of x and of the output is rows 5000 t … 5000 t + 4999; the weights' block is the matrix -/

theorem hz2 : (![0, 0] : Fin 2 → Nat) = fun _ => 0 := funext fun a => by fin_cases a <;> rfl

/-- The index maps, decided over the 20 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (a : Fin 5000) : t.val * 5000 + a.val < 100000 := by
  have ht : t.val < 20 := lt_of_lt_of_eq t.isLt N_0
  have ha := a.isLt
  omega

theorem emb0_0 (t : Fin cfg0.N) (a : Fin 5000) (k : Fin 64) :
    ((cfg0.win 0).blk t).view.emb (ix2 a k) = (ix2 (⟨t.val * 5000 + a.val, row_lt t a⟩ : Fin 100000) k : S100000x64.Idx) := by
  obtain ⟨e0, e1, -⟩ := idx_facts0 t
  funext ax; apply Fin.ext
  match ax with
  | ⟨0, _⟩ => show win0_0.index t (0 : Fin 2) * 5000 + 1 * a.val = t.val * 5000 + a.val; rw [e0]; omega
  | ⟨1, _⟩ => show win0_0.index t (1 : Fin 2) * 64 + 1 * k.val = k.val; rw [e1]; omega

theorem emb0_1 (t : Fin cfg0.N) (k : Fin 64) (b : Fin 64) :
    ((cfg0.win 1).blk t).view.emb (ix2 k b) = (ix2 k b : S64x64.Idx) := by
  obtain ⟨-, -, e0, e1, -⟩ := idx_facts0 t
  funext ax; apply Fin.ext
  match ax with
  | ⟨0, _⟩ => show win0_1.index t (0 : Fin 2) * 64 + 1 * k.val = k.val; rw [e0]; omega
  | ⟨1, _⟩ => show win0_1.index t (1 : Fin 2) * 64 + 1 * b.val = b.val; rw [e1]; omega

theorem emb0_2 (t : Fin cfg0.N) (a : Fin 5000) (b : Fin 64) :
    ((cfg0.win 2).blk t).view.emb (ix2 a b) = (ix2 (⟨t.val * 5000 + a.val, row_lt t a⟩ : Fin 100000) b : S100000x64.Idx) := by
  obtain ⟨-, -, -, -, e0, e1⟩ := idx_facts0 t
  funext ax; apply Fin.ext
  match ax with
  | ⟨0, _⟩ => show win0_2.index t (0 : Fin 2) * 5000 + 1 * a.val = t.val * 5000 + a.val; rw [e0]; omega
  | ⟨1, _⟩ => show win0_2.index t (1 : Fin 2) * 64 + 1 * b.val = b.val; rw [e1]; omega

/-- An entry of block t of x is the entry of x in row 5000 t + a; -/
theorem iblk0_0_apply (c : Dev nD) (t : Fin cfg0.N) (a : Fin 5000) (k : Fin 64) :
    (iblk0 V c 0 t : FVec Ideal S5000x64 .f32) (ix2 a k)
      = (V c main_arg0 : FVec Ideal S100000x64 .f32) (ix2 (⟨t.val * 5000 + a.val, row_lt t a⟩ : Fin 100000) k) := by
  show (V c main_arg0 : FVec Ideal S100000x64 .f32) (((cfg0.win 0).blk t).view.emb (ix2 a k)) = _
  rw [emb0_0]

/-- an entry of the weights' block is the entry of the weights. -/
theorem iblk0_1_apply (c : Dev nD) (t : Fin cfg0.N) (k : Fin 64) (b : Fin 64) :
    (iblk0 V c 1 t : FVec Ideal S64x64 .f32) (ix2 k b) = (V c main_arg3 : FVec Ideal S64x64 .f32) (ix2 k b) := by
  show (V c main_arg3 : FVec Ideal S64x64 .f32) (((cfg0.win 1).blk t).view.emb (ix2 k b)) = _
  rw [emb0_1]

/-! ## What a point writes back -/

/-- Point t writes back block t of the whole-array product: entry (a, b) of the block product sums
    x(5000 t + a, k) * w(k, b) over k, which is entry (5000 t + a, b) of the whole product. -/
theorem flushed0_eq (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 (F := Ideal) V c).after 2 t) = _
  rw [after0_2]
  unfold out0_2
  rw [View.canon_unit_zero hz2]
  simp only [View.ld_unit_zero (S := S5000x64) hz2, View.ld_unit_zero (S := S64x64) hz2]
  funext j
  obtain ⟨a, b, rfl⟩ : ∃ (a : Fin 5000) (b : Fin 64), j = ix2 a b := ⟨j 0, j 1, eq_ix2 j⟩
  show k0_pay1 (iblk0 V c 0 t) (iblk0 V c 1 t) (ix2 a b)
    = Cert.Spec.mm (V c main_arg0) (V c main_arg3) (((cfg0.win 2).blk t).view.emb (ix2 a b))
  rw [pay0_apply, emb0_2, mm_apply]
  refine Finset.sum_congr rfl fun k _ => ?_
  rw [iblk0_0_apply, iblk0_1_apply]

/-! ## The blocks cover the array -/

theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- Row r is in block r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk0]
  obtain ⟨-, -, -, -, e0, e1⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e0]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e1]; omega

end Val0

/-! ## The array after the region -/

/-- The output array after the 20 points is the rows of x times the weights. -/
theorem final0 (c : Dev nD) : (dat0 (F := Ideal) V c).arrAt 2 cfg0.N = Cert.Spec.mm (V c main_arg0) (V c main_arg3) :=
  (dat0 (F := Ideal) V c).arrAt_eq_of_cover 2 _ (fun t _ => Val0.flushed0_eq V c t) Val0.cover0

end Cert.KernelIdeal.Hand
end
-- ==== Proof.KI.Val1.lean ====
import proofs.«419973_j8177617732163_2_alg».proof.Proof.KI.Reg1
import proofs.«419973_j8177617732163_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Pipeline (Dat Cfg Window BodyObligation cellOf)

/-! # The combine-and-project kernel's two outputs as whole arrays, at the ideal values

Output 5 is `max (agg + h * d + b, 0)` entry by entry (`d` one number per row, `b` one per column); output 6 is output 5
times the weights. Each point writes rows `5000 t … 5000 t + 4999`, and the twenty blocks tile the 100000 rows. -/

/-- The origin of a rank-2 rectangle. -/
theorem final1_hz : (![0, 0] : Fin 2 → Nat) = fun _ => 0 := funext fun a => by fin_cases a <;> rfl

/-! ## The body's arithmetic at an entry -/

/-- A column broadcast along the rows reads its row's one entry. -/
theorem final1_bcol {α : Type} (v : S5000x1.Idx → α) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The first payload at entry (p, q): `max (x0 + x1 * x2(p) + x3(q), 0)`. -/
theorem final1_pay1_apply (x0 x1 : Vec Ideal S5000x64 .f32) (x2 : Vec Ideal S5000x1 .f32) (x3 : Vec Ideal S1x64 .f32) (p : Fin 5000) (q : Fin 64) :
    k1_pay1 x0 x1 x2 x3 (ix2 p q)
      = max (x0 (ix2 p q) + x1 (ix2 p q) * x2 (ix2 p (0 : Fin 1)) + x3 (ix2 (0 : Fin 1) q)) (Ideal.ofBits .f32 0x00000000#32) := by
  unfold k1_pay1
  rw [shapeCast_self, shapeCast_self, shapeCast_self, shapeCast_self]
  show max (x0 (ix2 p q) + x1 (ix2 p q) * broadcastTo S5000x64 x2 broadcasts_S5000x1_S5000x64 (ix2 p q)
      + broadcastTo S5000x64 x3 broadcasts_S1x64_S5000x64 (ix2 p q)) (Ideal.ofBits .f32 0x00000000#32) = _
  rw [final1_bcol, broadcastTo_1b_ab_apply]

/-! ## The specification at an entry -/

/-- A column broadcast along the rows by the host's operation reads its row's one entry. -/
theorem final1_bcolH {α : Type} (v : S100000x1.Idx → α) (h : S100000x1.BroadcastsInDim S100000x64 ![0, 1]) (r : Fin 100000) (q : Fin 64) :
    broadcastInDim S100000x64 ![0, 1] h v (ix2 r q) = v (ix2 r (0 : Fin 1)) := by
  refine broadcastInDim_apply ![0, 1] h v (ix2 r q) (ix2 r (0 : Fin 1)) fun ax => ?_
  match ax with
  | ⟨0, _⟩ => rfl
  | ⟨1, _⟩ => rfl

/-- The graph-convolution update at entry (r, q): `max (agg + h * d2(r) + b(q), 0)`. -/
theorem final1_layer_apply (agg h : (⟨S100000x64, .f32⟩ : BufTy).Contents (Elt Ideal)) (d2 : (⟨S100000x1, .f32⟩ : BufTy).Contents (Elt Ideal))
    (b : (⟨S1x64, .f32⟩ : BufTy).Contents (Elt Ideal)) (r : Fin 100000) (q : Fin 64) :
    Cert.Spec.layer (F := Ideal) agg h d2 b (ix2 r q)
      = max (agg (ix2 r q) + h (ix2 r q) * d2 (ix2 r (0 : Fin 1)) + b (ix2 (0 : Fin 1) q)) (Ideal.ofBits .f32 0x00000000#32) := by
  unfold Cert.Spec.layer
  rw [maximumf_apply, addf_apply, addf_apply, mulf_apply, broadcastInDim_scalar_apply, constant_apply,
    broadcastInDim_oneRow_apply, final1_bcolH]

/-! ## The two products at an entry -/

/-- Operand coordinates of the block product: the left operand is read at (row, k), the right at (k, column). -/
theorem final1_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem final1_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem final1_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem final1_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second payload at entry (p, j): the sum over k of the first payload at (p, k) times the weight at (k, j); the
    two changes of float format are the identity at the ideal values, and the accumulator is zero. -/
theorem final1_pay2_apply (x0 x1 : Vec Ideal S5000x64 .f32) (x2 : Vec Ideal S5000x1 .f32) (x3 : Vec Ideal S1x64 .f32) (x4 : Vec Ideal S64x64 .f32)
    (p : Fin 5000) (j : Fin 64) :
    k1_pay2 x0 x1 x2 x3 x4 (ix2 p j) = ∑ k : Fin 64, k1_pay1 x0 x1 x2 x3 (ix2 p k) * x4 (ix2 k j) := by
  unfold k1_pay2
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact final1_lhs_0 _ _
    | ⟨1, _⟩ => exact (final1_lhs_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (final1_rhs_0 _ _).trans hk
    | ⟨1, _⟩ => exact final1_rhs_1 _ _)
  rw [truncf_apply, truncf_apply, el, er]

/-- Operand coordinates of the whole-array product. -/
theorem final1_mm_lhs_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem final1_mm_lhs_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem final1_mm_rhs_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem final1_mm_rhs_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

/-- The dense layer's product at entry (r, j): the sum over k of x(r, k) * w(k, j). -/
theorem final1_mm_apply (x : (⟨S100000x64, .f32⟩ : BufTy).Contents (Elt Ideal)) (w : (⟨S64x64, .f32⟩ : BufTy).Contents (Elt Ideal))
    (r : Fin 100000) (j : Fin 64) :
    Cert.Spec.mm (F := Ideal) x w (ix2 r j) = ∑ k : Fin 64, x (ix2 r k) * w (ix2 k j) := by
  unfold Cert.Spec.mm
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r j) ((contrEquiv1 Cert.ReferenceIdeal.dot_S100000x64_S64x64_S100000x64_1_0_0_1_n_n 64 rfl rfl).symm k) = ix2 r k := funext fun a => Fin.ext (by
    match a with
    | ⟨0, _⟩ => exact final1_mm_lhs_0 _ _
    | ⟨1, _⟩ => exact (final1_mm_lhs_1 _ _).trans hk)
  have er : Cert.ReferenceIdeal.dot_S100000x64_S64x64_S100000x64_1_0_0_1_n_n.rhsIdx (ix2 r j) ((contrEquiv1 Cert.ReferenceIdeal.dot_S100000x64_S64x64_S100000x64_1_0_0_1_n_n 64 rfl rfl).symm k) = ix2 k j := funext fun a => Fin.ext (by
    match a with
    | ⟨0, _⟩ => exact (final1_mm_rhs_0 _ _).trans hk
    | ⟨1, _⟩ => exact final1_mm_rhs_1 _ _)
  rw [el, er]

/-! ## Where the blocks sit -/

variable (V : (c : Dev nD) → (b : Ref sig .tc) → Buf (Elt Ideal) ((c : Thread nD τ).loc b))

/-- The block index of every window at every point: the moving windows are on block row `t`, the bias row and the
    weights on their one block. -/
theorem final1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Entry (p, q) of the aggregate's block `t` is entry (5000 t + p, q) of the array. -/
theorem final1_read0 (c : Dev nD) (t : Fin cfg1.N) (p : Fin 5000) (q : Fin 64) (r : Fin 100000) (hr : r.val = 5000 * t.val + p.val) :
    iblk1 V c 0 t (ix2 p q) = V c main_v46 (ix2 r q) := by
  obtain ⟨e00, e01, e10, e11, e20, e21, e30, e31, e40, e41, e50, e51, e60, e61⟩ := final1_idx t
  show V c main_v46 (((cfg1.win 0).blk t).view.emb (ix2 p q)) = V c main_v46 (ix2 r q)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * q.val = q.val; omega
/-- Entry (p, q) of the features' block `t` is entry (5000 t + p, q) of the array. -/
theorem final1_read1 (c : Dev nD) (t : Fin cfg1.N) (p : Fin 5000) (q : Fin 64) (r : Fin 100000) (hr : r.val = 5000 * t.val + p.val) :
    iblk1 V c 1 t (ix2 p q) = V c main_v34 (ix2 r q) := by
  obtain ⟨e00, e01, e10, e11, e20, e21, e30, e31, e40, e41, e50, e51, e60, e61⟩ := final1_idx t
  show V c main_v34 (((cfg1.win 1).blk t).view.emb (ix2 p q)) = V c main_v34 (ix2 r q)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * q.val = q.val; omega
/-- Entry p of the degree column's block `t` is entry 5000 t + p of the column. -/
theorem final1_read2 (c : Dev nD) (t : Fin cfg1.N) (p : Fin 5000)  (r : Fin 100000) (hr : r.val = 5000 * t.val + p.val) :
    iblk1 V c 2 t (ix2 p (0 : Fin 1)) = V c main_v28 (ix2 r (0 : Fin 1)) := by
  obtain ⟨e00, e01, e10, e11, e20, e21, e30, e31, e40, e41, e50, e51, e60, e61⟩ := final1_idx t
  show V c main_v28 (((cfg1.win 2).blk t).view.emb (ix2 p (0 : Fin 1))) = V c main_v28 (ix2 r (0 : Fin 1))
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega
/-- The bias row's one block is the row. -/
theorem final1_read3 (c : Dev nD) (t : Fin cfg1.N)  (q : Fin 64) :
    iblk1 V c 3 t (ix2 (0 : Fin 1) q) = V c main_v29 (ix2 (0 : Fin 1) q) := by
  obtain ⟨e00, e01, e10, e11, e20, e21, e30, e31, e40, e41, e50, e51, e60, e61⟩ := final1_idx t
  show V c main_v29 (((cfg1.win 3).blk t).view.emb (ix2 (0 : Fin 1) q)) = V c main_v29 (ix2 (0 : Fin 1) q)
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 64 + 1 * q.val = q.val; omega
/-- The weights' one block is the matrix. -/
theorem final1_read4 (c : Dev nD) (t : Fin cfg1.N) (k : Fin 64) (j : Fin 64) :
    iblk1 V c 4 t (ix2 k j) = V c main_arg5 (ix2 k j) := by
  obtain ⟨e00, e01, e10, e11, e20, e21, e30, e31, e40, e41, e50, e51, e60, e61⟩ := final1_idx t
  show V c main_arg5 (((cfg1.win 4).blk t).view.emb (ix2 k j)) = V c main_arg5 (ix2 k j)
  refine congrArg _ (funext fun a => Fin.ext ?_)
  match a with
  | ⟨0, _⟩ => show win1_4.index t (0 : Fin 2) * 64 + 1 * k.val = k.val; omega
  | ⟨1, _⟩ => show win1_4.index t (1 : Fin 2) * 64 + 1 * j.val = j.val; omega

/-- Entry (p, q) of an output's block `t` is entry (5000 t + p, q) of its array. -/
theorem final1_emb5 (t : Fin cfg1.N) (p : Fin 5000) (q : Fin 64) (r : Fin 100000) (hr : r.val = 5000 * t.val + p.val) :
    ((cfg1.win 5).blk t).view.emb (ix2 p q) = ix2 r q := by
  obtain ⟨e00, e01, e10, e11, e20, e21, e30, e31, e40, e41, e50, e51, e60, e61⟩ := final1_idx t
  refine funext fun a => Fin.ext ?_
  match a with
  | ⟨0, _⟩ => show win1_5.index t (0 : Fin 2) * 5000 + 1 * p.val = r.val; omega
  | ⟨1, _⟩ => show win1_5.index t (1 : Fin 2) * 64 + 1 * q.val = q.val; omega
theorem final1_emb6 (t : Fin cfg1.N) (p : Fin 5000) (q : Fin 64) (r : Fin 100000) (hr : r.val = 5000 * t.val + p.val) :
    ((cfg1.win 6).blk t).view.emb (ix2 p q) = ix2 r q := by
  obtain ⟨e00, e01, e10, e11, e20, e21, e30, e31, e40, e41, e50, e51, e60, e61⟩ := final1_idx t
  refine funext fun a => Fin.ext ?_
  match a with
  | ⟨0, _⟩ => show win1_6.index t (0 : Fin 2) * 5000 + 1 * p.val = r.val; omega
  | ⟨1, _⟩ => show win1_6.index t (1 : Fin 2) * 64 + 1 * q.val = q.val; omega

/-! ## What a point writes back -/

/-- The first payload of the blocks at point `t`, at (p, q), is the graph-convolution update of the arrays at
    (5000 t + p, q): both are `max (agg + h * d + b, 0)` of the same four entries. -/
theorem final1_blk5 (c : Dev nD) (t : Fin cfg1.N) (p : Fin 5000) (q : Fin 64) (r : Fin 100000) (hr : r.val = 5000 * t.val + p.val) :
    k1_pay1 (iblk1 V c 0 t) (iblk1 V c 1 t) (iblk1 V c 2 t) (iblk1 V c 3 t) (ix2 p q)
      = Cert.Spec.layer (V c main_v46) (V c main_v34) (V c main_v28) (V c main_v29) (ix2 r q) := by
  refine (final1_pay1_apply (iblk1 V c 0 t) (iblk1 V c 1 t) (iblk1 V c 2 t) (iblk1 V c 3 t) p q).trans ?_
  refine Eq.trans ?_ (final1_layer_apply (V c main_v46) (V c main_v34) (V c main_v28) (V c main_v29) r q).symm
  rw [final1_read0 V c t p q r hr, final1_read1 V c t p q r hr, final1_read2 V c t p r hr, final1_read3 V c t q]

/-- The second payload of the blocks at point `t`, at (p, j), is the dense layer's product at (5000 t + p, j):
    term by term the same sum over k. -/
theorem final1_blk6 (c : Dev nD) (t : Fin cfg1.N) (p : Fin 5000) (j : Fin 64) (r : Fin 100000) (hr : r.val = 5000 * t.val + p.val) :
    k1_pay2 (iblk1 V c 0 t) (iblk1 V c 1 t) (iblk1 V c 2 t) (iblk1 V c 3 t) (iblk1 V c 4 t) (ix2 p j)
      = Cert.Spec.mm (Cert.Spec.layer (V c main_v46) (V c main_v34) (V c main_v28) (V c main_v29)) (V c main_arg5) (ix2 r j) := by
  refine (final1_pay2_apply (iblk1 V c 0 t) (iblk1 V c 1 t) (iblk1 V c 2 t) (iblk1 V c 3 t) (iblk1 V c 4 t) p j).trans ?_
  refine Eq.trans ?_ (final1_mm_apply (Cert.Spec.layer (V c main_v46) (V c main_v34) (V c main_v28) (V c main_v29)) (V c main_arg5) r j).symm
  refine Finset.sum_congr rfl fun k _ => ?_
  rw [final1_blk5 V c t p k r hr, final1_read4 V c t k j]

/-- A row below 100000 is row p of block t with t = row / 5000 and p = row % 5000. -/
theorem final1_row (t : Fin cfg1.N) (p : Fin 5000) : 5000 * t.val + p.val < 100000 := by
  have ht : t.val < grid1.N := t.isLt
  rw [N_1] at ht
  have hp := p.isLt
  omega

/-- WHAT POINT `t` WRITES BACK to output 5 is block `t` of the graph-convolution update of the arrays. -/
theorem final1_flushed5 (c : Dev nD) (t : Fin cfg1.N) :
    (dat1 V c).flushed 5 t = ((cfg1.win 5).blk t).view.read (Elt Ideal) (Cert.Spec.layer (V c main_v46) (V c main_v34) (V c main_v28) (V c main_v29)) := by
  show (cfg1.win 5).cut (grid1.coords t) ((dat1 V c).after 5 t) = _
  rw [after1_5]
  unfold out1_5
  rw [View.canon_unit_zero final1_hz]
  simp only [View.ld_unit_zero (S := S5000x64) final1_hz, View.ld_unit_zero (S := S5000x1) final1_hz, View.ld_unit_zero (S := S1x64) final1_hz]
  funext y
  obtain ⟨p, q, rfl⟩ : ∃ (p : Fin 5000) (q : Fin 64), y = ix2 p q := ⟨y 0, y 1, eq_ix2 y⟩
  show k1_pay1 (iblk1 V c 0 t) (iblk1 V c 1 t) (iblk1 V c 2 t) (iblk1 V c 3 t) (ix2 p q)
    = Cert.Spec.layer (V c main_v46) (V c main_v34) (V c main_v28) (V c main_v29) (((cfg1.win 5).blk t).view.emb (ix2 p q))
  rw [final1_emb5 t p q ⟨5000 * t.val + p.val, final1_row t p⟩ rfl]
  exact final1_blk5 V c t p q ⟨5000 * t.val + p.val, final1_row t p⟩ rfl

/-- WHAT POINT `t` WRITES BACK to output 6 is block `t` of the dense layer's product. -/
theorem final1_flushed6 (c : Dev nD) (t : Fin cfg1.N) :
    (dat1 V c).flushed 6 t = ((cfg1.win 6).blk t).view.read (Elt Ideal)
      (Cert.Spec.mm (Cert.Spec.layer (V c main_v46) (V c main_v34) (V c main_v28) (V c main_v29)) (V c main_arg5)) := by
  show (cfg1.win 6).cut (grid1.coords t) ((dat1 V c).after 6 t) = _
  rw [after1_6]
  unfold out1_6
  rw [View.canon_unit_zero final1_hz]
  simp only [View.ld_unit_zero (S := S5000x64) final1_hz, View.ld_unit_zero (S := S5000x1) final1_hz, View.ld_unit_zero (S := S1x64) final1_hz, View.ld_unit_zero (S := S64x64) final1_hz]
  funext y
  obtain ⟨p, q, rfl⟩ : ∃ (p : Fin 5000) (q : Fin 64), y = ix2 p q := ⟨y 0, y 1, eq_ix2 y⟩
  show k1_pay2 (iblk1 V c 0 t) (iblk1 V c 1 t) (iblk1 V c 2 t) (iblk1 V c 3 t) (iblk1 V c 4 t) (ix2 p q)
    = Cert.Spec.mm (Cert.Spec.layer (V c main_v46) (V c main_v34) (V c main_v28) (V c main_v29)) (V c main_arg5) (((cfg1.win 6).blk t).view.emb (ix2 p q))
  rw [final1_emb6 t p q ⟨5000 * t.val + p.val, final1_row t p⟩ rfl]
  exact final1_blk6 V c t p q ⟨5000 * t.val + p.val, final1_row t p⟩ rfl

/-! ## The twenty blocks tile the rows -/

/-- An entry of the array is in point `t`'s block of output 5 iff each coordinate is in the block's range. -/
theorem final1_mem5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v47_0).slice (win1_5.rect t)).set ↔ _
  rw [View.set_slice_whole, Rect.mem_set_unit]
  exact Iff.rfl
theorem final1_mem6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v47_1).slice (win1_6.rect t)).set ↔ _
  rw [View.set_slice_whole, Rect.mem_set_unit]
  exact Iff.rfl

/-- Row r is written back by point r / 5000. -/
theorem final1_cover5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < grid1.N := by rw [N_1]; omega
  obtain ⟨e00, e01, e10, e11, e20, e21, e30, e31, e40, e41, e50, e51, e60, e61⟩ := final1_idx ⟨(i 0).val / 5000, hN⟩
  refine ⟨⟨(i 0).val / 5000, hN⟩, flush1_5 _, ?_⟩
  rw [final1_mem5]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    have e : win1_5.index ⟨(i 0).val / 5000, hN⟩ (0 : Fin 2) = (i 0).val / 5000 := e50
    omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    omega
theorem final1_cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 5000 < grid1.N := by rw [N_1]; omega
  obtain ⟨e00, e01, e10, e11, e20, e21, e30, e31, e40, e41, e50, e51, e60, e61⟩ := final1_idx ⟨(i 0).val / 5000, hN⟩
  refine ⟨⟨(i 0).val / 5000, hN⟩, flush1_6 _, ?_⟩
  rw [final1_mem6]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    have e : win1_6.index ⟨(i 0).val / 5000, hN⟩ (0 : Fin 2) = (i 0).val / 5000 := e60
    omega
  | ⟨1, _⟩ =>
    show win1_6.index ⟨(i 0).val / 5000, hN⟩ (1 : Fin 2) * 64 ≤ (i 1).val ∧ (i 1).val < win1_6.index ⟨(i 0).val / 5000, hN⟩ (1 : Fin 2) * 64 + 64
    omega

/-! ## The arrays after the run -/

/-- Output 5 after the twenty points is the graph-convolution update of the arrays the region found. -/
theorem final1_5 (c : Dev nD) :
    (dat1 (F := Ideal) V c).arrAt 5 cfg1.N = Cert.Spec.layer (V c main_v46) (V c main_v34) (V c main_v28) (V c main_v29) :=
  (dat1 V c).arrAt_eq_of_cover 5 _ (fun t _ => final1_flushed5 V c t) final1_cover5

/-- Output 6 after the twenty points is that update times the weights. -/
theorem final1_6 (c : Dev nD) :
    (dat1 (F := Ideal) V c).arrAt 6 cfg1.N
      = Cert.Spec.mm (Cert.Spec.layer (V c main_v46) (V c main_v34) (V c main_v28) (V c main_v29)) (V c main_arg5) :=
  (dat1 V c).arrAt_eq_of_cover 6 _ (fun t _ => final1_flushed6 V c t) final1_cover6

end Cert.KernelIdeal.Hand

end
-- ==== Proof.KI.Val2.lean ====
import proofs.«419973_j8177617732163_2_alg».proof.Proof.KI.Reg2
import proofs.«419973_j8177617732163_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Pipeline (Dat Cfg Window BodyObligation cellOf)

/-! # The combine-and-project kernel's two outputs as whole arrays, at the ideal values

Output 5 is `max (agg + h * d + b, 0)` entry by entry (`d` one number per row, `b` one per column); output 6 is output 5
times the weights. Each point writes rows `5000 t … 5000 t + 4999`, and the twenty blocks tile the 100000 rows. -/

/-- The origin of a rank-2 rectangle. -/
theorem final2_hz : (![0, 0] : Fin 2 → Nat) = fun _ => 0 := funext fun a => by fin_cases a <;> rfl

/-! ## The body's arithmetic at an entry -/

/-- A column broadcast along the rows reads its row's one entry. -/
theorem final2_bcol {α : Type} (v : S5000x1.Idx → α) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The first payload at entry (p, q): `max (x0 + x1 * x2(p) + x3(q), 0)`. -/
theorem final2_pay1_apply (x0 x1 : Vec Ideal S5000x64 .f32) (x2 : Vec Ideal S5000x1 .f32) (x3 : Vec Ideal S1x64 .f32) (p : Fin 5000) (q : Fin 64) :
    k2_pay1 x0 x1 x2 x3 (ix2 p q)
      = max (x0 (ix2 p q) + x1 (ix2 p q) * x2 (ix2 p (0 : Fin 1)) + x3 (ix2 (0 : Fin 1) q)) (Ideal.ofBits .f32 0x00000000#32) := by
  unfold k2_pay1
  rw [shapeCast_self, shapeCast_self, shapeCast_self, shapeCast_self]
  show max (x0 (ix2 p q) + x1 (ix2 p q) * broadcastTo S5000x64 x2 broadcasts_S5000x1_S5000x64 (ix2 p q)
      + broadcastTo S5000x64 x3 broadcasts_S1x64_S5000x64 (ix2 p q)) (Ideal.ofBits .f32 0x00000000#32) = _
  rw [final2_bcol, broadcastTo_1b_ab_apply]

/-! ## The specification at an entry -/

/-- A column broadcast along the rows by the host's operation reads its row's one entry. -/
theorem final2_bcolH {α : Type} (v : S100000x1.Idx → α) (h : S100000x1.BroadcastsInDim S100000x64 ![0, 1]) (r : Fin 100000) (q : Fin 64) :
    broadcastInDim S100000x64 ![0, 1] h v (ix2 r q) = v (ix2 r (0 : Fin 1)) := by
  refine broadcastInDim_apply ![0, 1] h v (ix2 r q) (ix2 r (0 : Fin 1)) fun ax => ?_
  match ax with
  | ⟨0, _⟩ => rfl
  | ⟨1, _⟩ => rfl

/-- The graph-convolution update at entry (r, q): `max (agg + h * d2(r) + b(q), 0)`. -/
theorem final2_layer_apply (agg h : (⟨S100000x64, .f32⟩ : BufTy).Contents (Elt Ideal)) (d2 : (⟨S100000x1, .f32⟩ : BufTy).Contents (Elt Ideal))
    (b : (⟨S1x64, .f32⟩ : BufTy).Contents (Elt Ideal)) (r : Fin 100000) (q : Fin 64) :
    Cert.Spec.layer (F := Ideal) agg h d2 b (ix2 r q)
      = max (agg (ix2 r q) + h (ix2 r q) * d2 (ix2 r (0 : Fin 1)) + b (ix2 (0 : Fin 1) q)) (Ideal.ofBits .f32 0x00000000#32) := by
  unfold Cert.Spec.layer
  rw [maximumf_apply, addf_apply, addf_apply, mulf_apply, broadcastInDim_scalar_apply, constant_apply,
    broadcastInDim_oneRow_apply, final2_bcolH]

/-! ## The two products at an entry -/

/-- Operand coordinates of the block product: the left operand is read at (row, k), the right at (k, column). -/
theorem final2_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem final2_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem final2_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem final2_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second payload at entry (p, j): the sum over k of the first payload at (p, k) times the weight at (k, j); the
    two changes of float format are the identity at the ideal values, and the accumulator is zero. -/
theorem final2_pay2_apply (x0 x1 : Vec Ideal S5000x64 .f32) (x2 : Vec Ideal S5000x1 .f32) (x3 : Vec Ideal S1x64 .f32) (x4 : Vec Ideal S64x64 .f32)
    (p : Fin 5000) (j : Fin 64) :
    k2_pay2 x0 x1 x2 x3 x4 (ix2 p j) = ∑ k : Fin 64, k2_pay1 x0 x1 x2 x3 (ix2 p k) * x4 (ix2 k j) := by
  unfold k2_pay2
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact final2_lhs_0 _ _
    | ⟨1, _⟩ => exact (final2_lhs_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (final2_rhs_0 _ _).trans hk
    | ⟨1, _⟩ => exact final2_rhs_1 _ _)
  rw [truncf_apply, truncf_apply, el, er]

/-- Operand coordinates of the whole-array product. -/
theorem final2_mm_lhs_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem final2_mm_lhs_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem final2_mm_rhs_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem final2_mm_rhs_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

/-- The dense layer's product at entry (r, j): the sum over k of x(r, k) * w(k, j). -/
theorem final2_mm_apply (x : (⟨S100000x64, .f32⟩ : BufTy).Contents (Elt Ideal)) (w : (⟨S64x64, .f32⟩ : BufTy).Contents (Elt Ideal))
    (r : Fin 100000) (j : Fin 64) :
    Cert.Spec.mm (F := Ideal) x w (ix2 r j) = ∑ k : Fin 64, x (ix2 r k) * w (ix2 k j) := by
  unfold Cert.Spec.mm
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r j) ((contrEquiv1 Cert.ReferenceIdeal.dot_S100000x64_S64x64_S100000x64_1_0_0_1_n_n 64 rfl rfl).symm k) = ix2 r k := funext fun a => Fin.ext (by
    match a with
    | ⟨0, _⟩ => exact final2_mm_lhs_0 _ _
    | ⟨1, _⟩ => exact (final2_mm_lhs_1 _ _).trans hk)
  have er : Cert.ReferenceIdeal.dot_S100000x64_S64x64_S100000x64_1_0_0_1_n_n.rhsIdx (ix2 r j) ((contrEquiv1 Cert.ReferenceIdeal.dot_S100000x64_S64x64_S100000x64_1_0_0_1_n_n 64 rfl rfl).symm k) = ix2 k j := funext fun a => Fin.ext (by
    match a with
    | ⟨0, _⟩ => exact (final2_mm_rhs_0 _ _).trans hk
    | ⟨1, _⟩ => exact final2_mm_rhs_1 _ _)
  rw [el, er]

/-! ## Where the blocks sit -/

variable (V : (c : Dev nD) → (b : Ref sig .tc) → Buf (Elt Ideal) ((c : Thread nD τ).loc b))

/-- The block index of every window at every point: the moving windows are on block row `t`, the bias row and the
    weights on their one block. -/
theorem final2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Entry (p, q) of the aggregate's block `t` is entry (5000 t + p, q) of the array. -/
theorem final2_read0 (c : Dev nD) (t : Fin cfg2.N) (p : Fin 5000) (q : Fin 64) (r : Fin 100000) (hr : r.val = 5000 * t.val + p.val) :
    iblk2 V c 0 t (ix2 p q) = V c main_v59 (ix2 r q) := by
  obtain ⟨e00, e01, e10, e11, e20, e21, e30, e31, e40, e41, e50, e51, e60, e61⟩ := final2_idx t
  show V c main_v59 (((cfg2.win 0).blk t).view.emb (ix2 p q)) = V c main_v59 (ix2 r q)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * q.val = q.val; omega
/-- Entry (p, q) of the features' block `t` is entry (5000 t + p, q) of the array. -/
theorem final2_read1 (c : Dev nD) (t : Fin cfg2.N) (p : Fin 5000) (q : Fin 64) (r : Fin 100000) (hr : r.val = 5000 * t.val + p.val) :
    iblk2 V c 1 t (ix2 p q) = V c main_v47_1 (ix2 r q) := by
  obtain ⟨e00, e01, e10, e11, e20, e21, e30, e31, e40, e41, e50, e51, e60, e61⟩ := final2_idx t
  show V c main_v47_1 (((cfg2.win 1).blk t).view.emb (ix2 p q)) = V c main_v47_1 (ix2 r q)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * q.val = q.val; omega
/-- Entry p of the degree column's block `t` is entry 5000 t + p of the column. -/
theorem final2_read2 (c : Dev nD) (t : Fin cfg2.N) (p : Fin 5000)  (r : Fin 100000) (hr : r.val = 5000 * t.val + p.val) :
    iblk2 V c 2 t (ix2 p (0 : Fin 1)) = V c main_v28 (ix2 r (0 : Fin 1)) := by
  obtain ⟨e00, e01, e10, e11, e20, e21, e30, e31, e40, e41, e50, e51, e60, e61⟩ := final2_idx t
  show V c main_v28 (((cfg2.win 2).blk t).view.emb (ix2 p (0 : Fin 1))) = V c main_v28 (ix2 r (0 : Fin 1))
  refine congrArg _ (funext fun a => Fin.ext ?_)
  match a with
  | ⟨0, _⟩ => show win2_2.index t (0 : Fin 2) * 5000 + 1 * p.val = r.val; omega
  | ⟨1, _⟩ => show win2_2.index t (1 : Fin 2) * 1 + 1 * (0 : Fin 1).val = (0 : Fin 1).val; omega
/-- The bias row's one block is the row. -/
theorem final2_read3 (c : Dev nD) (t : Fin cfg2.N)  (q : Fin 64) :
    iblk2 V c 3 t (ix2 (0 : Fin 1) q) = V c main_v30 (ix2 (0 : Fin 1) q) := by
  obtain ⟨e00, e01, e10, e11, e20, e21, e30, e31, e40, e41, e50, e51, e60, e61⟩ := final2_idx t
  show V c main_v30 (((cfg2.win 3).blk t).view.emb (ix2 (0 : Fin 1) q)) = V c main_v30 (ix2 (0 : Fin 1) q)
  refine congrArg _ (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 64 + 1 * q.val = q.val; omega
/-- The weights' one block is the matrix. -/
theorem final2_read4 (c : Dev nD) (t : Fin cfg2.N) (k : Fin 64) (j : Fin 64) :
    iblk2 V c 4 t (ix2 k j) = V c main_arg7 (ix2 k j) := by
  obtain ⟨e00, e01, e10, e11, e20, e21, e30, e31, e40, e41, e50, e51, e60, e61⟩ := final2_idx t
  show V c main_arg7 (((cfg2.win 4).blk t).view.emb (ix2 k j)) = V c main_arg7 (ix2 k j)
  refine congrArg _ (funext fun a => Fin.ext ?_)
  match a with
  | ⟨0, _⟩ => show win2_4.index t (0 : Fin 2) * 64 + 1 * k.val = k.val; omega
  | ⟨1, _⟩ => show win2_4.index t (1 : Fin 2) * 64 + 1 * j.val = j.val; omega

/-- Entry (p, q) of an output's block `t` is entry (5000 t + p, q) of its array. -/
theorem final2_emb5 (t : Fin cfg2.N) (p : Fin 5000) (q : Fin 64) (r : Fin 100000) (hr : r.val = 5000 * t.val + p.val) :
    ((cfg2.win 5).blk t).view.emb (ix2 p q) = ix2 r q := by
  obtain ⟨e00, e01, e10, e11, e20, e21, e30, e31, e40, e41, e50, e51, e60, e61⟩ := final2_idx t
  refine funext fun a => Fin.ext ?_
  match a with
  | ⟨0, _⟩ => show win2_5.index t (0 : Fin 2) * 5000 + 1 * p.val = r.val; omega
  | ⟨1, _⟩ => show win2_5.index t (1 : Fin 2) * 64 + 1 * q.val = q.val; omega
theorem final2_emb6 (t : Fin cfg2.N) (p : Fin 5000) (q : Fin 64) (r : Fin 100000) (hr : r.val = 5000 * t.val + p.val) :
    ((cfg2.win 6).blk t).view.emb (ix2 p q) = ix2 r q := by
  obtain ⟨e00, e01, e10, e11, e20, e21, e30, e31, e40, e41, e50, e51, e60, e61⟩ := final2_idx t
  refine funext fun a => Fin.ext ?_
  match a with
  | ⟨0, _⟩ => show win2_6.index t (0 : Fin 2) * 5000 + 1 * p.val = r.val; omega
  | ⟨1, _⟩ => show win2_6.index t (1 : Fin 2) * 64 + 1 * q.val = q.val; omega

/-! ## What a point writes back -/

/-- The first payload of the blocks at point `t`, at (p, q), is the graph-convolution update of the arrays at
    (5000 t + p, q): both are `max (agg + h * d + b, 0)` of the same four entries. -/
theorem final2_blk5 (c : Dev nD) (t : Fin cfg2.N) (p : Fin 5000) (q : Fin 64) (r : Fin 100000) (hr : r.val = 5000 * t.val + p.val) :
    k2_pay1 (iblk2 V c 0 t) (iblk2 V c 1 t) (iblk2 V c 2 t) (iblk2 V c 3 t) (ix2 p q)
      = Cert.Spec.layer (V c main_v59) (V c main_v47_1) (V c main_v28) (V c main_v30) (ix2 r q) := by
  refine (final2_pay1_apply (iblk2 V c 0 t) (iblk2 V c 1 t) (iblk2 V c 2 t) (iblk2 V c 3 t) p q).trans ?_
  refine Eq.trans ?_ (final2_layer_apply (V c main_v59) (V c main_v47_1) (V c main_v28) (V c main_v30) r q).symm
  rw [final2_read0 V c t p q r hr, final2_read1 V c t p q r hr, final2_read2 V c t p r hr, final2_read3 V c t q]

/-- The second payload of the blocks at point `t`, at (p, j), is the dense layer's product at (5000 t + p, j):
    term by term the same sum over k. -/
theorem final2_blk6 (c : Dev nD) (t : Fin cfg2.N) (p : Fin 5000) (j : Fin 64) (r : Fin 100000) (hr : r.val = 5000 * t.val + p.val) :
    k2_pay2 (iblk2 V c 0 t) (iblk2 V c 1 t) (iblk2 V c 2 t) (iblk2 V c 3 t) (iblk2 V c 4 t) (ix2 p j)
      = Cert.Spec.mm (Cert.Spec.layer (V c main_v59) (V c main_v47_1) (V c main_v28) (V c main_v30)) (V c main_arg7) (ix2 r j) := by
  refine (final2_pay2_apply (iblk2 V c 0 t) (iblk2 V c 1 t) (iblk2 V c 2 t) (iblk2 V c 3 t) (iblk2 V c 4 t) p j).trans ?_
  refine Eq.trans ?_ (final2_mm_apply (Cert.Spec.layer (V c main_v59) (V c main_v47_1) (V c main_v28) (V c main_v30)) (V c main_arg7) r j).symm
  refine Finset.sum_congr rfl fun k _ => ?_
  rw [final2_blk5 V c t p k r hr, final2_read4 V c t k j]

/-- A row below 100000 is row p of block t with t = row / 5000 and p = row % 5000. -/
theorem final2_row (t : Fin cfg2.N) (p : Fin 5000) : 5000 * t.val + p.val < 100000 := by
  have ht : t.val < grid2.N := t.isLt
  rw [N_2] at ht
  have hp := p.isLt
  omega

/-- WHAT POINT `t` WRITES BACK to output 5 is block `t` of the graph-convolution update of the arrays. -/
theorem final2_flushed5 (c : Dev nD) (t : Fin cfg2.N) :
    (dat2 V c).flushed 5 t = ((cfg2.win 5).blk t).view.read (Elt Ideal) (Cert.Spec.layer (V c main_v59) (V c main_v47_1) (V c main_v28) (V c main_v30)) := by
  show (cfg2.win 5).cut (grid2.coords t) ((dat2 V c).after 5 t) = _
  rw [after2_5]
  unfold out2_5
  rw [View.canon_unit_zero final2_hz]
  simp only [View.ld_unit_zero (S := S5000x64) final2_hz, View.ld_unit_zero (S := S5000x1) final2_hz, View.ld_unit_zero (S := S1x64) final2_hz]
  funext y
  obtain ⟨p, q, rfl⟩ : ∃ (p : Fin 5000) (q : Fin 64), y = ix2 p q := ⟨y 0, y 1, eq_ix2 y⟩
  show k2_pay1 (iblk2 V c 0 t) (iblk2 V c 1 t) (iblk2 V c 2 t) (iblk2 V c 3 t) (ix2 p q)
    = Cert.Spec.layer (V c main_v59) (V c main_v47_1) (V c main_v28) (V c main_v30) (((cfg2.win 5).blk t).view.emb (ix2 p q))
  rw [final2_emb5 t p q ⟨5000 * t.val + p.val, final2_row t p⟩ rfl]
  exact final2_blk5 V c t p q ⟨5000 * t.val + p.val, final2_row t p⟩ rfl

/-- WHAT POINT `t` WRITES BACK to output 6 is block `t` of the dense layer's product. -/
theorem final2_flushed6 (c : Dev nD) (t : Fin cfg2.N) :
    (dat2 V c).flushed 6 t = ((cfg2.win 6).blk t).view.read (Elt Ideal)
      (Cert.Spec.mm (Cert.Spec.layer (V c main_v59) (V c main_v47_1) (V c main_v28) (V c main_v30)) (V c main_arg7)) := by
  show (cfg2.win 6).cut (grid2.coords t) ((dat2 V c).after 6 t) = _
  rw [after2_6]
  unfold out2_6
  rw [View.canon_unit_zero final2_hz]
  simp only [View.ld_unit_zero (S := S5000x64) final2_hz, View.ld_unit_zero (S := S5000x1) final2_hz, View.ld_unit_zero (S := S1x64) final2_hz, View.ld_unit_zero (S := S64x64) final2_hz]
  funext y
  obtain ⟨p, q, rfl⟩ : ∃ (p : Fin 5000) (q : Fin 64), y = ix2 p q := ⟨y 0, y 1, eq_ix2 y⟩
  show k2_pay2 (iblk2 V c 0 t) (iblk2 V c 1 t) (iblk2 V c 2 t) (iblk2 V c 3 t) (iblk2 V c 4 t) (ix2 p q)
    = Cert.Spec.mm (Cert.Spec.layer (V c main_v59) (V c main_v47_1) (V c main_v28) (V c main_v30)) (V c main_arg7) (((cfg2.win 6).blk t).view.emb (ix2 p q))
  rw [final2_emb6 t p q ⟨5000 * t.val + p.val, final2_row t p⟩ rfl]
  exact final2_blk6 V c t p q ⟨5000 * t.val + p.val, final2_row t p⟩ rfl

/-! ## The twenty blocks tile the rows -/

/-- An entry of the array is in point `t`'s block of output 5 iff each coordinate is in the block's range. -/
theorem final2_mem5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v60_0).slice (win2_5.rect t)).set ↔ _
  rw [View.set_slice_whole, Rect.mem_set_unit]
  exact Iff.rfl
theorem final2_mem6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v60_1).slice (win2_6.rect t)).set ↔ _
  rw [View.set_slice_whole, Rect.mem_set_unit]
  exact Iff.rfl

/-- Row r is written back by point r / 5000. -/
theorem final2_cover5 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < grid2.N := by rw [N_2]; omega
  obtain ⟨e00, e01, e10, e11, e20, e21, e30, e31, e40, e41, e50, e51, e60, e61⟩ := final2_idx ⟨(i 0).val / 5000, hN⟩
  refine ⟨⟨(i 0).val / 5000, hN⟩, flush2_5 _, ?_⟩
  rw [final2_mem5]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    have e : win2_5.index ⟨(i 0).val / 5000, hN⟩ (0 : Fin 2) = (i 0).val / 5000 := e50
    omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    omega
theorem final2_cover6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : (i 0).val / 5000 < grid2.N := by rw [N_2]; omega
  obtain ⟨e00, e01, e10, e11, e20, e21, e30, e31, e40, e41, e50, e51, e60, e61⟩ := final2_idx ⟨(i 0).val / 5000, hN⟩
  refine ⟨⟨(i 0).val / 5000, hN⟩, flush2_6 _, ?_⟩
  rw [final2_mem6]
  intro a
  match a with
  | ⟨0, _⟩ =>
    show win2_6.index ⟨(i 0).val / 5000, hN⟩ (0 : Fin 2) * 5000 ≤ (i 0).val ∧ (i 0).val < win2_6.index ⟨(i 0).val / 5000, hN⟩ (0 : Fin 2) * 5000 + 5000
    have e : win2_6.index ⟨(i 0).val / 5000, hN⟩ (0 : Fin 2) = (i 0).val / 5000 := e60
    omega
  | ⟨1, _⟩ =>
    show win2_6.index ⟨(i 0).val / 5000, hN⟩ (1 : Fin 2) * 64 ≤ (i 1).val ∧ (i 1).val < win2_6.index ⟨(i 0).val / 5000, hN⟩ (1 : Fin 2) * 64 + 64
    omega

/-! ## The arrays after the run -/

/-- Output 5 after the twenty points is the graph-convolution update of the arrays the region found. -/
theorem final2_5 (c : Dev nD) :
    (dat2 (F := Ideal) V c).arrAt 5 cfg2.N = Cert.Spec.layer (V c main_v59) (V c main_v47_1) (V c main_v28) (V c main_v30) :=
  (dat2 V c).arrAt_eq_of_cover 5 _ (fun t _ => final2_flushed5 V c t) final2_cover5

/-- Output 6 after the twenty points is that update times the weights. -/
theorem final2_6 (c : Dev nD) :
    (dat2 (F := Ideal) V c).arrAt 6 cfg2.N
      = Cert.Spec.mm (Cert.Spec.layer (V c main_v59) (V c main_v47_1) (V c main_v28) (V c main_v30)) (V c main_arg7) :=
  (dat2 V c).arrAt_eq_of_cover 6 _ (fun t _ => final2_flushed6 V c t) final2_cover6

end Cert.KernelIdeal.Hand

end
-- ==== Proof.KI.Val3.lean ====
import proofs.«419973_j8177617732163_2_alg».proof.Proof.KI.Reg3
import proofs.«419973_j8177617732163_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.Pipeline (Dat)
open Idealize.ShloMosaic.ValueIdx
-- the TensorCore's buffer contents when the region is entered, at the ideal values
variable (V : (c : Dev nD) → (b : Ref sig .tc) → Buf (Elt Ideal) ((c : Thread nD τ).loc b))

/-- The zero offsets of a whole-block access, spelt as the constant function. -/
theorem zeroOff3 : (![0, 0] : Fin 2 → Nat) = fun _ => 0 := funext fun a => by fin_cases a <;> rfl

/-- The one whole-block store leaves its payload, and each whole-block load reads its operand. -/
theorem out3_4_eq (x0 x1 : Vec Ideal S5000x64 .f32) (x2 : Vec Ideal S5000x1 .f32) (x3 : Vec Ideal S1x64 .f32) :
    out3_4 x0 x1 x2 x3 = k3_pay1 x0 x1 x2 x3 := by
  unfold out3_4
  rw [View.canon_unit_zero zeroOff3]
  simp only [View.ld_unit_zero (S := S5000x64) zeroOff3, View.ld_unit_zero (S := S5000x1) zeroOff3, View.ld_unit_zero (S := S1x64) zeroOff3]

/-- A column [a, 1] broadcast to [a, b] reads, at (p, q), the column's entry p. -/
theorem broadcastTo_a1_ab_apply3 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's value at row p, column q: max(x0 + x1 * (x2 at row p) + (x3 at column q), 0). -/
theorem k3_pay1_apply (x0 x1 : Vec Ideal S5000x64 .f32) (x2 : Vec Ideal S5000x1 .f32) (x3 : Vec Ideal S1x64 .f32) (p : Fin 5000) (q : Fin 64) :
    k3_pay1 x0 x1 x2 x3 (ix2 p q)
      = max (x0 (ix2 p q) + x1 (ix2 p q) * x2 (ix2 p (0 : Fin 1)) + x3 (ix2 (0 : Fin 1) q)) (Ideal.ofBits .f32 0x00000000#32) := by
  unfold k3_pay1
  simp only [shapeCast_self]
  show max (x0 (ix2 p q) + x1 (ix2 p q) * broadcastTo S5000x64 x2 broadcasts_S5000x1_S5000x64 (ix2 p q)
      + broadcastTo S5000x64 x3 broadcasts_S1x64_S5000x64 (ix2 p q)) _ = _
  rw [broadcastTo_a1_ab_apply3 x2 broadcasts_S5000x1_S5000x64 p q, broadcastTo_1b_ab_apply x3 broadcasts_S1x64_S5000x64 p q]
  rfl

/-- A column [a, 1] broadcast in dimensions (0, 1) to [a, b] reads, at (r, q), the column's entry r. -/
theorem broadcastInDim_oneCol_apply3 {α : Type} {a b : ℕ} (hbc : (⟨2, ![a, 1]⟩ : Shape).BroadcastsInDim ⟨2, ![a, b]⟩ ![0, 1])
    (y : (⟨2, ![a, 1]⟩ : Shape).Idx → α) (r : Fin a) (q : Fin b) :
    broadcastInDim ⟨2, ![a, b]⟩ ![0, 1] hbc y (ix2 r q) = y (ix2 r (0 : Fin 1)) := by
  refine broadcastInDim_apply ![0, 1] hbc y (ix2 r q) (ix2 r (0 : Fin 1)) ?_
  intro ax
  match ax with
  | ⟨0, _⟩ =>
    show r.val = if a = 1 then 0 else r.val
    split
    · have := r.isLt; omega
    · rfl
  | ⟨1, _⟩ =>
    show (0 : ℕ) = if (1 : ℕ) = 1 then 0 else _
    simp

/-- The layer update at row r, column q: max(agg + h * (d2 at row r) + (b at column q), 0). -/
theorem layer_apply3 (agg h : (⟨Cert.ReferenceIdeal.S100000x64, .f32⟩ : BufTy).Contents (Elt Ideal))
    (d2 : (⟨Cert.ReferenceIdeal.S100000x1, .f32⟩ : BufTy).Contents (Elt Ideal))
    (b : (⟨Cert.ReferenceIdeal.S1x64, .f32⟩ : BufTy).Contents (Elt Ideal)) (r : Fin 100000) (q : Fin 64) :
    Cert.Spec.layer (F := Ideal) agg h d2 b (ix2 r q)
      = max (agg (ix2 r q) + h (ix2 r q) * d2 (ix2 r (0 : Fin 1)) + b (ix2 (0 : Fin 1) q)) (Ideal.ofBits .f32 0x00000000#32) := by
  unfold Cert.Spec.layer
  show max (agg (ix2 r q) + h (ix2 r q) * broadcastInDim Cert.ReferenceIdeal.S100000x64 ![0, 1] _ d2 (ix2 r q)
      + broadcastInDim Cert.ReferenceIdeal.S100000x64 ![0, 1] _ b (ix2 r q))
      (broadcastInDim Cert.ReferenceIdeal.S100000x64 ![] _ (constant (F := Ideal) Cert.ReferenceIdeal.S_ .f32 0x00000000#32) (ix2 r q)) = _
  rw [broadcastInDim_oneCol_apply3 _ d2 r q, broadcastInDim_oneRow_apply _ b r q, broadcastInDim_scalar_apply]
  rfl

/-! ## The blocks as rows of the arrays -/

/-- Row p of the block at point t is row 5000 t + p of the array. -/
def row3 (t : Fin cfg3.N) (p : Fin 5000) : Fin 100000 :=
  ⟨5000 * t.val + p.val, by have hN : cfg3.N = 20 := N_3; have := t.isLt; have := p.isLt; omega⟩

/-- The printed index maps over the grid: windows 0, 1, 2, 4 are at block row t, column block 0; window 3 stays at
    block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of window 0's block at point t is row 5000 t + p of its array. -/
theorem iblk3_0_apply (c : Dev nD) (t : Fin cfg3.N) (p : Fin 5000) (q : Fin 64) :
    (iblk3 V c 0 t : Vec Ideal S5000x64 .f32) (ix2 p q) = (V c main_v72 : S100000x64.Idx → Elt Ideal .f32) (ix2 (row3 t p) q) := by
  obtain ⟨e00, e01, -, -, -, -, -, -, -, -⟩ := idx_facts3 t
  unfold iblk3
  rw [View.read_apply]
  show (V c main_v72 : S100000x64.Idx → Elt Ideal .f32) _ = _
  refine congrArg (V c main_v72 : S100000x64.Idx → Elt Ideal .f32) (funext fun a => Fin.ext ?_)
  match a with
  | ⟨0, _⟩ => show win3_0.index t (0 : Fin 2) * 5000 + 1 * p.val = 5000 * t.val + p.val; omega
  | ⟨1, _⟩ => show win3_0.index t (1 : Fin 2) * 64 + 1 * q.val = q.val; omega

/-- Row p of window 1's block at point t is row 5000 t + p of its array. -/
theorem iblk3_1_apply (c : Dev nD) (t : Fin cfg3.N) (p : Fin 5000) (q : Fin 64) :
    (iblk3 V c 1 t : Vec Ideal S5000x64 .f32) (ix2 p q) = (V c main_v60_1 : S100000x64.Idx → Elt Ideal .f32) (ix2 (row3 t p) q) := by
  obtain ⟨-, -, e10, e11, -, -, -, -, -, -⟩ := idx_facts3 t
  unfold iblk3
  rw [View.read_apply]
  show (V c main_v60_1 : S100000x64.Idx → Elt Ideal .f32) _ = _
  refine congrArg (V c main_v60_1 : S100000x64.Idx → Elt Ideal .f32) (funext fun a => Fin.ext ?_)
  match a with
  | ⟨0, _⟩ => show win3_1.index t (0 : Fin 2) * 5000 + 1 * p.val = 5000 * t.val + p.val; omega
  | ⟨1, _⟩ => show win3_1.index t (1 : Fin 2) * 64 + 1 * q.val = q.val; omega

/-- Row p of window 2's block at point t is row 5000 t + p of its array. -/
theorem iblk3_2_apply (c : Dev nD) (t : Fin cfg3.N) (p : Fin 5000) :
    (iblk3 V c 2 t : Vec Ideal S5000x1 .f32) (ix2 p (0 : Fin 1)) = (V c main_v28 : S100000x1.Idx → Elt Ideal .f32) (ix2 (row3 t p) (0 : Fin 1)) := by
  obtain ⟨-, -, -, -, e20, e21, -, -, -, -⟩ := idx_facts3 t
  unfold iblk3
  rw [View.read_apply]
  show (V c main_v28 : S100000x1.Idx → Elt Ideal .f32) _ = _
  refine congrArg (V c main_v28 : S100000x1.Idx → Elt Ideal .f32) (funext fun a => Fin.ext ?_)
  match a with
  | ⟨0, _⟩ => show win3_2.index t (0 : Fin 2) * 5000 + 1 * p.val = 5000 * t.val + p.val; omega
  | ⟨1, _⟩ => show win3_2.index t (1 : Fin 2) * 1 + 1 * 0 = 0; omega

/-- Window 3's block at every point is the whole bias row. -/
theorem iblk3_3_apply (c : Dev nD) (t : Fin cfg3.N) (q : Fin 64) :
    (iblk3 V c 3 t : Vec Ideal S1x64 .f32) (ix2 (0 : Fin 1) q) = (V c main_v31 : S1x64.Idx → Elt Ideal .f32) (ix2 (0 : Fin 1) q) := by
  obtain ⟨-, -, -, -, -, -, e30, e31, -, -⟩ := idx_facts3 t
  unfold iblk3
  rw [View.read_apply]
  show (V c main_v31 : S1x64.Idx → Elt Ideal .f32) _ = _
  refine congrArg (V c main_v31 : S1x64.Idx → Elt Ideal .f32) (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- Entry (p, q) of the output block at point t is entry (5000 t + p, q) of the output array. -/
theorem emb3_4 (t : Fin cfg3.N) (p : Fin 5000) (q : Fin 64) :
    (((cfg3.win 4).blk t).view.emb (ix2 p q) : S100000x64.Idx) = ix2 (row3 t p) q := by
  obtain ⟨-, -, -, -, -, -, -, -, e40, e41⟩ := idx_facts3 t
  funext a
  apply Fin.ext
  match a with
  | ⟨0, _⟩ => show win3_4.index t (0 : Fin 2) * 5000 + 1 * p.val = 5000 * t.val + p.val; omega
  | ⟨1, _⟩ => show win3_4.index t (1 : Fin 2) * 64 + 1 * q.val = q.val; omega

/-! ## What each point writes back, and the whole array -/

/-- What point t writes back is block t of the layer update of the four entry arrays: at row p, column q of the block
    both sides are max(agg + h * d2 + b, 0) read at row 5000 t + p, column q (the column's entry at that row, the
    bias row's entry at that column). -/
theorem flushed3_eq (c : Dev nD) (t : Fin cfg3.N) :
    (dat3 (F := Ideal) V c).flushed 4 t = ((cfg3.win 4).blk t).view.read (Elt Ideal)
      (Cert.Spec.layer (V c main_v72) (V c main_v60_1) (V c main_v28) (V c main_v31)) := by
  show (cfg3.win 4).cut (grid3.coords t) ((dat3 (F := Ideal) V c).after 4 t) = _
  rw [after3_4, out3_4_eq]
  funext j
  obtain ⟨p, q, rfl⟩ : ∃ (p : Fin 5000) (q : Fin 64), j = ix2 p q := ⟨j 0, j 1, eq_ix2 j⟩
  rw [View.read_apply]
  show k3_pay1 (iblk3 V c 0 t) (iblk3 V c 1 t) (iblk3 V c 2 t) (iblk3 V c 3 t) (ix2 p q)
    = Cert.Spec.layer (V c main_v72) (V c main_v60_1) (V c main_v28) (V c main_v31) (((cfg3.win 4).blk t).view.emb (ix2 p q) : S100000x64.Idx)
  rw [emb3_4 t p q]
  refine (k3_pay1_apply (iblk3 V c 0 t) (iblk3 V c 1 t) (iblk3 V c 2 t) (iblk3 V c 3 t) p q).trans ?_
  refine Eq.trans ?_ (layer_apply3 (V c main_v72) (V c main_v60_1) (V c main_v28) (V c main_v31) (row3 t p) q).symm
  rw [iblk3_0_apply V c t p q, iblk3_1_apply V c t p q, iblk3_2_apply V c t p, iblk3_3_apply V c t q]

/-- An index of the output array is in point t's block iff each coordinate is in the block's range on its axis. -/
theorem mem_blk3_4 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v73).slice (win3_4.rect t)).set ↔ _
  rw [View.set_slice_whole, Rect.mem_set_unit]
  exact Iff.rfl

/-- The 20 blocks of 5000 rows tile the 100000 rows: row r is in the block of point r / 5000. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  have ht : (i 0).val / 5000 < cfg3.N := by omega
  obtain ⟨-, -, -, -, -, -, -, -, e40, e41⟩ := idx_facts3 ⟨(i 0).val / 5000, ht⟩
  refine ⟨⟨(i 0).val / 5000, ht⟩, flush3_4 _, ?_⟩
  rw [mem_blk3_4]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, ht⟩ (1 : Fin 2) * 64 ≤ (i 1).val ∧ (i 1).val < win3_4.index ⟨(i 0).val / 5000, ht⟩ (1 : Fin 2) * 64 + 64
    rw [e41]
    omega

/-- After the region the output array is the layer update of the four entry arrays. -/
theorem final3 (c : Dev nD) : (dat3 (F := Ideal) V c).arrAt 4 cfg3.N
    = Cert.Spec.layer (V c main_v72) (V c main_v60_1) (V c main_v28) (V c main_v31) :=
  (dat3 (F := Ideal) V c).arrAt_eq_of_cover 4 _ (fun t _ => flushed3_eq V c t) cover3

end Cert.KernelIdeal.Hand

end
-- ==== Proof.LibRows.lean ====
/-
  Gathers and scatter-adds along the leading axis, read at an index, on the extended reals.

  `x[idx]` for a matrix `x : [N, C]` (or a vector `x : [N]`) and a column of indices `idx : [R, 1]` lowers to a gather
  with collapsed_slice_dims [0], start_index_map [0], index_vector_dim 1 (offset_dims [1] and slice sizes [1, C] for the
  matrix; no offset dims and slice sizes [1] for the vector): result row `r` is the operand's row at `idx[r, 0]` read
  as a signed integer and clamped into [0, N − 1]. The matching scatter-add (inserted_window_dims [0],
  scatter_dims_to_operand_dims [0], index_vector_dim 1; update_window_dims [1] for the matrix, none for the vector) adds
  update row `r` onto operand row `idx[r, 0]`, read signed and NOT clamped, and drops it when that is no row.
  Before a gather jnp wraps a negative index once by the axis size: `select (v < 0) (v + n) v`.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- A matrix, a vector and a column of index words, as the host operations see them. -/
abbrev Arr2 (N C : Nat) : Type := (⟨2, ![N, C]⟩ : Shape).Idx → EReal
abbrev Arr1 (N : Nat) : Type := (⟨1, ![N]⟩ : Shape).Idx → EReal
abbrev IdxCol (R : Nat) : Type := (⟨2, ![R, 1]⟩ : Shape).Idx → BitVec 32

/-- A signed index word clamped to a row of an axis of `N` rows. -/
def clampRow {N : Nat} (hN : 0 < N) (w : BitVec 32) : Fin N := ⟨min w.toInt.toNat (N - 1), by omega⟩

/-- jnp's wrap of a negative index, once, by the axis size. -/
def wrapN (n : Nat) (v : BitVec 32) : BitVec 32 := if v.toInt < 0 then v + BitVec.ofNat 32 n else v

/-- The dimension numbers of a row gather; their conditions `wf` are decided on a program's literal shapes. -/
abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of an entry gather from a vector. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of a row scatter. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The dimension numbers of an entry scatter into a vector. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- THE ROW GATHER READ AT AN INDEX: row `clamp (idx[r, 0])` of the operand. -/
theorem gather_rows_apply {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) (r : Fin R) (j : Fin C) :
    Host.gather (rowGatherDims N C R wf) x idx (ix2 r j) = x (ix2 (clampRow hN (idx (ix2 r 0))) j) := by
  unfold Host.gather
  congr 1
  funext a
  refine Fin.ext ?_
  match a with
  | ⟨0, _⟩ =>
    show (rowGatherDims N C R wf).start (ix2 r j) idx 0 + (rowGatherDims N C R wf).batchCoord (ix2 r j) 0
      + (rowGatherDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r j) ⟨List.idxOf (0 : Fin 2) (rowGatherDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGatherDims N C R wf).start (ix2 r j) idx 1 + (rowGatherDims N C R wf).batchCoord (ix2 r j) 1
      + (rowGatherDims N C R wf).offCoord (ix2 r j) 1 = j.val
    rw [GatherDims.batchCoord_eq_zero _ _ _ List.not_mem_nil]
    have hs : (rowGatherDims N C R wf).start (ix2 r j) idx 1 = 0 := by
      unfold GatherDims.start
      rw [dif_neg (show (1 : Fin 2) ∉ [(0 : Fin 2)] by decide)]
    have hk : (1 : Fin 2) ∈ (rowGatherDims N C R wf).sKept :=
      (GatherDims.mem_sKept _ _).mpr ⟨(show (1 : Fin 2) ∉ [(0 : Fin 2)] by decide), List.not_mem_nil⟩
    have ho : (rowGatherDims N C R wf).offCoord (ix2 r j) 1 = j.val := by
      unfold GatherDims.offCoord
      rw [dif_pos hk]
      rfl
    rw [hs, ho]
    simp only [Nat.add_zero, Nat.zero_add]

/-- THE ENTRY GATHER READ AT AN INDEX: entry `clamp (idx[r, 0])` of the operand. -/
theorem gather_vec_apply {N R : Nat} (hN : 0 < N)
    (wf : GatherDims.WF ⟨1, ![N]⟩ ⟨2, ![R, 1]⟩ ⟨1, ![R]⟩ [] [0] [] [0] [] 1 ![1])
    (x : Arr1 N) (idx : IdxCol R) (r : Fin R) :
    Host.gather (vecGatherDims N R wf) x idx (ix1 r) = x (ix1 (clampRow hN (idx (ix2 r 0)))) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The start of update `(k, b)`'s window: on the row axis the index of row `k`, read signed; on the column axis zero. -/
theorem start_rows0 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 0 = (idx (ix2 k 0)).toInt := by
  unfold ScatterDims.start
  rw [dif_pos (show (0 : Fin 2) ∈ (rowScatterDims N C R wf).scatterDimsToOperandDims from List.mem_singleton.mpr rfl)]
  have hsi : (rowScatterDims N C R wf).siIdx (ix2 k b) ⟨List.idxOf (0 : Fin 2) (rowScatterDims N C R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- On the column axis the window of an update starts at zero. -/
theorem start_rows1 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 1 = 0 := by
  unfold ScatterDims.start
  rw [dif_neg (show (1 : Fin 2) ∉ [(0 : Fin 2)] by decide)]

/-- The window coordinate of update `(k, b)`: zero on the row axis, `b` on the column axis. -/
theorem window_rows0 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 0 = 0 := by
  unfold ScatterDims.window
  rw [dif_neg (show (0 : Fin 2) ∉ (rowScatterDims N C R wf).sKept by
    simp [ScatterDims.sKept, Shape.kept, List.mem_filter])]

/-- On the column axis the window coordinate of update `(k, b)` is `b`. -/
theorem window_rows1 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 1 = b.val := by
  unfold ScatterDims.window
  rw [dif_pos (show (1 : Fin 2) ∈ (rowScatterDims N C R wf).sKept by
    simp [ScatterDims.sKept, Shape.kept, List.mem_filter, List.mem_finRange])]
  rfl

/-- Update `(k, b)` lands on `(v, j)` exactly when row `k`'s index, read signed, is `v` and `b` is `j`. -/
theorem resultIdx_rows {N C R : Nat} (wf : ScatterDims.WF ⟨2, ![N, C]⟩ ⟨2, ![R, 1]⟩ ⟨2, ![R, C]⟩ [1] [0] [0] 1)
    (idx : IdxCol R) (k : Fin R) (b : Fin C) (v : Fin N) (j : Fin C) :
    ((rowScatterDims N C R wf).resultIdx? (ix2 k b) idx = some (ix2 v j))
      ↔ ((idx (ix2 k 0)).toInt = (v.val : Int) ∧ j = b) := by
  have hv : v.val < N := v.isLt
  have hb : b.val < C := b.isLt
  unfold ScatterDims.resultIdx?
  split
  · rename_i h
    rw [Option.some.injEq]
    constructor
    · intro hf
      have h0 : ((rowScatterDims N C R wf).start (ix2 k b) idx 0
          + ((rowScatterDims N C R wf).window (ix2 k b) 0 : Nat)).toNat = v.val := congrArg (fun f => (f 0).val) hf
      have h1 : ((rowScatterDims N C R wf).start (ix2 k b) idx 1
          + ((rowScatterDims N C R wf).window (ix2 k b) 1 : Nat)).toNat = j.val := congrArg (fun f => (f 1).val) hf
      have g0 := (h 0).1
      simp only [start_rows0, start_rows1, window_rows0, window_rows1] at h0 h1 g0
      refine ⟨?_, Fin.ext ?_⟩
      · omega
      · omega
    · rintro ⟨h0, h1⟩
      have h1' : j.val = b.val := congrArg Fin.val h1
      funext a
      refine Fin.ext ?_
      match a with
      | ⟨0, _⟩ =>
        show ((rowScatterDims N C R wf).start (ix2 k b) idx 0 + ((rowScatterDims N C R wf).window (ix2 k b) 0 : Nat)).toNat = v.val
        rw [start_rows0, window_rows0]
        omega
      | ⟨1, _⟩ =>
        show ((rowScatterDims N C R wf).start (ix2 k b) idx 1 + ((rowScatterDims N C R wf).window (ix2 k b) 1 : Nat)).toNat = j.val
        rw [start_rows1, window_rows1]
        omega
  · rename_i h
    constructor
    · intro hf
      exact absurd hf (by simp)
    · rintro ⟨h0, h1⟩
      have h1' : j.val = b.val := congrArg Fin.val h1
      exfalso
      apply h
      intro a
      match a with
      | ⟨0, _⟩ =>
        show 0 ≤ (rowScatterDims N C R wf).start (ix2 k b) idx 0 + ((rowScatterDims N C R wf).window (ix2 k b) 0 : Nat)
          ∧ (rowScatterDims N C R wf).start (ix2 k b) idx 0 + ((rowScatterDims N C R wf).window (ix2 k b) 0 : Nat) < (N : Int)
        rw [start_rows0, window_rows0]
        omega
      | ⟨1, _⟩ =>
        show 0 ≤ (rowScatterDims N C R wf).start (ix2 k b) idx 1 + ((rowScatterDims N C R wf).window (ix2 k b) 1 : Nat)
          ∧ (rowScatterDims N C R wf).start (ix2 k b) idx 1 + ((rowScatterDims N C R wf).window (ix2 k b) 1 : Nat) < (C : Int)
        rw [start_rows1, window_rows1]
        omega

/-- THE ROW SCATTER-ADD READ AT AN INDEX: the operand's entry plus the sum of the update entries of the same column in
    the rows whose index, read signed, is this row. -/
theorem scatterAdd_rows_apply {N C R : Nat} (wf : ScatterDims.WF ⟨2, ![N, C]⟩ ⟨2, ![R, 1]⟩ ⟨2, ![R, C]⟩ [1] [0] [0] 1)
    (x : Arr2 N C) (idx : IdxCol R) (u : Arr2 R C) (v : Fin N) (j : Fin C) :
    Host.scatterAdd (F := Ideal) (φ := .f32) (rowScatterDims N C R wf) x idx u (ix2 v j)
      = x (ix2 v j) + ∑ e : Fin R, if (idx (ix2 e 0)).toInt = (v.val : Int) then u (ix2 e j) else 0 := by
  show x (ix2 v j) + ∑ q ∈ Finset.univ.filter (fun q => (rowScatterDims N C R wf).resultIdx? q idx = some (ix2 v j)), u q
    = x (ix2 v j) + ∑ e : Fin R, if (idx (ix2 e 0)).toInt = (v.val : Int) then u (ix2 e j) else 0
  congr 1
  rw [Finset.sum_filter, sum_idx2]
  refine Finset.sum_congr rfl fun k _ => ?_
  simp only [resultIdx_rows wf idx k _ v j]
  by_cases h : (idx (ix2 k 0)).toInt = (v.val : Int)
  · simp only [h, true_and, Finset.sum_ite_eq, Finset.mem_univ, if_true]
  · simp only [h, false_and, if_false, Finset.sum_const_zero]

/-- A sum over a vector's indices is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The start of update `k`'s window in a vector: the index of row `k`, read signed. -/
theorem start_vec {N R : Nat} (wf : ScatterDims.WF ⟨1, ![N]⟩ ⟨2, ![R, 1]⟩ ⟨1, ![R]⟩ [] [0] [0] 1)
    (idx : IdxCol R) (k : Fin R) :
    (vecScatterDims N R wf).start (ix1 k) idx 0 = (idx (ix2 k 0)).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- An entry update has no window: its window coordinate is zero. -/
theorem window_vec {N R : Nat} (wf : ScatterDims.WF ⟨1, ![N]⟩ ⟨2, ![R, 1]⟩ ⟨1, ![R]⟩ [] [0] [0] 1)
    (k : Fin R) : (vecScatterDims N R wf).window (ix1 k) 0 = 0 := by
  unfold ScatterDims.window
  rw [dif_neg (show (0 : Fin 1) ∉ (vecScatterDims N R wf).sKept by
    simp [ScatterDims.sKept, Shape.kept, List.mem_filter])]

/-- Update `k` lands on entry `v` exactly when row `k`'s index, read signed, is `v`. -/
theorem resultIdx_vec {N R : Nat} (wf : ScatterDims.WF ⟨1, ![N]⟩ ⟨2, ![R, 1]⟩ ⟨1, ![R]⟩ [] [0] [0] 1)
    (idx : IdxCol R) (k : Fin R) (v : Fin N) :
    ((vecScatterDims N R wf).resultIdx? (ix1 k) idx = some (ix1 v)) ↔ (idx (ix2 k 0)).toInt = (v.val : Int) := by
  have hv : v.val < N := v.isLt
  unfold ScatterDims.resultIdx?
  split
  · rename_i h
    rw [Option.some.injEq]
    constructor
    · intro hf
      have h0 : ((vecScatterDims N R wf).start (ix1 k) idx 0
          + ((vecScatterDims N R wf).window (ix1 k) 0 : Nat)).toNat = v.val := congrArg (fun f => (f 0).val) hf
      have g0 := (h 0).1
      simp only [start_vec, window_vec] at h0 g0
      omega
    · intro h0
      funext a
      obtain rfl : a = 0 := Subsingleton.elim _ _
      refine Fin.ext ?_
      show ((vecScatterDims N R wf).start (ix1 k) idx 0 + ((vecScatterDims N R wf).window (ix1 k) 0 : Nat)).toNat = v.val
      rw [start_vec, window_vec]
      omega
  · rename_i h
    constructor
    · intro hf
      exact absurd hf (by simp)
    · intro h0
      exfalso
      apply h
      intro a
      obtain rfl : a = 0 := Subsingleton.elim _ _
      show 0 ≤ (vecScatterDims N R wf).start (ix1 k) idx 0 + ((vecScatterDims N R wf).window (ix1 k) 0 : Nat)
        ∧ (vecScatterDims N R wf).start (ix1 k) idx 0 + ((vecScatterDims N R wf).window (ix1 k) 0 : Nat) < (N : Int)
      rw [start_vec, window_vec]
      omega

/-- THE ENTRY SCATTER-ADD READ AT AN INDEX. -/
theorem scatterAdd_vec_apply {N R : Nat} (wf : ScatterDims.WF ⟨1, ![N]⟩ ⟨2, ![R, 1]⟩ ⟨1, ![R]⟩ [] [0] [0] 1)
    (x : Arr1 N) (idx : IdxCol R) (u : Arr1 R) (v : Fin N) :
    Host.scatterAdd (F := Ideal) (φ := .f32) (vecScatterDims N R wf) x idx u (ix1 v)
      = x (ix1 v) + ∑ e : Fin R, if (idx (ix2 e 0)).toInt = (v.val : Int) then u (ix1 e) else 0 := by
  show x (ix1 v) + ∑ q ∈ Finset.univ.filter (fun q => (vecScatterDims N R wf).resultIdx? q idx = some (ix1 v)), u q
    = x (ix1 v) + ∑ e : Fin R, if (idx (ix2 e 0)).toInt = (v.val : Int) then u (ix1 e) else 0
  congr 1
  rw [Finset.sum_filter, sum_idx1]
  refine Finset.sum_congr rfl fun k _ => ?_
  simp only [resultIdx_vec wf idx k v]

/-- jnp's negative-index wrap, one word: `select (v < 0) (v + n) v`. -/
theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0
  · have hs : v.slt 0#32 = true := by simp [BitVec.slt, h]
    simp only [hs, if_pos h]
    rfl
  · have hs : v.slt 0#32 = false := by simp [BitVec.slt, h]
    simp only [hs, if_neg h]
    rfl

/-- A word that, read signed, is a row reads as that row after the wrap and the clamp. -/
theorem clamp_wrap_of_toInt {N : Nat} (hN : 0 < N) (w : BitVec 32) (v : Fin N) (h : w.toInt = (v.val : Int)) :
    clampRow hN (wrapN N w) = v := by
  have hv : v.val < N := v.isLt
  have hw : wrapN N w = w := by
    unfold wrapN
    rw [if_neg (by omega)]
  rw [hw]
  refine Fin.ext ?_
  show min w.toInt.toNat (N - 1) = v.val
  rw [h, Int.toNat_natCast]
  omega

end Cert.LibRows

end
-- ==== Proof.LibPool.lean ====
/-
  The graph readout's mathematics on the extended reals.

  A matrix of node rows `x : [R, C]` and a column of 32-bit graph ids `ids : [R, 1]`. For a graph number `g` the
  per-graph sum at column `k` is the sum of `x (i, k)` over the rows `i` whose id word, read signed, is `g`; the
  per-graph count is the number of such rows. Two readings of these sums are joined here:

  * the host's scatter-add into zeros (along the leading axis, the id column read signed and not clamped) is that sum;
  * with the rows cut into `m` consecutive blocks of `n` (row `n * s + r` is row `r` of block `s`), the one-hot
    matrix `hot g w = 1` when the word `w` read signed is `g`, else `0`, times a block, summed over its rows, is the
    block's share; the shares of the blocks add up to the whole sum (`0 * x = 0` and `1 * x = x` hold for every
    extended real, the infinities included).

  Also: a matrix product with one contracted axis read at an index as a sum over that axis's coordinate, for the
  matrix unit's product and the host's; the words a one-hot comparison meets; the broadcast of a column along rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Logic.Equiv.Fin.Basic
import Mathlib.Algebra.BigOperators.Fin
import proofs.«419973_j8177617732163_2_alg».proof.Proof.LibRows

noncomputable section

namespace Cert.LibPool

open Idealize.ShloMosaic Idealize.ShloMosaic.ValueIdx Cert.LibRows

/-! ## Words -/

/-- A number below 2^31 written as a 32-bit word reads back, signed, as itself. -/
theorem toInt_ofNat_small (g : Nat) (hg : g < 2 ^ 31) : (BitVec.ofNat 32 g).toInt = (g : Int) := by
  have hn : (BitVec.ofNat 32 g).toNat = g := by rw [BitVec.toNat_ofNat]; exact Nat.mod_eq_of_lt (by omega)
  rw [BitVec.toInt_eq_toNat_of_lt (by rw [hn]; omega), hn]

/-- Such a word equals another word exactly when that word, read signed, is the number. -/
theorem ofNat_eq_iff (g : Nat) (hg : g < 2 ^ 31) (w : BitVec 32) : BitVec.ofNat 32 g = w ↔ w.toInt = (g : Int) := by
  constructor
  · rintro rfl; exact toInt_ofNat_small g hg
  · intro h; exact BitVec.eq_of_toInt_eq (by rw [toInt_ofNat_small g hg, h])

/-- The one-hot weight of a row whose id word is `w` in graph `g`'s line: one when the word read signed is `g`. -/
def hot (g : Nat) (w : BitVec 32) : EReal := if w.toInt = (g : Int) then 1 else 0

/-- A select on the equality of `g`'s word with an id word is the `if` on the id read signed. -/
theorem select_cmpi_eq {α : Type} (g : Nat) (hg : g < 2 ^ 31) (w : BitVec 32) (a b : α) :
    Scalar.select (IntOp.cmpi .eq (BitVec.ofNat 32 g) w) a b = if w.toInt = (g : Int) then a else b := by
  show (if BitVec.ofBool (BitVec.ofNat 32 g == w) = 1#1 then a else b) = _
  by_cases h : w.toInt = (g : Int)
  · have hb : (BitVec.ofNat 32 g == w) = true := beq_iff_eq.mpr ((ofNat_eq_iff g hg w).mpr h)
    rw [if_pos h, hb]
    rfl
  · have hb : (BitVec.ofNat 32 g == w) = false :=
      beq_eq_false_iff_ne.mpr (fun he => h ((ofNat_eq_iff g hg w).mp he))
    rw [if_neg h, hb]
    rfl

/-- A one-hot weight times a number keeps it on the hot row and is zero elsewhere, for every extended real. -/
theorem hot_mul (g : Nat) (w : BitVec 32) (y : EReal) : hot g w * y = if w.toInt = (g : Int) then y else 0 := by
  unfold hot
  split
  · exact one_mul y
  · exact zero_mul y

/-! ## Rows cut into consecutive blocks -/

/-- A sum over `m * n` rows is the sum over the `m` blocks of the sums over each block's `n` rows. -/
theorem sum_blocks {M : Type*} [AddCommMonoid M] (m n : Nat) (f : Fin (m * n) → M) :
    ∑ i, f i = ∑ s : Fin m, ∑ r : Fin n, f (finProdFinEquiv (s, r)) := by
  rw [← Equiv.sum_comp finProdFinEquiv f, Fintype.sum_prod_type]

/-- Row `r` of block `s` is row `n * s + r`. -/
theorem blockRow_lt {m n s r : Nat} (hs : s < m) (hr : r < n) : n * s + r < m * n := by
  calc n * s + r < n * s + n := by omega
    _ = n * (s + 1) := by rw [Nat.mul_succ]
    _ ≤ n * m := Nat.mul_le_mul_left n hs
    _ = m * n := Nat.mul_comm n m

/-- Block `s`'s share of graph `g`'s sum at column `k`: the one-hot line times the block, summed over the block's
    rows; zero past the last block (a value never used). -/
def share {R C : Nat} (m n : Nat) (hR : R = m * n) (ids : IdxCol R) (x : Arr2 R C) (g : Nat) (k : Fin C) (s : Nat) : EReal :=
  if hs : s < m then ∑ r : Fin n, hot g (ids (ix2 ⟨n * s + r.val, hR ▸ blockRow_lt hs r.isLt⟩ 0))
    * x (ix2 ⟨n * s + r.val, hR ▸ blockRow_lt hs r.isLt⟩ k) else 0

/-- THE BLOCKS' SHARES ADD UP to the sum over all rows whose id word, read signed, is `g`. -/
theorem sum_share {R C : Nat} (m n : Nat) (hR : R = m * n) (ids : IdxCol R) (x : Arr2 R C) (g : Nat) (k : Fin C) :
    ∑ s ∈ Finset.range m, share m n hR ids x g k s
      = ∑ i : Fin R, if (ids (ix2 i 0)).toInt = (g : Int) then x (ix2 i k) else 0 := by
  subst hR
  rw [sum_blocks m n, Finset.sum_range]
  refine Finset.sum_congr rfl fun s _ => ?_
  unfold share
  rw [dif_pos s.isLt]
  refine Finset.sum_congr rfl fun r _ => ?_
  have e : (finProdFinEquiv (s, r) : Fin (m * n)) = ⟨n * s.val + r.val, blockRow_lt s.isLt r.isLt⟩ :=
    Fin.ext (by show r.val + n * s.val = n * s.val + r.val; omega)
  rw [e, hot_mul]

/-! ## The host's scatter-add into zeros -/

/-- The row scatter-add of `x` into zeros, read at `(g, k)`: the sum of `x (i, k)` over the rows whose id is `g`. -/
theorem scatterAdd_rows_zero_apply {N C R : Nat} (wf : ScatterDims.WF ⟨2, ![N, C]⟩ ⟨2, ![R, 1]⟩ ⟨2, ![R, C]⟩ [1] [0] [0] 1)
    (z : Arr2 N C) (hz : ∀ i, z i = 0) (ids : IdxCol R) (x : Arr2 R C) (g : Fin N) (k : Fin C) :
    Host.scatterAdd (F := Ideal) (φ := .f32) (rowScatterDims N C R wf) z ids x (ix2 g k)
      = ∑ i : Fin R, if (ids (ix2 i 0)).toInt = (g.val : Int) then x (ix2 i k) else 0 := by
  rw [scatterAdd_rows_apply, hz, zero_add]

/-- The entry scatter-add of `u` into zeros, read at `g`. -/
theorem scatterAdd_vec_zero_apply {N R : Nat} (wf : ScatterDims.WF ⟨1, ![N]⟩ ⟨2, ![R, 1]⟩ ⟨1, ![R]⟩ [] [0] [0] 1)
    (z : Arr1 N) (hz : ∀ i, z i = 0) (ids : IdxCol R) (u : Arr1 R) (g : Fin N) :
    Host.scatterAdd (F := Ideal) (φ := .f32) (vecScatterDims N R wf) z ids u (ix1 g)
      = ∑ i : Fin R, if (ids (ix2 i 0)).toInt = (g.val : Int) then u (ix1 i) else 0 := by
  rw [scatterAdd_vec_apply, hz, zero_add]

/-! ## A matrix product with one contracted axis, read at an index -/

/-- The matrix unit's product of an `M x K` by a `K x N` matrix at `(p, q)`: the accumulator there plus the sum over
    the contracted coordinate. -/
theorem matmul_plain_apply {M K N : Nat} {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (q : Fin N) :
    FloatOps.matmul (DotDims.plain M K N) prec lhs rhs acc (ix2 p q)
      = acc (ix2 p q) + ∑ k : Fin K, lhs (ix2 p k) * rhs (ix2 k q) := by
  rw [Ideal.matmul_apply, ← Equiv.sum_comp (contrEquiv1 (DotDims.plain M K N) K rfl rfl).symm]
  congr 1
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- The host's product of the same shapes at `(p, q)`: the sum over the contracted coordinate. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-! ## A column broadcast along rows -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibPool

end
-- ==== Proof.KI.Pay4.lean ====
/-
  The pooling kernel's payloads read at an index, on the extended reals.

  * the one-hot matrix (512 graph lines by the 5000 rows of a block): entry (g, r) is one when the id word of row r,
    read signed, is g, else zero;
  * the sums' step: the old sums plus the one-hot matrix times the block, entry (g, k) the old entry plus the sum over
    the block's rows r of hot(g, r) * block(r, k);
  * the counts' step: the same against a column of ones;
  * the tail: sums divided by max(count, 1) along each graph's line, times the 64 x 8 readout matrix, plus the bias row,
    through the logistic function;
  * the two zero fills.
  A change of float format is the identity here, and a cast to the same shape is the identity everywhere.
-/
import proofs.«419973_j8177617732163_2_alg».proof.Proof.Gen.KernelIdeal.Skeleton
import proofs.«419973_j8177617732163_2_alg».proof.Proof.LibPool
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Cert.LibPool

/-! ## Constants and dimension numbers -/

/-- The f32 pattern of one is the extended real one. -/
theorem one_f32 : Ideal.ofBits .f32 0x3F800000#32 = 1 := IdealRules.sign_bit.ideal_onePat .f32
/-- The bf16 pattern of one is the extended real one. -/
theorem one_bf16 : Ideal.ofBits .bf16 0x3F80#16 = 1 := IdealRules.sign_bit.ideal_onePat .bf16

/-- The three contractions are plain rows-by-columns products. -/
theorem dot_sums_eq : dot_S512x5000_S5000x64_S512x64_1_0_0_1_n_n = DotDims.plain 512 5000 64 := rfl
theorem dot_cnts_eq : dot_S512x5000_S5000x1_S512x1_1_0_0_1_n_n = DotDims.plain 512 5000 1 := rfl
theorem dot_fc_eq : dot_S512x64_S64x8_S512x8_1_0_0_1_n_n = DotDims.plain 512 64 8 := rfl

/-! ## The zero fills -/

theorem pay1_apply (i : S512x64.Idx) : k4_pay1 (F := Ideal) i = 0 := by
  unfold k4_pay1
  rw [shapeCast_self]
  exact Ideal.ofBits_zero_f32

theorem pay2_apply (i : S512x1.Idx) : k4_pay2 (F := Ideal) i = 0 := by
  unfold k4_pay2
  rw [shapeCast_self]
  exact Ideal.ofBits_zero_f32

/-! ## The one-hot matrix -/

theorem pay3_apply (v4 : Vec Ideal S5000x1 .i32) (g : Fin 512) (r : Fin 5000) :
    k4_pay3 (F := Ideal) v4 (ix2 g r) = hot g.val (v4 (ix2 r 0)) := by
  unfold k4_pay3
  show Scalar.select (IntOp.cmpi .eq
        (broadcastTo S512x5000 (iota .tc S512x1 32 [0] iota_S512x1_d0_w32) broadcasts_S512x1_S512x5000 (ix2 g r))
        (broadcastTo S512x5000 (transpose S1x5000 [1, 0] (shapeCast S5000x1 v4 shapeCasts_S5000x1_S5000x1)
          transposes_S5000x1_p1_0_S1x5000) broadcasts_S1x5000_S512x5000 (ix2 g r)))
      (Ideal.ofBits .f32 0x3F800000#32) (Ideal.ofBits .f32 0x00000000#32) = _
  rw [broadcastTo_a1_ab_apply, iota_single_apply, broadcastTo_1b_ab_apply, transpose_ix2_apply, shapeCast_self,
    one_f32, Ideal.ofBits_zero_f32]
  exact select_cmpi_eq g.val (by have := g.isLt; omega) _ _ _

/-! ## The accumulation steps -/

theorem pay4_apply (v4 : Vec Ideal S5000x1 .i32) (v14 : Vec Ideal S5000x64 .f32) (v18 : Vec Ideal S512x64 .f32)
    (g : Fin 512) (k : Fin 64) :
    k4_pay4 (F := Ideal) v4 v14 v18 (ix2 g k)
      = v18 (ix2 g k) + ∑ r : Fin 5000, hot g.val (v4 (ix2 r 0)) * v14 (ix2 r k) := by
  unfold k4_pay4
  rw [shapeCast_self, shapeCast_self]
  show v18 (ix2 g k) + FloatOps.matmul dot_S512x5000_S5000x64_S512x64_1_0_0_1_n_n none (k4_pay3 (F := Ideal) v4)
      (truncf .bf16 v14 bitsLt_bf16_f32) (constant S512x64 .f32 0x00000000#32) (ix2 g k) = _
  rw [dot_sums_eq, matmul_plain_apply]
  congr 1
  show Ideal.ofBits .f32 0x00000000#32 + _ = _
  rw [Ideal.ofBits_zero_f32, zero_add]
  refine Finset.sum_congr rfl fun r _ => ?_
  rw [pay3_apply]
  rfl

theorem pay5_apply (v4 : Vec Ideal S5000x1 .i32) (v24 : Vec Ideal S512x1 .f32) (g : Fin 512) (j : Fin 1) :
    k4_pay5 (F := Ideal) v4 v24 (ix2 g j) = v24 (ix2 g j) + ∑ r : Fin 5000, hot g.val (v4 (ix2 r 0)) * 1 := by
  unfold k4_pay5
  rw [shapeCast_self]
  show v24 (ix2 g j) + FloatOps.matmul dot_S512x5000_S5000x1_S512x1_1_0_0_1_n_n none (k4_pay3 (F := Ideal) v4)
      (broadcast S5000x1 (Ideal.ofBits .bf16 0x3F80#16)) (constant S512x1 .f32 0x00000000#32) (ix2 g j) = _
  rw [dot_cnts_eq, matmul_plain_apply]
  congr 1
  show Ideal.ofBits .f32 0x00000000#32 + _ = _
  rw [Ideal.ofBits_zero_f32, zero_add]
  refine Finset.sum_congr rfl fun r _ => ?_
  rw [pay3_apply, broadcast_apply, one_bf16]

/-! ## The tail -/

theorem pay6_apply (S : Vec Ideal S512x64 .f32) (C : Vec Ideal S512x1 .f32) (W : Vec Ideal S64x8 .f32)
    (B : Vec Ideal S1x8 .f32) (g : Fin 512) (o : Fin 8) :
    k4_pay6 (F := Ideal) S C W B (ix2 g o)
      = Ideal.logistic ((∑ k : Fin 64, Ideal.div (S (ix2 g k)) (max (C (ix2 g 0)) 1) * W (ix2 k o)) + B (ix2 0 o)) := by
  unfold k4_pay6
  rw [shapeCast_self]
  show Ideal.logistic (FloatOps.matmul dot_S512x64_S64x8_S512x8_1_0_0_1_n_n none
        (truncf .bf16 (divf S (broadcastTo S512x64 (maximumf C (broadcast S512x1 (Ideal.ofBits .f32 0x3F800000#32)))
          broadcasts_S512x1_S512x64)) bitsLt_bf16_f32)
        (truncf .bf16 W bitsLt_bf16_f32) (constant S512x8 .f32 0x00000000#32) (ix2 g o)
      + broadcastTo S512x8 B broadcasts_S1x8_S512x8 (ix2 g o)) = _
  rw [dot_fc_eq, matmul_plain_apply, broadcastTo_1b_ab_apply]
  congr 2
  show Ideal.ofBits .f32 0x00000000#32 + _ = _
  rw [Ideal.ofBits_zero_f32, zero_add]
  refine Finset.sum_congr rfl fun k _ => ?_
  show Ideal.div (S (ix2 g k)) (broadcastTo S512x64 (maximumf C (broadcast S512x1 (Ideal.ofBits .f32 0x3F800000#32)))
      broadcasts_S512x1_S512x64 (ix2 g k)) * W (ix2 k o) = _
  rw [broadcastTo_a1_ab_apply, one_f32]
  rfl

end Cert.KernelIdeal.Hand

end
-- ==== Proof.KI.Val4.lean ====
/-
  The pooling region's value: the 512 x 8 output array after the run is the readout of the reference.

  The two accumulators are folded over the 20 row blocks; at (g, k) the sums' fold is, block after block, the sum over
  the block's rows of hot(g, id of the row) * feature(row, k), and these shares add up to the sum over all 100000 rows
  whose graph id is g: what the host's scatter-add into zeros holds there. The counts likewise against ones. The tail
  (division by max(count, 1), the 64 x 8 product, the bias row, the logistic function) is the same expression on
  both sides, the logistic function being 1 / (1 + exp(-z)) by definition. The output block is the whole array,
  written back at the last point only.
-/
import proofs.«419973_j8177617732163_2_alg».proof.Proof.KI.Reg4
import proofs.«419973_j8177617732163_2_alg».proof.Proof.KI.Pay4
import proofs.«419973_j8177617732163_2_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Cert.LibPool Cert.LibRows
open Idealize.ShloMosaic.Pipeline (Dat Cfg Window)

variable (V : (c : Dev nD) → (b : Ref sig .tc) → Buf (Elt Ideal) ((c : Thread nD τ).loc b))

/-! ## The blocks, read off their arrays -/

/-- The printed index maps over the grid: the two row-blocked inputs move one block per point, the others stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Row `r` of the block of point `t` is row `5000 * t + r` of the array. -/
theorem blockRow4 (t : Fin cfg4.N) (r : Fin 5000) : 5000 * t.val + r.val < 100000 := by
  have h1 : t.val < cfg4.N := t.isLt
  have h2 : cfg4.N = 20 := N_4
  have h3 := r.isLt
  omega

theorem iblk4_0_apply (c : Dev nD) (t : Fin cfg4.N) (r : Fin 5000) (k : Fin 64) :
    iblk4 V c 0 t (ix2 r k) = V c main_v73 (ix2 ⟨5000 * t.val + r.val, blockRow4 t r⟩ k) := by
  obtain ⟨e0, e1, -⟩ := idx_facts4 t
  show V c main_v73 (((cfg4.win 0).blk t).view.emb (ix2 r k)) = _
  refine congrArg (V c main_v73) (funext fun a => Fin.ext ?_)
  match a with
  | ⟨0, _⟩ => show win4_0.index t (0 : Fin 2) * 5000 + 1 * r.val = 5000 * t.val + r.val; omega
  | ⟨1, _⟩ => show win4_0.index t (1 : Fin 2) * 64 + 1 * k.val = k.val; omega

theorem iblk4_1_apply (c : Dev nD) (t : Fin cfg4.N) (r : Fin 5000) (j : Fin 1) :
    iblk4 V c 1 t (ix2 r j) = V c main_v33 (ix2 ⟨5000 * t.val + r.val, blockRow4 t r⟩ j) := by
  obtain ⟨-, -, e0, e1, -⟩ := idx_facts4 t
  show V c main_v33 (((cfg4.win 1).blk t).view.emb (ix2 r j)) = _
  refine congrArg (V c main_v33) (funext fun a => Fin.ext ?_)
  match a with
  | ⟨0, _⟩ => show win4_1.index t (0 : Fin 2) * 5000 + 1 * r.val = 5000 * t.val + r.val; omega
  | ⟨1, _⟩ => show win4_1.index t (1 : Fin 2) * 1 + 1 * j.val = j.val; omega

theorem iblk4_2_eq (c : Dev nD) (t : Fin cfg4.N) : iblk4 V c 2 t = V c main_arg9 := by
  obtain ⟨-, -, -, -, e0, e1, -⟩ := idx_facts4 t
  funext y
  show V c main_arg9 (((cfg4.win 2).blk t).view.emb y) = _
  refine congrArg (V c main_arg9) (funext fun a => Fin.ext ?_)
  match a with
  | ⟨0, _⟩ => show win4_2.index t (0 : Fin 2) * 64 + 1 * (y 0).val = (y 0).val; omega
  | ⟨1, _⟩ => show win4_2.index t (1 : Fin 2) * 8 + 1 * (y 1).val = (y 1).val; omega

theorem iblk4_3_eq (c : Dev nD) (t : Fin cfg4.N) : iblk4 V c 3 t = V c main_v32 := by
  obtain ⟨-, -, -, -, -, -, e0, e1, -⟩ := idx_facts4 t
  funext y
  show V c main_v32 (((cfg4.win 3).blk t).view.emb y) = _
  refine congrArg (V c main_v32) (funext fun a => Fin.ext ?_)
  match a with
  | ⟨0, _⟩ => show win4_3.index t (0 : Fin 2) * 1 + 1 * (y 0).val = (y 0).val; omega
  | ⟨1, _⟩ => show win4_3.index t (1 : Fin 2) * 8 + 1 * (y 1).val = (y 1).val; omega

/-! ## The accumulators after point `n`: the shares of blocks `0 … n` -/

/-- A column of ones beside the rows: what the counts sum. -/
abbrev ones4 : Arr2 100000 1 := fun _ => 1

/-- The region's four inputs as it finds them: node features, graph ids, readout matrix, bias row. -/
abbrev feat4 (c : Dev nD) : Arr2 100000 64 := V c main_v73
abbrev gid4 (c : Dev nD) : IdxCol 100000 := V c main_v33
abbrev wfc4 (c : Dev nD) : Arr2 64 8 := V c main_arg9
abbrev bias4 (c : Dev nD) : Arr2 1 8 := V c main_v32

theorem acc4_fst_apply (c : Dev nD) : ∀ (n : ℕ) (h : n < cfg4.N) (g : Fin 512) (k : Fin 64),
    (acc4 V c n h).1 (ix2 g k)
      = ∑ s ∈ Finset.range (n + 1), share 20 5000 rfl (gid4 V c) (feat4 V c) g.val k s
  | 0, h, g, k => by
    rw [acc4_zero]
    show k4_pay4 (F := Ideal) (iblk4 V c 1 ⟨0, h⟩) (iblk4 V c 0 ⟨0, h⟩) (k4_pay1 (F := Ideal)) (ix2 g k) = _
    rw [pay4_apply, pay1_apply, zero_add, Finset.sum_range_one]
    unfold share
    rw [dif_pos (by decide)]
    refine Finset.sum_congr rfl fun r _ => ?_
    rw [iblk4_1_apply, iblk4_0_apply]
  | n + 1, h, g, k => by
    rw [acc4_succ]
    show k4_pay4 (F := Ideal) (iblk4 V c 1 ⟨n + 1, h⟩) (iblk4 V c 0 ⟨n + 1, h⟩)
      (acc4 V c n (Nat.lt_of_succ_lt h)).1 (ix2 g k) = _
    rw [pay4_apply, acc4_fst_apply c n (Nat.lt_of_succ_lt h) g k, Finset.sum_range_succ _ (n + 1)]
    congr 1
    unfold share
    rw [dif_pos (by have : cfg4.N = 20 := N_4; omega)]
    refine Finset.sum_congr rfl fun r _ => ?_
    rw [iblk4_1_apply, iblk4_0_apply]

theorem acc4_snd_apply (c : Dev nD) : ∀ (n : ℕ) (h : n < cfg4.N) (g : Fin 512) (j : Fin 1),
    (acc4 V c n h).2 (ix2 g j)
      = ∑ s ∈ Finset.range (n + 1), share 20 5000 rfl (gid4 V c) ones4 g.val (0 : Fin 1) s
  | 0, h, g, j => by
    rw [acc4_zero]
    show k4_pay5 (F := Ideal) (iblk4 V c 1 ⟨0, h⟩) (k4_pay2 (F := Ideal)) (ix2 g j) = _
    rw [pay5_apply, pay2_apply, zero_add, Finset.sum_range_one]
    unfold share
    rw [dif_pos (by decide)]
    refine Finset.sum_congr rfl fun r _ => ?_
    rw [iblk4_1_apply]
  | n + 1, h, g, j => by
    rw [acc4_succ]
    show k4_pay5 (F := Ideal) (iblk4 V c 1 ⟨n + 1, h⟩) (acc4 V c n (Nat.lt_of_succ_lt h)).2 (ix2 g j) = _
    rw [pay5_apply, acc4_snd_apply c n (Nat.lt_of_succ_lt h) g j, Finset.sum_range_succ _ (n + 1)]
    congr 1
    unfold share
    rw [dif_pos (by have : cfg4.N = 20 := N_4; omega)]
    refine Finset.sum_congr rfl fun r _ => ?_
    rw [iblk4_1_apply]

/-- After the last point the sums hold, at (g, k), the sum of the features' column k over the rows of graph g. -/
theorem sums4_apply (c : Dev nD) (g : Fin 512) (k : Fin 64) :
    (acc4 V c 19 lt19_4).1 (ix2 g k)
      = ∑ i : Fin 100000, if (gid4 V c (ix2 i 0)).toInt = (g.val : Int) then feat4 V c (ix2 i k) else 0 := by
  rw [acc4_fst_apply]
  exact sum_share 20 5000 rfl (gid4 V c) (feat4 V c) g.val k

/-- … and the counts, at (g, 0), the number of rows of graph g. -/
theorem counts4_apply (c : Dev nD) (g : Fin 512) (j : Fin 1) :
    (acc4 V c 19 lt19_4).2 (ix2 g j)
      = ∑ i : Fin 100000, if (gid4 V c (ix2 i 0)).toInt = (g.val : Int) then (1 : EReal) else 0 := by
  rw [acc4_snd_apply]
  exact sum_share 20 5000 rfl (gid4 V c) ones4 g.val (0 : Fin 1)

/-! ## The reference's readout at an index -/

/-- The host's dimension numbers, as the general row and entry scatters and the plain product. -/
theorem ref_scatter_rows_eq : Cert.ReferenceIdeal.scatter_S512x64_S100000x1_S100000x64_1_0_0_1
    = rowScatterDims 512 64 100000 Cert.ReferenceIdeal.scatter_S512x64_S100000x1_S100000x64_1_0_0_1.wf := rfl
theorem ref_scatter_vec_eq : Cert.ReferenceIdeal.scatter_S512_S100000x1_S100000_n_0_0_1
    = vecScatterDims 512 100000 Cert.ReferenceIdeal.scatter_S512_S100000x1_S100000_n_0_0_1.wf := rfl
theorem ref_dot_eq : Cert.ReferenceIdeal.dot_S512x64_S64x8_S512x8_1_0_0_1_n_n = DotDims.plain 512 64 8 := rfl

theorem segSum_apply (x : Arr2 100000 64) (br : IdxCol 100000) (g : Fin 512) (k : Fin 64) :
    Cert.Spec.segSum (F := Ideal) x br (ix2 g k)
      = ∑ i : Fin 100000, if (br (ix2 i 0)).toInt = (g.val : Int) then x (ix2 i k) else 0 := by
  unfold Cert.Spec.segSum
  rw [ref_scatter_rows_eq]
  exact scatterAdd_rows_zero_apply _ _ (fun i => Ideal.ofBits_zero_f32) br x g k

theorem segCnt_apply (br : IdxCol 100000) (g : Fin 512) :
    Cert.Spec.segCnt (F := Ideal) br (ix1 g)
      = max (∑ i : Fin 100000, if (br (ix2 i 0)).toInt = (g.val : Int) then (1 : EReal) else 0) 1 := by
  unfold Cert.Spec.segCnt
  rw [ref_scatter_vec_eq, maximumf_apply]
  refine congrArg₂ max ?_ one_f32
  refine (scatterAdd_vec_zero_apply _ _ (fun i => Ideal.ofBits_zero_f32) br _ g).trans ?_
  refine Finset.sum_congr rfl fun i _ => ?_
  exact if_congr Iff.rfl one_f32 rfl

/-- The host's quotient, exponential and negation read at an index. -/
theorem hostDivf_apply {s : Shape} {φ : FTy} (a b : FVec Ideal s φ) (i : s.Idx) :
    Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- A scalar constant broadcast to any shape reads the constant's value everywhere. -/
theorem bcast_scalar_apply {t : Shape} (h : (⟨0, ![]⟩ : Shape).BroadcastsInDim t (![] : Fin 0 → Fin t.rank))
    (b : BitVec 32) (j : t.Idx) :
    broadcastInDim t ![] h (constant (F := Ideal) ⟨0, ![]⟩ .f32 b) j = Ideal.ofBits .f32 b := rfl

/-- The clamped counts, a 512-vector, broadcast along each graph's line of 64. -/
theorem cnt_line_apply (v : Arr1 512) (h1 : (⟨1, ![512]⟩ : Shape).BroadcastsInDim ⟨2, ![512, 1]⟩ ![0])
    (h2 : (⟨2, ![512, 1]⟩ : Shape).BroadcastsInDim ⟨2, ![512, 64]⟩ ![0, 1]) (g : Fin 512) (k : Fin 64) :
    broadcastInDim ⟨2, ![512, 64]⟩ ![0, 1] h2 (broadcastInDim ⟨2, ![512, 1]⟩ ![0] h1 v) (ix2 g k) = v (ix1 g) := by
  refine (broadcastInDim_apply _ h2 _ (ix2 g k) (ix2 g (0 : Fin 1)) fun a => ?_).trans
    (broadcastInDim_apply _ h1 v (ix2 g (0 : Fin 1)) (ix1 g) fun a => ?_)
  · match a with
    | ⟨0, _⟩ => rfl
    | ⟨1, _⟩ => rfl
  · match a with
    | ⟨0, _⟩ => rfl

/-- The bias row broadcast over the 512 graphs. -/
theorem bias_row_apply (v : Arr2 1 8) (h : (⟨2, ![1, 8]⟩ : Shape).BroadcastsInDim ⟨2, ![512, 8]⟩ ![0, 1]) (g : Fin 512) (o : Fin 8) :
    broadcastInDim ⟨2, ![512, 8]⟩ ![0, 1] h v (ix2 g o) = v (ix2 (0 : Fin 1) o) :=
  broadcastInDim_apply _ h v (ix2 g o) (ix2 (0 : Fin 1) o) fun a => by
    match a with
    | ⟨0, _⟩ => rfl
    | ⟨1, _⟩ => rfl

theorem pool_apply (x : Arr2 100000 64) (br : IdxCol 100000) (wfc : Arr2 64 8) (bfcr : Arr2 1 8) (g : Fin 512) (o : Fin 8) :
    Cert.Spec.pool (F := Ideal) x br wfc bfcr (ix2 g o)
      = Ideal.logistic ((∑ k : Fin 64, Ideal.div (Cert.Spec.segSum (F := Ideal) x br (ix2 g k))
          (Cert.Spec.segCnt (F := Ideal) br (ix1 g)) * wfc (ix2 k o)) + bfcr (ix2 0 o)) := by
  unfold Cert.Spec.pool
  rw [hostDivf_apply, addf_apply, hostExp_apply, hostNegf_apply, addf_apply, bcast_scalar_apply, one_f32, bias_row_apply]
  simp only [Host.dotGeneral]
  rw [ref_dot_eq, dotGeneral_plain_apply]
  unfold Ideal.logistic
  refine congrArg (fun z : EReal => Ideal.div 1 (1 + Ideal.exp (-(z + bfcr (ix2 0 o))))) ?_
  refine Finset.sum_congr rfl fun k _ => ?_
  rw [hostDivf_apply, cnt_line_apply]

/-! ## The output block is the reference's readout -/

theorem out4_eq_pool (c : Dev nD) :
    out4 V c = Cert.Spec.pool (V c main_v73) (V c main_v33) (V c main_arg9) (V c main_v32) := by
  funext j
  obtain ⟨g, o, rfl⟩ : ∃ (g : Fin 512) (o : Fin 8), j = ix2 g o := ⟨j 0, j 1, eq_ix2 j⟩
  unfold out4
  rw [pay6_apply, iblk4_2_eq, iblk4_3_eq]
  refine Eq.trans ?_ (pool_apply (feat4 V c) (gid4 V c) (wfc4 V c) (bias4 V c) g o).symm
  refine congrArg (fun z : EReal => Ideal.logistic (z + bias4 V c (ix2 0 o))) ?_
  refine Finset.sum_congr rfl fun k _ => ?_
  rw [sums4_apply, counts4_apply, segSum_apply, segCnt_apply]

/-! ## From the block to the array -/

/-- What the last point writes back is the whole of `out4`. -/
theorem flushed4_eq (c : Dev nD) (t : Fin cfg4.N) :
    (dat4 V c).flushed 4 t = ((cfg4.win 4).blk t).view.read (Elt Ideal) (out4 V c) := by
  show (cfg4.win 4).cut (grid4.coords t) ((dat4 V c).after 4 t) = _
  rw [after4_4]
  obtain ⟨-, -, -, -, -, -, -, -, e0, e1⟩ := idx_facts4 t
  funext j
  show out4 V c ((cfg4.win 4).xinj (grid4.coords t) j) = out4 V c (((cfg4.win 4).blk t).view.emb j)
  refine congrArg (out4 V c) (funext fun a => Fin.ext ?_)
  match a with
  | ⟨0, _⟩ => show (j 0).val = win4_4.index t (0 : Fin 2) * 512 + 1 * (j 0).val; omega
  | ⟨1, _⟩ => show (j 1).val = win4_4.index t (1 : Fin 2) * 8 + 1 * (j 1).val; omega

/-- The last point's block is the whole array. -/
theorem cover4 (i : S512x8.Idx) :
    ∃ t : Fin cfg4.N, (cfg4.win 4).flush t = true ∧ i ∈ ((cfg4.win 4).blk t).view.set := by
  refine ⟨⟨19, lt19_4⟩, (flush4_4 _).mpr rfl, ?_⟩
  obtain ⟨-, -, -, -, -, -, -, -, e0, e1⟩ := idx_facts4 ⟨19, lt19_4⟩
  show i ∈ ((View.whole main_v74).slice (win4_4.rect ⟨19, lt19_4⟩)).set
  rw [View.set_slice_whole, Rect.mem_set_unit]
  intro a
  match a with
  | ⟨0, _⟩ =>
    show win4_4.index ⟨19, lt19_4⟩ (0 : Fin 2) * 512 ≤ (i 0).val ∧ (i 0).val < win4_4.index ⟨19, lt19_4⟩ (0 : Fin 2) * 512 + 512
    have := idx2_lt0 i; omega
  | ⟨1, _⟩ =>
    show win4_4.index ⟨19, lt19_4⟩ (1 : Fin 2) * 8 ≤ (i 1).val ∧ (i 1).val < win4_4.index ⟨19, lt19_4⟩ (1 : Fin 2) * 8 + 8
    have := idx2_lt1 i; omega

/-- THE OUTPUT ARRAY after the run is the reference's readout of the region's inputs. -/
theorem final4 (c : Dev nD) :
    (dat4 (F := Ideal) V c).arrAt 4 cfg4.N
      = Cert.Spec.pool (V c main_v73) (V c main_v33) (V c main_arg9) (V c main_v32) := by
  rw [← out4_eq_pool V c]
  exact (dat4 V c).arrAt_eq_of_cover 4 (out4 V c) (fun t _ => flushed4_eq V c t) (cover4)

end Cert.KernelIdeal.Hand

end
-- ==== Proof.KI.Assemble.lean ====
/-
  The kernel's program computes the reference's network. Its result buffer after the last item is what the readout
  region wrote; that region's array is the readout of what it read; each array it read is what an earlier region or
  host stretch left, which in turn is the named piece of the network (the product with the weights, the neighbour sum,
  the convolution's update) of the arrays before it; and so down to the eleven arguments. One equation per
  intermediate array, then their composition.
-/
import proofs.«419973_j8177617732163_2_alg».proof.Proof.KI.Outs
import proofs.«419973_j8177617732163_2_alg».proof.Proof.KI.Carry
import proofs.«419973_j8177617732163_2_alg».proof.Proof.KI.HostVals
import proofs.«419973_j8177617732163_2_alg».proof.Proof.RefSpec
import proofs.«419973_j8177617732163_2_alg».proof.Proof.KI.Val0
import proofs.«419973_j8177617732163_2_alg».proof.Proof.KI.Val1
import proofs.«419973_j8177617732163_2_alg».proof.Proof.KI.Val2
import proofs.«419973_j8177617732163_2_alg».proof.Proof.KI.Val3
import proofs.«419973_j8177617732163_2_alg».proof.Proof.KI.Val4

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

/-! ## Equal arguments give equal values -/

theorem asm_app2 {α β γ : Type} (f : α → β → γ) {a a' : α} {b b' : β} (ha : a = a') (hb : b = b') :
    f a b = f a' b' := by rw [ha, hb]

theorem asm_app4 {α β γ δ ε : Type} (f : α → β → γ → δ → ε) {a a' : α} {b b' : β} {c c' : γ} {d d' : δ}
    (ha : a = a') (hb : b = b') (hc : c = c') (hd : d = d') : f a b c d = f a' b' c' d' := by rw [ha, hb, hc, hd]

/-! ## The network's intermediate arrays, as terms of the arguments -/

/-- The first layer's product: x times W0. -/
def h0T : (⟨Cert.ReferenceIdeal.S100000x64, .f32⟩ : BufTy).Contents (Elt Ideal) :=
  Cert.Spec.mm (m ((c : Thread nD τ).loc main_arg0)) (m ((c : Thread nD τ).loc main_arg3))
/-- The first layer's features. -/
def x1T : (⟨Cert.ReferenceIdeal.S100000x64, .f32⟩ : BufTy).Contents (Elt Ideal) :=
  Cert.Spec.layer (Cert.Spec.agg (m ((c : Thread nD τ).loc main_arg1)) (h0T m c)) (h0T m c) (Cert.Spec.dinv2 (F := Ideal) (m ((c : Thread nD τ).loc main_arg1))) (Cert.Spec.brow (m ((c : Thread nD τ).loc main_arg4)))
/-- The second layer's product: the first layer's features times W1. -/
def h1T : (⟨Cert.ReferenceIdeal.S100000x64, .f32⟩ : BufTy).Contents (Elt Ideal) :=
  Cert.Spec.mm (x1T m c) (m ((c : Thread nD τ).loc main_arg5))
/-- The second layer's features. -/
def x2T : (⟨Cert.ReferenceIdeal.S100000x64, .f32⟩ : BufTy).Contents (Elt Ideal) :=
  Cert.Spec.layer (Cert.Spec.agg (m ((c : Thread nD τ).loc main_arg1)) (h1T m c)) (h1T m c) (Cert.Spec.dinv2 (F := Ideal) (m ((c : Thread nD τ).loc main_arg1))) (Cert.Spec.brow (m ((c : Thread nD τ).loc main_arg6)))
/-- The third layer's product: the second layer's features times W2. -/
def h2T : (⟨Cert.ReferenceIdeal.S100000x64, .f32⟩ : BufTy).Contents (Elt Ideal) :=
  Cert.Spec.mm (x2T m c) (m ((c : Thread nD τ).loc main_arg7))
/-- The third layer's features. -/
def x3T : (⟨Cert.ReferenceIdeal.S100000x64, .f32⟩ : BufTy).Contents (Elt Ideal) :=
  Cert.Spec.layer (Cert.Spec.agg (m ((c : Thread nD τ).loc main_arg1)) (h2T m c)) (h2T m c) (Cert.Spec.dinv2 (F := Ideal) (m ((c : Thread nD τ).loc main_arg1))) (Cert.Spec.brow (m ((c : Thread nD τ).loc main_arg8)))

/-- The network is the readout of the third layer's features. -/
theorem gcn_eq_pool :
    Cert.Spec.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      = Cert.Spec.pool (x3T m c) (Cert.Spec.bcol (m ((c : Thread nD τ).loc main_arg2))) (m ((c : Thread nD τ).loc main_arg9)) (Cert.Spec.brow8 (m ((c : Thread nD τ).loc main_arg10))) := rfl

/-! ## What the first host stretch leaves: functions of the arguments -/

theorem v1_src : V1 m c main_v1 = Cert.Spec.src (m ((c : Thread nD τ).loc main_arg1)) := host0_v1 (V0 m c)
theorem v1_dst : V1 m c main_v3 = Cert.Spec.dst (m ((c : Thread nD τ).loc main_arg1)) := host0_v3 (V0 m c)
theorem v1_coef : V1 m c main_v26 = Cert.Spec.coefB (F := Ideal) (m ((c : Thread nD τ).loc main_arg1)) := host0_v26 (V0 m c)
theorem v1_dinv2 : V1 m c main_v28 = Cert.Spec.dinv2 (F := Ideal) (m ((c : Thread nD τ).loc main_arg1)) := host0_v28 (V0 m c)
theorem v1_b0 : V1 m c main_v29 = Cert.Spec.brow (m ((c : Thread nD τ).loc main_arg4)) := host0_v29 (V0 m c)
theorem v1_b1 : V1 m c main_v30 = Cert.Spec.brow (m ((c : Thread nD τ).loc main_arg6)) := host0_v30 (V0 m c)
theorem v1_b2 : V1 m c main_v31 = Cert.Spec.brow (m ((c : Thread nD τ).loc main_arg8)) := host0_v31 (V0 m c)
theorem v1_bfc : V1 m c main_v32 = Cert.Spec.brow8 (m ((c : Thread nD τ).loc main_arg10)) := host0_v32 (V0 m c)
theorem v1_batch : V1 m c main_v33 = Cert.Spec.bcol (m ((c : Thread nD τ).loc main_arg2)) := host0_v33 (V0 m c)

/-! ## The first layer -/

/-- Region 0 leaves x times W0. -/
theorem h0K : o1 m 2 main_v34 c = h0T m c :=
  (o1_2 m c).trans <| (final0 (Vin0 m) c).trans <|
    asm_app2 Cert.Spec.mm (carry1_main_arg0 m c) (carry1_main_arg3 m c)

/-- The host stretch after it leaves the neighbour sum of that product. -/
theorem agg0K : V3 m (o1 m) c main_v46 = Cert.Spec.agg (m ((c : Thread nD τ).loc main_arg1)) (h0T m c) :=
  (host1_v46 (V2 m (o1 m) c)).trans <|
    asm_app4 Cert.Spec.aggOf ((carry2_main_v1 m (o1 m) c).trans (v1_src m c)) ((carry2_main_v3 m (o1 m) c).trans (v1_dst m c))
      ((carry2_main_v26 m (o1 m) c).trans (v1_coef m c)) ((carry2_main_v34 m (o1 m) c).trans (h0K m c))

/-- What region 1 computes from the buffers it reads is the first layer's features. -/
theorem x1K :
    Cert.Spec.layer (Vin1 m c main_v46) (Vin1 m c main_v34) (Vin1 m c main_v28) (Vin1 m c main_v29) = x1T m c :=
  asm_app4 Cert.Spec.layer (agg0K m c) ((carry3_main_v34 m (o1 m) c).trans (h0K m c))
    ((carry3_main_v28 m (o1 m) c).trans (v1_dinv2 m c)) ((carry3_main_v29 m (o1 m) c).trans (v1_b0 m c))

/-! ## The second layer -/

/-- Region 1 leaves the first layer's features times W1. -/
theorem h1K : o2 m 4 main_v47_1 c = h1T m c :=
  (o2_4b m c).trans <| (final1_6 (Vin1 m) c).trans <|
    asm_app2 Cert.Spec.mm (x1K m c) (carry3_main_arg5 m (o1 m) c)

theorem agg1K : V5 m (o2 m) c main_v59 = Cert.Spec.agg (m ((c : Thread nD τ).loc main_arg1)) (h1T m c) :=
  (host2_v59 (V4 m (o2 m) c)).trans <|
    asm_app4 Cert.Spec.aggOf ((carry4_main_v1 m (o2 m) c).trans (v1_src m c)) ((carry4_main_v3 m (o2 m) c).trans (v1_dst m c))
      ((carry4_main_v26 m (o2 m) c).trans (v1_coef m c)) ((carry4_main_v47_1 m (o2 m) c).trans (h1K m c))

theorem x2K :
    Cert.Spec.layer (Vin2 m c main_v59) (Vin2 m c main_v47_1) (Vin2 m c main_v28) (Vin2 m c main_v30) = x2T m c :=
  asm_app4 Cert.Spec.layer (agg1K m c) ((carry5_main_v47_1 m (o2 m) c).trans (h1K m c))
    ((carry5_main_v28 m (o2 m) c).trans (v1_dinv2 m c)) ((carry5_main_v30 m (o2 m) c).trans (v1_b1 m c))

/-! ## The third layer -/

/-- Region 2 leaves the second layer's features times W2. -/
theorem h2K : o3 m 6 main_v60_1 c = h2T m c :=
  (o3_6b m c).trans <| (final2_6 (Vin2 m) c).trans <|
    asm_app2 Cert.Spec.mm (x2K m c) (carry5_main_arg7 m (o2 m) c)

theorem agg2K : V7 m (o3 m) c main_v72 = Cert.Spec.agg (m ((c : Thread nD τ).loc main_arg1)) (h2T m c) :=
  (host3_v72 (V6 m (o3 m) c)).trans <|
    asm_app4 Cert.Spec.aggOf ((carry6_main_v1 m (o3 m) c).trans (v1_src m c)) ((carry6_main_v3 m (o3 m) c).trans (v1_dst m c))
      ((carry6_main_v26 m (o3 m) c).trans (v1_coef m c)) ((carry6_main_v60_1 m (o3 m) c).trans (h2K m c))

/-- Region 3 leaves the third layer's features. -/
theorem x3K : o4 m 8 main_v73 c = x3T m c :=
  (o4_8 m c).trans <| (final3 (Vin3 m) c).trans <|
    asm_app4 Cert.Spec.layer (agg2K m c) ((carry7_main_v60_1 m (o3 m) c).trans (h2K m c))
      ((carry7_main_v28 m (o3 m) c).trans (v1_dinv2 m c)) ((carry7_main_v31 m (o3 m) c).trans (v1_b2 m c))

/-! ## The readout, and the whole -/

/-- Region 4 leaves the readout of the third layer's features. -/
theorem outK :
    o5 m 9 main_v74 c = Cert.Spec.pool (x3T m c) (Cert.Spec.bcol (m ((c : Thread nD τ).loc main_arg2))) (m ((c : Thread nD τ).loc main_arg9)) (Cert.Spec.brow8 (m ((c : Thread nD τ).loc main_arg10))) :=
  (o5_9 m c).trans <| (final4 (Vin4 m) c).trans <|
    asm_app4 Cert.Spec.pool ((carry8_main_v73 m (o4 m) c).trans (x3K m c)) ((carry8_main_v33 m (o4 m) c).trans (v1_batch m c))
      (carry8_main_arg9 m (o4 m) c) ((carry8_main_v32 m (o4 m) c).trans (v1_bfc m c))

/-- The result buffer after the last item holds the reference's network of the eleven arguments. -/
theorem resK_eq :
    V9 m (o5 m) c main_v74
      = Cert.Spec.gcn (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10)) :=
  (carry9_main_v74 m (o5 m) c).trans <| (outK m c).trans (gcn_eq_pool m c).symm

end Cert.KernelIdeal.Hand

end
-- ==== Proof.lean ====
/-
  The certificate of a three-layer graph convolution network with mean pooling and a logistic readout: the Pallas
  program (five kernel launches among host stretches) against its jnp reference, over the extended reals.

  Both programs compute, for 100000 nodes with 64 features, 1250000 directed edges and 512 graphs:
    deg = 1 + (number of edges into a node),  dinv = deg^(-1/2),
    layer(x, W, b) = max(agg(x W) + (x W) * dinv^2 + b, 0)  with  agg(h)[i] = sum over edges (s -> i) of h[s] * dinv[s] * dinv[i],
    three such layers, then per graph the mean of its nodes' rows (dividing by max(count, 1)), a 64 x 8 product, a bias
    and 1 / (1 + exp(-z)).
  The gathers and scatter-adds over the edge list are the same host operations in both programs. The kernel computes the
  three dense products, the three combine-and-clamp steps and the readout block by block (20 blocks of 5000 rows); its
  readout accumulates the per-graph sums as products with a 0/1 membership matrix, which over the extended reals is the
  same sum as the reference's scatter-add (0 * x = 0 and 1 * x = x hold there for every x, and addition is commutative and
  associative), so no finiteness of the inputs is used.

  * the kernel's run, at the word level and idealized: Proof/KW/Run.lean, Proof/KI/Run.lean (five region records over the
    regions' halves Reg0 … Reg4 and the contents table of Outs.lean, launched through the conditional frame);
  * what each region's output array holds as a function of the arrays it read: Proof/KI/Val0 … Val4;
  * the host stretches' values: Proof/KI/HostVals.lean, carried along the valuations by Proof/KI/Carry.lean;
  * the composition to the network `Cert.Spec.gcn`: Proof/KI/Assemble.lean; the reference's run equals the same `gcn`: Proof/RefSpec.lean.
-/
import proofs.«419973_j8177617732163_2_alg».proof.Defs
import proofs.«419973_j8177617732163_2_alg».proof.Proof.Gen.Kernel
import proofs.«419973_j8177617732163_2_alg».proof.Proof.Gen.KernelIdeal
import proofs.«419973_j8177617732163_2_alg».proof.Proof.Gen.ReferenceIdeal
import proofs.«419973_j8177617732163_2_alg».proof.Proof.Gen.Pre_finite_inputs
import proofs.«419973_j8177617732163_2_alg».proof.Proof.KW.Run
import proofs.«419973_j8177617732163_2_alg».proof.Proof.KI.Run
import proofs.«419973_j8177617732163_2_alg».proof.Proof.KI.Assemble
import proofs.«419973_j8177617732163_2_alg».proof.Proof.RefSpec
import proofs.«419973_j8177617732163_2_alg».proof.Proof.RefRun
import Idealize.ShloMosaic.Adequacy
import Idealize.ShloMosaic.Init

noncomputable section

namespace Cert.Proof

open Idealize.ShloMosaic Idealize.ShloMosaic.TcCoe Idealize.SL.Sem

/-- The word-level program runs to its return and leaves its arguments as launched. -/
theorem frame_k : Cert.frame_Kernel := fun m ρ _ =>
  (θ_run Cert.Kernel.defs _ _).mono (fun _ h c => (h c).2) (Cert.Kernel.Hand.run_main (F := Bits) m ρ)

/-- So does its reading over the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the eleven arguments both programs end with the network's value of those arguments:
    the kernel's result array is `gcn` of its arguments (`resK_eq`), the reference's result term is `gcn` of its own
    (`res_eq_gcn`), and the arguments agree. -/
theorem algebraic : Cert.algebraic_KernelIdeal_ReferenceIdeal := by
  intro m ρ m' ρ' _ hagree
  refine ⟨fun c => Cert.KernelIdeal.Gen.V9 m (Cert.KernelIdeal.Hand.o5 m) c Cert.KernelIdeal.main_v74,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.Spec.res_eq_gcn, h0, h1, h2, h3, h4, h5, h6, h7, h8, h9, h10]
  exact (Cert.KernelIdeal.Hand.resK_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
